-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v193) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S16x1024x1024 : Shape := ⟨3, ![16, 1024, 1024]⟩
abbrev S16x1024 : Shape := ⟨2, ![16, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S16x1024 : S_.BroadcastsInDim S16x1024 (![] : Fin 0 → Fin S16x1024.rank)
  reducesTo_S16x1024_S_d0_1 : S16x1024.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : IVec S8192 32) (main_v13 : IVec S_ 1) (main_v15 : IVec S8192 1) (main_c_5 : IVec S_ 32) : IVec S_ 1 :=
  let main_v16 : IVec S8192 32 := broadcastInDim S8192 ![] bcast_S_S8192 main_c_5
  let main_v17 : IVec S8192 1 := cmpi .slt main_arg1 main_v16
  let main_v18 : IVec S8192 1 := andi main_v15 main_v17
  let main_c_6 : IVec S_ 1 := constantI S_ 1 1#1
  let main_v19 : IVec S_ 1 := (fun x v => Host.reduce IntOp.andi x v reducesTo_S8192_S_d0 h_S_) main_v18 main_c_6
  let main_v20 : IVec S_ 1 := andi main_v13 main_v19
  main_v20

def fn {F : FTy → Type} [FloatOps F] (main_arg0 : FVec F S8192x1024 .f32) (main_arg1 : IVec S8192 32) (main_arg2 : FVec F S16x1024x1024 .f32) (main_arg3 : FVec F S16x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S16x1024x1024 .f32 := Host.absf main_arg2
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024 .f32 := Host.absf main_arg3
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_c_4 : IVec S_ 32 := constantI S_ 32 0#32
  let main_v14 : IVec S8192 32 := broadcastInDim S8192 ![] bcast_S_S8192 main_c_4
  let main_v15 : IVec S8192 1 := cmpi .sge main_arg1 main_v14
  let main_c_5 : IVec S_ 32 := constantI S_ 32 16#32
  fn_part1 (F := F) main_arg1 main_v13 main_v15 main_c_5
-- ==== Kernel.lean ====
abbrev S8192x1024 : Shape := ⟨2, ![8192, 1024]⟩
abbrev S8192 : Shape := ⟨1, ![8192]⟩
abbrev S16x1024x1024 : Shape := ⟨3, ![16, 1024, 1024]⟩
abbrev S16x1024 : Shape := ⟨2, ![16, 1024]⟩
abbrev S_ : Shape := ⟨0, ![]⟩
abbrev S8192x1 : Shape := ⟨2, ![8192, 1]⟩
abbrev S16 : Shape := ⟨1, ![16]⟩
abbrev S1 : Shape := ⟨1, ![1]⟩
abbrev S15 : Shape := ⟨1, ![15]⟩
abbrev S10240x1024 : Shape := ⟨2, ![10240, 1024]⟩
abbrev S80 : Shape := ⟨1, ![80]⟩
abbrev S80x1 : Shape := ⟨2, ![80, 1]⟩
abbrev S1x15 : Shape := ⟨2, ![1, 15]⟩
abbrev S80x15 : Shape := ⟨2, ![80, 15]⟩
abbrev S16x1x1024 : Shape := ⟨3, ![16, 1, 1024]⟩
abbrev S128x1024 : Shape := ⟨2, ![128, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 145
  | .vmem => 8
  | .smem => 2
  | _ => 0

abbrev hbmTy0_0 (i : Nat) : BufTy := match i % 128 with
  | 0 => ⟨S8192x1024, .f32⟩
  | 1 => ⟨S8192, .i32⟩
  | 2 => ⟨S16x1024x1024, .f32⟩
  | 3 => ⟨S16x1024, .f32⟩
  | 4 => ⟨S8192, .i32⟩
  | 5 => ⟨S8192, .i32⟩
  | 6 => ⟨S8192, .i32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192, .i32⟩
  | 16 => ⟨S_, .i32⟩
  | 17 => ⟨S16, .i32⟩
  | 18 => ⟨S_, .i32⟩
  | 19 => ⟨S8192, .i32⟩
  | 20 => ⟨S8192, .i1⟩
  | 21 => ⟨S_, .i32⟩
  | 22 => ⟨S8192, .i32⟩
  | 23 => ⟨S8192, .i32⟩
  | 24 => ⟨S8192, .i32⟩
  | 25 => ⟨S8192x1, .i32⟩
  | 26 => ⟨S_, .i32⟩
  | 27 => ⟨S8192, .i32⟩
  | 28 => ⟨S16, .i32⟩
  | 29 => ⟨S_, .i32⟩
  | 30 => ⟨S1, .i32⟩
  | 31 => ⟨S_, .i32⟩
  | 32 => ⟨S_, .i32⟩
  | 33 => ⟨S16, .i32⟩
  | 34 => ⟨S15, .i32⟩
  | 35 => ⟨S16, .i32⟩
  | 36 => ⟨S_, .i32⟩
  | 37 => ⟨S16, .i32⟩
  | 38 => ⟨S16, .i32⟩
  | 39 => ⟨S_, .i32⟩
  | 40 => ⟨S16, .i32⟩
  | 41 => ⟨S16, .i32⟩
  | 42 => ⟨S_, .i32⟩
  | 43 => ⟨S_, .i32⟩
  | 44 => ⟨S16, .i32⟩
  | 45 => ⟨S16, .i32⟩
  | 46 => ⟨S16, .i32⟩
  | 47 => ⟨S_, .i32⟩
  | 48 => ⟨S16, .i32⟩
  | 49 => ⟨S16, .i1⟩
  | 50 => ⟨S16, .i32⟩
  | 51 => ⟨S16, .i32⟩
  | 52 => ⟨S_, .i32⟩
  | 53 => ⟨S16, .i32⟩
  | 54 => ⟨S16, .i1⟩
  | 55 => ⟨S16, .i1⟩
  | 56 => ⟨S_, .i32⟩
  | 57 => ⟨S16, .i32⟩
  | 58 => ⟨S16, .i32⟩
  | 59 => ⟨S16, .i32⟩
  | 60 => ⟨S_, .i32⟩
  | 61 => ⟨S16, .i32⟩
  | 62 => ⟨S16, .i32⟩
  | 63 => ⟨S_, .i32⟩
  | 64 => ⟨S1, .i32⟩
  | 65 => ⟨S_, .i32⟩
  | 66 => ⟨S_, .i32⟩
  | 67 => ⟨S16, .i32⟩
  | 68 => ⟨S15, .i32⟩
  | 69 => ⟨S16, .i32⟩
  | 70 => ⟨S_, .i32⟩
  | 71 => ⟨S_, .i32⟩
  | 72 => ⟨S8192, .i32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S8192x1, .i32⟩
  | 81 => ⟨S8192, .i32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192, .i32⟩
  | 91 => ⟨S8192, .i32⟩
  | 92 => ⟨S8192, .i32⟩
  | 93 => ⟨S_, .i32⟩
  | 94 => ⟨S8192, .i32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192, .i32⟩
  | 104 => ⟨S8192x1024, .bf16⟩
  | 105 => ⟨S_, .bf16⟩
  | 106 => ⟨S10240x1024, .bf16⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S10240x1024, .bf16⟩
  | 116 => ⟨S80, .i32⟩
  | 117 => ⟨S_, .i32⟩
  | 118 => ⟨S80, .i32⟩
  | 119 => ⟨S80, .i32⟩
  | 120 => ⟨S80x1, .i32⟩
  | 121 => ⟨S15, .i32⟩
  | 122 => ⟨S1x15, .i32⟩
  | 123 => ⟨S80x15, .i32⟩
  | 124 => ⟨S80x15, .i32⟩
  | 125 => ⟨S80x15, .i1⟩
  | 126 => ⟨S80x15, .i32⟩
  | 127 => ⟨S_, .i32⟩
  | _ => ⟨S8192x1024, .f32⟩

abbrev hbmTy0_1 (i : Nat) : BufTy := match i % 128 with
  | 0 => ⟨S80, .i32⟩
  | 1 => ⟨S_, .i32⟩
  | 2 => ⟨S80, .i32⟩
  | 3 => ⟨S80, .i32⟩
  | 4 => ⟨S80, .i1⟩
  | 5 => ⟨S16x1024x1024, .bf16⟩
  | 6 => ⟨S16x1x1024, .f32⟩
  | 7 => ⟨S10240x1024, .f32⟩
  | 8 => ⟨S_, .i32⟩
  | 9 => ⟨S8192, .i32⟩
  | 10 => ⟨S8192, .i1⟩
  | 11 => ⟨S_, .i32⟩
  | 12 => ⟨S8192, .i32⟩
  | 13 => ⟨S8192, .i32⟩
  | 14 => ⟨S8192, .i32⟩
  | 15 => ⟨S8192x1, .i32⟩
  | 16 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S128x1024, .f32⟩
  | .local _ .vmem, ⟨7, _⟩ => ⟨S128x1024, .f32⟩
  | .local _ .smem, ⟨0, _⟩ => ⟨S80, .i32⟩
  | .local _ .smem, ⟨1, _⟩ => ⟨S80, .i32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_call1_call0_c : Ref sig .tc := ⟨.hbm, 31, rfl⟩
abbrev main_call1_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_c_7 : Ref sig .tc := ⟨.hbm, 39, rfl⟩
abbrev main_v23 : Ref sig .tc := ⟨.hbm, 40, rfl⟩
abbrev main_v24 : Ref sig .tc := ⟨.hbm, 41, rfl⟩
abbrev main_c_8 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_c : Ref sig .tc := ⟨.hbm, 52, rfl⟩
abbrev main_call2_v9 : Ref sig .tc := ⟨.hbm, 53, rfl⟩
abbrev main_call2_v10 : Ref sig .tc := ⟨.hbm, 54, rfl⟩
abbrev main_call2_v11 : Ref sig .tc := ⟨.hbm, 55, rfl⟩
abbrev main_call2_c_0 : Ref sig .tc := ⟨.hbm, 56, rfl⟩
abbrev main_call2_v12 : Ref sig .tc := ⟨.hbm, 57, rfl⟩
abbrev main_call2_v13 : Ref sig .tc := ⟨.hbm, 58, rfl⟩
abbrev main_v25 : Ref sig .tc := ⟨.hbm, 59, rfl⟩
abbrev main_c_9 : Ref sig .tc := ⟨.hbm, 60, rfl⟩
abbrev main_v26 : Ref sig .tc := ⟨.hbm, 61, rfl⟩
abbrev main_v27 : Ref sig .tc := ⟨.hbm, 62, rfl⟩
abbrev main_c_10 : Ref sig .tc := ⟨.hbm, 63, rfl⟩
abbrev main_v28 : Ref sig .tc := ⟨.hbm, 64, rfl⟩
abbrev main_call3_call0_c : Ref sig .tc := ⟨.hbm, 65, rfl⟩
abbrev main_call3_call0_v0 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_c_11 : Ref sig .tc := ⟨.hbm, 70, rfl⟩
abbrev main_v32 : Ref sig .tc := ⟨.hbm, 71, rfl⟩
abbrev main_v33 : Ref sig .tc := ⟨.hbm, 72, rfl⟩
abbrev main_c_12 : Ref sig .tc := ⟨.hbm, 73, rfl⟩
abbrev main_v34 : Ref sig .tc := ⟨.hbm, 74, rfl⟩
abbrev main_v35 : Ref sig .tc := ⟨.hbm, 75, rfl⟩
abbrev main_c_13 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_c_14 : Ref sig .tc := ⟨.hbm, 82, rfl⟩
abbrev main_v41 : Ref sig .tc := ⟨.hbm, 83, rfl⟩
abbrev main_v42 : Ref sig .tc := ⟨.hbm, 84, rfl⟩
abbrev main_c_15 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_c_16 : Ref sig .tc := ⟨.hbm, 93, rfl⟩
abbrev main_v50 : Ref sig .tc := ⟨.hbm, 94, rfl⟩
abbrev main_c_17 : Ref sig .tc := ⟨.hbm, 95, rfl⟩
abbrev main_v51 : Ref sig .tc := ⟨.hbm, 96, rfl⟩
abbrev main_v52 : Ref sig .tc := ⟨.hbm, 97, rfl⟩
abbrev main_c_18 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst : Ref sig .tc := ⟨.hbm, 105, rfl⟩
abbrev main_v59 : Ref sig .tc := ⟨.hbm, 106, rfl⟩
abbrev main_c_19 : Ref sig .tc := ⟨.hbm, 107, rfl⟩
abbrev main_v60 : Ref sig .tc := ⟨.hbm, 108, rfl⟩
abbrev main_v61 : Ref sig .tc := ⟨.hbm, 109, rfl⟩
abbrev main_c_20 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_21 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_c_22 : Ref sig .tc := ⟨.hbm, 127, rfl⟩
abbrev main_v77 : Ref sig .tc := ⟨.hbm, 128, rfl⟩
abbrev main_c_23 : Ref sig .tc := ⟨.hbm, 129, rfl⟩
abbrev main_v78 : Ref sig .tc := ⟨.hbm, 130, rfl⟩
abbrev main_v80 : Ref sig .tc := ⟨.hbm, 131, rfl⟩
abbrev main_v81 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_c_24 : Ref sig .tc := ⟨.hbm, 136, rfl⟩
abbrev main_v86 : Ref sig .tc := ⟨.hbm, 137, rfl⟩
abbrev main_v87 : Ref sig .tc := ⟨.hbm, 138, rfl⟩
abbrev main_c_25 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v79 : Ref sig .tc := ⟨.smem, 0, rfl⟩
abbrev main_v82 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![80], ![false]⟩

abbrev pre0 : Pipeline.Prefetch sig := ⟨2, ![main_v79.idx, main_v82.idx], fun | 0 => main_v79.names | 1 => main_v82.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v1 : BitVec 32) : BitVec 1 :=
  let c0_i32_1 : BitVec 32 := 0#32
  let v5 : BitVec 1 := Scalar.cmpi .eq v1 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S80.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S80) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S16 : S_.BroadcastsInDim S16 (![] : Fin 0 → Fin S16.rank)
  bcast_S_S1 : S_.BroadcastsInDim S1 (![] : Fin 0 → Fin S1.rank)
  bcast_S_S_ : S_.BroadcastsInDim S_ (![] : Fin 0 → Fin S_.rank)
  reduceWindows_S16_S16_w16s1p15_0 : S16.ReduceWindows (![16] : Fin 1 → Nat) ![1] ![15] ![0] S16
  h_S_ : 0 < S_.numel
  slices_S16_S15_0 : S16.Slices ![0] S15
  concatenates_S1_S15_S16_d0 : Shape.Concatenates [S1, S15] S16 0
  reducesTo_S16_S_d0 : S16.ReducesTo [0] S_
  bitsLt_bf16_f32 : FTy.bits .bf16 < FTy.bits .f32
  bcast_S_S10240x1024 : S_.BroadcastsInDim S10240x1024 (![] : Fin 0 → Fin S10240x1024.rank)
  bcast_S_S80 : S_.BroadcastsInDim S80 (![] : Fin 0 → Fin S80.rank)
  bcast_S80_S80x1_0 : S80.BroadcastsInDim S80x1 (![0] : Fin 1 → Fin S80x1.rank)
  slices_S16_S15_1 : S16.Slices ![1] S15
  bcast_S15_S1x15_1 : S15.BroadcastsInDim S1x15 (![1] : Fin 1 → Fin S1x15.rank)
  bcast_S80x1_S80x15_0_1 : S80x1.BroadcastsInDim S80x15 (![0, 1] : Fin 2 → Fin S80x15.rank)
  bcast_S1x15_S80x15_0_1 : S1x15.BroadcastsInDim S80x15 (![0, 1] : Fin 2 → Fin S80x15.rank)
  natLt_1_32 : 1 < 32
  reducesTo_S80x15_S80_d1 : S80x15.ReducesTo [1] S80
  shapeCasts_S16x1024_S16x1x1024 : S16x1024.ShapeCasts S16x1x1024
  numel1_S1 : S1.numel = 1
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S128x1024 : S1x1024.Broadcasts S128x1024
  gather_S8192_S8192x1_S8192_n_0_n_n_0_1_1_wf : GatherDims.WF S8192 S8192x1 S8192 [] [0] [] [0] [] 1 ![1]
  scatter_S16_S8192x1_S8192_n_0_0_1_wf : ScatterDims.WF S16 S8192x1 S8192 [] [0] [0] 1
  gather_S16_S8192x1_S8192_n_0_n_n_0_1_1_wf : GatherDims.WF S16 S8192x1 S8192 [] [0] [] [0] [] 1 ![1]
  scatter_S8192_S8192x1_S8192_n_0_0_1_wf : ScatterDims.WF S8192 S8192x1 S8192 [] [0] [0] 1
  scatter_S10240x1024_S8192x1_S8192x1024_1_0_0_1_wf : ScatterDims.WF S10240x1024 S8192x1 S8192x1024 [1] [0] [0] 1
  dot_S128x1024_S1024x1024_S128x1024_1_0_0_1_n_n_wf : DotDims.WF S128x1024 S1024x1024 S128x1024 [1] [0] [0] [1] [] []
  gather_S10240x1024_S8192x1_S8192x1024_1_0_n_n_0_1_11024_wf : GatherDims.WF S10240x1024 S8192x1 S8192x1024 [1] [0] [] [0] [] 1 ![1, 1024]
  hrank0 : 0 < grid0.rank
  k0_off1_inb : ∀ i : grid0.Coords, ∀ a, (k0_off1 i) a + S1.size a ≤ S80.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S10240x1024.size a
  hwx0_0 : ∀ i : grid0.Coords, EltTy.bits .bf16 = 32 ∨ (Rect.block (s := S10240x1024) S128x1024.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S10240x1024.size a
  hwx0_3 : ∀ i : grid0.Coords, EltTy.bits .f32 = 32 ∨ (Rect.block (s := S10240x1024) S128x1024.size (cc0_transform_3 i) (hinb0_3 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def scatter_S16_S8192x1_S8192_n_0_0_1 : ScatterDims S16 S8192x1 S8192 where
  updateWindowDims := []
  insertedWindowDims := [0]
  scatterDimsToOperandDims := [0]
  indexVectorDim := 1
  wf := scatter_S16_S8192x1_S8192_n_0_0_1_wf
def gather_S16_S8192x1_S8192_n_0_n_n_0_1_1 : GatherDims S16 S8192x1 S8192 where
  offsetDims := []
  collapsedSliceDims := [0]
  operandBatchingDims := []
  startIndicesBatchingDims := []
  startIndexMap := [0]
  indexVectorDim := 1
  sliceSizes := ![1]
  wf := gather_S16_S8192x1_S8192_n_0_n_n_0_1_1_wf
def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def scatter_S10240x1024_S8192x1_S8192x1024_1_0_0_1 : ScatterDims S10240x1024 S8192x1 S8192x1024 where
  updateWindowDims := [1]
  insertedWindowDims := [0]
  scatterDimsToOperandDims := [0]
  indexVectorDim := 1
  wf := scatter_S10240x1024_S8192x1_S8192x1024_1_0_0_1_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def gather_S10240x1024_S8192x1_S8192x1024_1_0_n_n_0_1_11024 : GatherDims S10240x1024 S8192x1 S8192x1024 where
  offsetDims := [1]
  collapsedSliceDims := [0]
  operandBatchingDims := []
  startIndicesBatchingDims := []
  startIndexMap := [0]
  indexVectorDim := 1
  sliceSizes := ![1, 1024]
  wf := gather_S10240x1024_S8192x1_S8192x1024_1_0_n_n_0_1_11024_wf

abbrev spec0_0 : Pipeline.WinSpec sig grid0.rank :=
  Pipeline.WinSpec.ofSpec (Memref.whole main_v66) S128x1024.size reads0_0 false false 2 stage0_0 sem0_0 nbuf0_0 hstage0_0

abbrev spec0_1 : Pipeline.WinSpec sig grid0.rank :=
  Pipeline.WinSpec.ofSpec (Memref.whole main_v83) S1x1024x1024.size reads0_1 false false 2 stage0_1 sem0_1 nbuf0_1 hstage0_1

abbrev spec0_2 : Pipeline.WinSpec sig grid0.rank :=
  Pipeline.WinSpec.ofSpec (Memref.whole main_v84) S1x1x1024.size reads0_2 false false 2 stage0_2 sem0_2 nbuf0_2 hstage0_2

abbrev spec0_3 : Pipeline.WinSpec sig grid0.rank :=
  Pipeline.WinSpec.ofSpec (Memref.whole main_v85) S128x1024.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S16x1024x1024.size a), EltTy.bits .bf16 = 32 ∨ (Rect.block (s := S16x1024x1024) S1x1024x1024.size (cc0_transform_1 k0_off1_inb numel1_S1 pf i) h).WholeWords (EltTy.packing .bf16)) ∧
  (∀ i : grid0.Coords, ∃ h : (∀ a, (cc0_transform_2 k0_off1_inb numel1_S1 pf i a + 1) * S1x1x1024.size a ≤ S16x1x1024.size a), EltTy.bits .f32 = 32 ∨ (Rect.block (s := S16x1x1024) S1x1x1024.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))
abbrev idle0 (pf : pre0.Contents (Elt F)) : Fin 4 → grid0.Coords → Bool := fun | 0 => fun _ => false | 1 => fun _ => false | 2 => fun _ => false | 3 => fun i => !(k0_cond1 (pf.atD 1 (k0_off1 i)) == 1#1) && !(k0_cond2 (pf.atD 1 (k0_off1 i)) == 1#1) | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S8192x1024 : Shape := ⟨2, ![8192, 1024]⟩
abbrev S8192 : Shape := ⟨1, ![8192]⟩
abbrev S16x1024x1024 : Shape := ⟨3, ![16, 1024, 1024]⟩
abbrev S16x1024 : Shape := ⟨2, ![16, 1024]⟩
abbrev S_ : Shape := ⟨0, ![]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S8192x1 : Shape := ⟨2, ![8192, 1]⟩

abbrev nBuf : Space → Nat
  | .hbm => 233
  | .vmem => 0
  | .smem => 0
  | _ => 0

abbrev hbmTy0_0 (i : Nat) : BufTy := match i % 128 with
  | 0 => ⟨S8192x1024, .f32⟩
  | 1 => ⟨S8192, .i32⟩
  | 2 => ⟨S16x1024x1024, .f32⟩
  | 3 => ⟨S16x1024, .f32⟩
  | 4 => ⟨S_, .f32⟩
  | 5 => ⟨S8192x1024, .f32⟩
  | 6 => ⟨S1x1024x1024, .f32⟩
  | 7 => ⟨S1024x1024, .f32⟩
  | 8 => ⟨S8192x1024, .f32⟩
  | 9 => ⟨S1x1024, .f32⟩
  | 10 => ⟨S1024, .f32⟩
  | 11 => ⟨S1x1024, .f32⟩
  | 12 => ⟨S8192x1024, .f32⟩
  | 13 => ⟨S8192x1024, .f32⟩
  | 14 => ⟨S_, .i32⟩
  | 15 => ⟨S8192, .i32⟩
  | 16 => ⟨S8192, .i1⟩
  | 17 => ⟨S8192x1, .i1⟩
  | 18 => ⟨S8192x1024, .i1⟩
  | 19 => ⟨S8192x1024, .f32⟩
  | 20 => ⟨S1x1024x1024, .f32⟩
  | 21 => ⟨S1024x1024, .f32⟩
  | 22 => ⟨S8192x1024, .f32⟩
  | 23 => ⟨S1x1024, .f32⟩
  | 24 => ⟨S1024, .f32⟩
  | 25 => ⟨S1x1024, .f32⟩
  | 26 => ⟨S8192x1024, .f32⟩
  | 27 => ⟨S8192x1024, .f32⟩
  | 28 => ⟨S_, .i32⟩
  | 29 => ⟨S8192, .i32⟩
  | 30 => ⟨S8192, .i1⟩
  | 31 => ⟨S8192x1, .i1⟩
  | 32 => ⟨S8192x1024, .i1⟩
  | 33 => ⟨S8192x1024, .f32⟩
  | 34 => ⟨S1x1024x1024, .f32⟩
  | 35 => ⟨S1024x1024, .f32⟩
  | 36 => ⟨S8192x1024, .f32⟩
  | 37 => ⟨S1x1024, .f32⟩
  | 38 => ⟨S1024, .f32⟩
  | 39 => ⟨S1x1024, .f32⟩
  | 40 => ⟨S8192x1024, .f32⟩
  | 41 => ⟨S8192x1024, .f32⟩
  | 42 => ⟨S_, .i32⟩
  | 43 => ⟨S8192, .i32⟩
  | 44 => ⟨S8192, .i1⟩
  | 45 => ⟨S8192x1, .i1⟩
  | 46 => ⟨S8192x1024, .i1⟩
  | 47 => ⟨S8192x1024, .f32⟩
  | 48 => ⟨S1x1024x1024, .f32⟩
  | 49 => ⟨S1024x1024, .f32⟩
  | 50 => ⟨S8192x1024, .f32⟩
  | 51 => ⟨S1x1024, .f32⟩
  | 52 => ⟨S1024, .f32⟩
  | 53 => ⟨S1x1024, .f32⟩
  | 54 => ⟨S8192x1024, .f32⟩
  | 55 => ⟨S8192x1024, .f32⟩
  | 56 => ⟨S_, .i32⟩
  | 57 => ⟨S8192, .i32⟩
  | 58 => ⟨S8192, .i1⟩
  | 59 => ⟨S8192x1, .i1⟩
  | 60 => ⟨S8192x1024, .i1⟩
  | 61 => ⟨S8192x1024, .f32⟩
  | 62 => ⟨S1x1024x1024, .f32⟩
  | 63 => ⟨S1024x1024, .f32⟩
  | 64 => ⟨S8192x1024, .f32⟩
  | 65 => ⟨S1x1024, .f32⟩
  | 66 => ⟨S1024, .f32⟩
  | 67 => ⟨S1x1024, .f32⟩
  | 68 => ⟨S8192x1024, .f32⟩
  | 69 => ⟨S8192x1024, .f32⟩
  | 70 => ⟨S_, .i32⟩
  | 71 => ⟨S8192, .i32⟩
  | 72 => ⟨S8192, .i1⟩
  | 73 => ⟨S8192x1, .i1⟩
  | 74 => ⟨S8192x1024, .i1⟩
  | 75 => ⟨S8192x1024, .f32⟩
  | 76 => ⟨S1x1024x1024, .f32⟩
  | 77 => ⟨S1024x1024, .f32⟩
  | 78 => ⟨S8192x1024, .f32⟩
  | 79 => ⟨S1x1024, .f32⟩
  | 80 => ⟨S1024, .f32⟩
  | 81 => ⟨S1x1024, .f32⟩
  | 82 => ⟨S8192x1024, .f32⟩
  | 83 => ⟨S8192x1024, .f32⟩
  | 84 => ⟨S_, .i32⟩
  | 85 => ⟨S8192, .i32⟩
  | 86 => ⟨S8192, .i1⟩
  | 87 => ⟨S8192x1, .i1⟩
  | 88 => ⟨S8192x1024, .i1⟩
  | 89 => ⟨S8192x1024, .f32⟩
  | 90 => ⟨S1x1024x1024, .f32⟩
  | 91 => ⟨S1024x1024, .f32⟩
  | 92 => ⟨S8192x1024, .f32⟩
  | 93 => ⟨S1x1024, .f32⟩
  | 94 => ⟨S1024, .f32⟩
  | 95 => ⟨S1x1024, .f32⟩
  | 96 => ⟨S8192x1024, .f32⟩
  | 97 => ⟨S8192x1024, .f32⟩
  | 98 => ⟨S_, .i32⟩
  | 99 => ⟨S8192, .i32⟩
  | 100 => ⟨S8192, .i1⟩
  | 101 => ⟨S8192x1, .i1⟩
  | 102 => ⟨S8192x1024, .i1⟩
  | 103 => ⟨S8192x1024, .f32⟩
  | 104 => ⟨S1x1024x1024, .f32⟩
  | 105 => ⟨S1024x1024, .f32⟩
  | 106 => ⟨S8192x1024, .f32⟩
  | 107 => ⟨S1x1024, .f32⟩
  | 108 => ⟨S1024, .f32⟩
  | 109 => ⟨S1x1024, .f32⟩
  | 110 => ⟨S8192x1024, .f32⟩
  | 111 => ⟨S8192x1024, .f32⟩
  | 112 => ⟨S_, .i32⟩
  | 113 => ⟨S8192, .i32⟩
  | 114 => ⟨S8192, .i1⟩
  | 115 => ⟨S8192x1, .i1⟩
  | 116 => ⟨S8192x1024, .i1⟩
  | 117 => ⟨S8192x1024, .f32⟩
  | 118 => ⟨S1x1024x1024, .f32⟩
  | 119 => ⟨S1024x1024, .f32⟩
  | 120 => ⟨S8192x1024, .f32⟩
  | 121 => ⟨S1x1024, .f32⟩
  | 122 => ⟨S1024, .f32⟩
  | 123 => ⟨S1x1024, .f32⟩
  | 124 => ⟨S8192x1024, .f32⟩
  | 125 => ⟨S8192x1024, .f32⟩
  | 126 => ⟨S_, .i32⟩
  | 127 => ⟨S8192, .i32⟩
  | _ => ⟨S8192x1024, .f32⟩

abbrev hbmTy0_1 (i : Nat) : BufTy := match i % 128 with
  | 0 => ⟨S8192, .i1⟩
  | 1 => ⟨S8192x1, .i1⟩
  | 2 => ⟨S8192x1024, .i1⟩
  | 3 => ⟨S8192x1024, .f32⟩
  | 4 => ⟨S1x1024x1024, .f32⟩
  | 5 => ⟨S1024x1024, .f32⟩
  | 6 => ⟨S8192x1024, .f32⟩
  | 7 => ⟨S1x1024, .f32⟩
  | 8 => ⟨S1024, .f32⟩
  | 9 => ⟨S1x1024, .f32⟩
  | 10 => ⟨S8192x1024, .f32⟩
  | 11 => ⟨S8192x1024, .f32⟩
  | 12 => ⟨S_, .i32⟩
  | 13 => ⟨S8192, .i32⟩
  | 14 => ⟨S8192, .i1⟩
  | 15 => ⟨S8192x1, .i1⟩
  | 16 => ⟨S8192x1024, .i1⟩
  | 17 => ⟨S8192x1024, .f32⟩
  | 18 => ⟨S1x1024x1024, .f32⟩
  | 19 => ⟨S1024x1024, .f32⟩
  | 20 => ⟨S8192x1024, .f32⟩
  | 21 => ⟨S1x1024, .f32⟩
  | 22 => ⟨S1024, .f32⟩
  | 23 => ⟨S1x1024, .f32⟩
  | 24 => ⟨S8192x1024, .f32⟩
  | 25 => ⟨S8192x1024, .f32⟩
  | 26 => ⟨S_, .i32⟩
  | 27 => ⟨S8192, .i32⟩
  | 28 => ⟨S8192, .i1⟩
  | 29 => ⟨S8192x1, .i1⟩
  | 30 => ⟨S8192x1024, .i1⟩
  | 31 => ⟨S8192x1024, .f32⟩
  | 32 => ⟨S1x1024x1024, .f32⟩
  | 33 => ⟨S1024x1024, .f32⟩
  | 34 => ⟨S8192x1024, .f32⟩
  | 35 => ⟨S1x1024, .f32⟩
  | 36 => ⟨S1024, .f32⟩
  | 37 => ⟨S1x1024, .f32⟩
  | 38 => ⟨S8192x1024, .f32⟩
  | 39 => ⟨S8192x1024, .f32⟩
  | 40 => ⟨S_, .i32⟩
  | 41 => ⟨S8192, .i32⟩
  | 42 => ⟨S8192, .i1⟩
  | 43 => ⟨S8192x1, .i1⟩
  | 44 => ⟨S8192x1024, .i1⟩
  | 45 => ⟨S8192x1024, .f32⟩
  | 46 => ⟨S1x1024x1024, .f32⟩
  | 47 => ⟨S1024x1024, .f32⟩
  | 48 => ⟨S8192x1024, .f32⟩
  | 49 => ⟨S1x1024, .f32⟩
  | 50 => ⟨S1024, .f32⟩
  | 51 => ⟨S1x1024, .f32⟩
  | 52 => ⟨S8192x1024, .f32⟩
  | 53 => ⟨S8192x1024, .f32⟩
  | 54 => ⟨S_, .i32⟩
  | 55 => ⟨S8192, .i32⟩
  | 56 => ⟨S8192, .i1⟩
  | 57 => ⟨S8192x1, .i1⟩
  | 58 => ⟨S8192x1024, .i1⟩
  | 59 => ⟨S8192x1024, .f32⟩
  | 60 => ⟨S1x1024x1024, .f32⟩
  | 61 => ⟨S1024x1024, .f32⟩
  | 62 => ⟨S8192x1024, .f32⟩
  | 63 => ⟨S1x1024, .f32⟩
  | 64 => ⟨S1024, .f32⟩
  | 65 => ⟨S1x1024, .f32⟩
  | 66 => ⟨S8192x1024, .f32⟩
  | 67 => ⟨S8192x1024, .f32⟩
  | 68 => ⟨S_, .i32⟩
  | 69 => ⟨S8192, .i32⟩
  | 70 => ⟨S8192, .i1⟩
  | 71 => ⟨S8192x1, .i1⟩
  | 72 => ⟨S8192x1024, .i1⟩
  | 73 => ⟨S8192x1024, .f32⟩
  | 74 => ⟨S1x1024x1024, .f32⟩
  | 75 => ⟨S1024x1024, .f32⟩
  | 76 => ⟨S8192x1024, .f32⟩
  | 77 => ⟨S1x1024, .f32⟩
  | 78 => ⟨S1024, .f32⟩
  | 79 => ⟨S1x1024, .f32⟩
  | 80 => ⟨S8192x1024, .f32⟩
  | 81 => ⟨S8192x1024, .f32⟩
  | 82 => ⟨S_, .i32⟩
  | 83 => ⟨S8192, .i32⟩
  | 84 => ⟨S8192, .i1⟩
  | 85 => ⟨S8192x1, .i1⟩
  | 86 => ⟨S8192x1024, .i1⟩
  | 87 => ⟨S8192x1024, .f32⟩
  | 88 => ⟨S1x1024x1024, .f32⟩
  | 89 => ⟨S1024x1024, .f32⟩
  | 90 => ⟨S8192x1024, .f32⟩
  | 91 => ⟨S1x1024, .f32⟩
  | 92 => ⟨S1024, .f32⟩
  | 93 => ⟨S1x1024, .f32⟩
  | 94 => ⟨S8192x1024, .f32⟩
  | 95 => ⟨S8192x1024, .f32⟩
  | 96 => ⟨S_, .i32⟩
  | 97 => ⟨S8192, .i32⟩
  | 98 => ⟨S8192, .i1⟩
  | 99 => ⟨S8192x1, .i1⟩
  | 100 => ⟨S8192x1024, .i1⟩
  | 101 => ⟨S8192x1024, .f32⟩
  | 102 => ⟨S_, .f32⟩
  | 103 => ⟨S8192x1024, .f32⟩
  | 104 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_v0 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call2_v0 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_c_2 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call3_v0 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c_3 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_call4_v0 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_c_4 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_call5_v0 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_c_5 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_call6_v0 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_c_6 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_call7_v0 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_c_7 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_call8_v0 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_c_8 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_call9_v0 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_c_9 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_call10_v0 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_c_10 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_call11_v0 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_c_11 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_call12_v0 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_c_12 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_call13_v0 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_c_13 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_call14_v0 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_c_14 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_call15_v0 : Ref sig .tc := ⟨.hbm, 228, rfl⟩
abbrev main_v192 : Ref sig .tc := ⟨.hbm, 229, rfl⟩
abbrev main_call16_cst : Ref sig .tc := ⟨.hbm, 230, rfl⟩
abbrev main_call16_v0 : Ref sig .tc := ⟨.hbm, 231, rfl⟩
abbrev main_v193 : Ref sig .tc := ⟨.hbm, 232, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  slices_S16x1024x1024_S1x1024x1024_0_0_0 : S16x1024x1024.Slices ![0, 0, 0] S1x1024x1024
  shapeCasts_S1x1024x1024_S1024x1024 : S1x1024x1024.ShapeCasts S1024x1024
  slices_S16x1024_S1x1024_0_0 : S16x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S16x1024x1024_S1x1024x1024_1_0_0 : S16x1024x1024.Slices ![1, 0, 0] S1x1024x1024
  slices_S16x1024_S1x1024_1_0 : S16x1024.Slices ![1, 0] S1x1024
  slices_S16x1024x1024_S1x1024x1024_2_0_0 : S16x1024x1024.Slices ![2, 0, 0] S1x1024x1024
  slices_S16x1024_S1x1024_2_0 : S16x1024.Slices ![2, 0] S1x1024
  slices_S16x1024x1024_S1x1024x1024_3_0_0 : S16x1024x1024.Slices ![3, 0, 0] S1x1024x1024
  slices_S16x1024_S1x1024_3_0 : S16x1024.Slices ![3, 0] S1x1024
  slices_S16x1024x1024_S1x1024x1024_4_0_0 : S16x1024x1024.Slices ![4, 0, 0] S1x1024x1024
  slices_S16x1024_S1x1024_4_0 : S16x1024.Slices ![4, 0] S1x1024
  slices_S16x1024x1024_S1x1024x1024_5_0_0 : S16x1024x1024.Slices ![5, 0, 0] S1x1024x1024
  slices_S16x1024_S1x1024_5_0 : S16x1024.Slices ![5, 0] S1x1024
  slices_S16x1024x1024_S1x1024x1024_6_0_0 : S16x1024x1024.Slices ![6, 0, 0] S1x1024x1024
  slices_S16x1024_S1x1024_6_0 : S16x1024.Slices ![6, 0] S1x1024
  slices_S16x1024x1024_S1x1024x1024_7_0_0 : S16x1024x1024.Slices ![7, 0, 0] S1x1024x1024
  slices_S16x1024_S1x1024_7_0 : S16x1024.Slices ![7, 0] S1x1024
  slices_S16x1024x1024_S1x1024x1024_8_0_0 : S16x1024x1024.Slices ![8, 0, 0] S1x1024x1024
  slices_S16x1024_S1x1024_8_0 : S16x1024.Slices ![8, 0] S1x1024
  slices_S16x1024x1024_S1x1024x1024_9_0_0 : S16x1024x1024.Slices ![9, 0, 0] S1x1024x1024
  slices_S16x1024_S1x1024_9_0 : S16x1024.Slices ![9, 0] S1x1024
  slices_S16x1024x1024_S1x1024x1024_10_0_0 : S16x1024x1024.Slices ![10, 0, 0] S1x1024x1024
  slices_S16x1024_S1x1024_10_0 : S16x1024.Slices ![10, 0] S1x1024
  slices_S16x1024x1024_S1x1024x1024_11_0_0 : S16x1024x1024.Slices ![11, 0, 0] S1x1024x1024
  slices_S16x1024_S1x1024_11_0 : S16x1024.Slices ![11, 0] S1x1024
  slices_S16x1024x1024_S1x1024x1024_12_0_0 : S16x1024x1024.Slices ![12, 0, 0] S1x1024x1024
  slices_S16x1024_S1x1024_12_0 : S16x1024.Slices ![12, 0] S1x1024
  slices_S16x1024x1024_S1x1024x1024_13_0_0 : S16x1024x1024.Slices ![13, 0, 0] S1x1024x1024
  slices_S16x1024_S1x1024_13_0 : S16x1024.Slices ![13, 0] S1x1024
  slices_S16x1024x1024_S1x1024x1024_14_0_0 : S16x1024x1024.Slices ![14, 0, 0] S1x1024x1024
  slices_S16x1024_S1x1024_14_0 : S16x1024.Slices ![14, 0] S1x1024
  slices_S16x1024x1024_S1x1024x1024_15_0_0 : S16x1024x1024.Slices ![15, 0, 0] S1x1024x1024
  slices_S16x1024_S1x1024_15_0 : S16x1024.Slices ![15, 0] S1x1024
  dot_S8192x1024_S1024x1024_S8192x1024_1_0_0_1_n_n_wf : DotDims.WF S8192x1024 S1024x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf

class Facts : Prop extends Facts₀ where

variable [Facts]
-- ==== Proof.BLaunch.lean ====
/-
  The host side of the one launch. The program is eight stretches of host operations (the routing of tokens to padded
  rows: sort, counts, running sums, the two tile tables), the region, and nine more host operations (the gather of the
  result rows). The contents the region starts from are the first eight stretches applied to the launch memory; the two
  tables the region's index maps read are those contents at the tables' buffers. The table of tile labels is a sum of
  fifteen bits capped at fifteen, so every label it holds is below sixteen and every block it selects lies inside its
  array, whatever the inputs are. The operations after the region touch neither a table nor a scoped buffer and write no
  window's array. Of the body's two guards, on the tile-valid word being non-zero and being zero, exactly one holds.
-/
import proofs.«405730_j30700426232147_3_alg».proof.Proof.Gen.Kernel.Launch
import Idealize.ShloMosaic.Lib.Pipeline.FrameSuffix
import Idealize.ShloMosaic.PureOps.Reduce

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## The host lines around the region -/

/-- The eight stretches of host operations that run before the region, in order. -/
abbrev opssBefore : List (List (HloOp τ sig (Elt F))) :=
  [Gen.hostOps0, Gen.hostOps0_1, Gen.hostOps0_2, Gen.hostOps0_3, Gen.hostOps0_4, Gen.hostOps0_5, Gen.hostOps0_6, Gen.hostOps0_7]

/-- The one stretch of host operations that runs after the region. -/
abbrev opssAfter : List (List (HloOp τ sig (Elt F))) := [Gen.hostOps1]

theorem main_eq (c : Dev nD) :
    main (F := F) c = Pipeline.chain ((opssBefore (F := F)).map StableHlo.seq
      ++ [Prog.lift (.customCall (Pipeline.entry 0) ())] ++ (opssAfter (F := F)).map StableHlo.seq) :=
  Gen.main_chain c

/-- No host operation before the region leaves a result buffer undetermined. -/
theorem before_fresh : (opssBefore (F := F)).Forall fun ops => ops.Forall fun op => op.fresh = ∅ := by
  refine ⟨?_, ?_, ?_, ?_, ?_, ?_, ?_, ?_⟩ <;> (simp only [List.Forall]; repeat' constructor)

/-- Every host operation before the region touches TensorCore references only. -/
theorem before_sub : (opssBefore (F := F)).Forall fun ops => ops.Forall fun op => op.bufs ⊆ StableHlo.tcRefs τ sig :=
  ⟨Gen.hostOps0_sub, Gen.hostOps0_1_sub, Gen.hostOps0_2_sub, Gen.hostOps0_3_sub, Gen.hostOps0_4_sub, Gen.hostOps0_5_sub,
    Gen.hostOps0_6_sub, Gen.hostOps0_7_sub⟩

/-- The buffer contents of core c when the region is entered. -/
def V₀ (m : (ℓ : Loc nD τ sig) → Buf (Elt F) ℓ) (c : Dev nD) : Valuation τ sig (Elt F) :=
  StableHlo.after (opssBefore (F := F)).flatten (fun b => m (c, b))

theorem hmain (𝒱₀ : Variants) (m : (ℓ : Loc nD τ sig) → Buf (Elt F) ℓ) :
    Pipeline.HMainPK (Ix := Unit) (Name := ℕ) (U := UR sig nD τ) (Lvl := ℕ) pcfgs 0 defs₀ 𝒱₀ m (main (F := F))
      (fun c b => V₀ m c (Proc.devRef .tc b)) (fun _ => Pipeline.chain ((opssAfter (F := F)).map StableHlo.seq)) :=
  Pipeline.hmainP_around pcfgs 0 defs₀ 𝒱₀ m main opssBefore opssAfter before_sub before_fresh main_eq

/-! ## The lines after the region -/

/-- Each line after the region touches only the windows' arrays and buffers that bypass the region: it touches TensorCore
    references, and neither prefetched table is among them. -/
theorem after_sub : ∀ ops ∈ (opssAfter (F := F)), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp Gen.hostOps1_sub) op hop) ?_
  simp only [Gen.hostOps1, List.mem_cons, List.mem_nil_iff, or_false] at hop
  rcases hop with rfl | rfl | rfl | rfl | rfl | rfl | rfl | rfl | rfl
  all_goals
    intro k
    fin_cases k <;>
      simp only [StableHlo.nullary_bufs, StableHlo.unary_bufs, StableHlo.binary_bufs, StableHlo.ternary_bufs,
        Finset.mem_insert, Finset.mem_singleton, not_or] <;>
      (repeat' apply And.intro) <;> exact StableHlo.devRef_ne_of_ne (by decide)

/-- The same, spelled at the pipeline pinned at admissible contents of its tables (the windows' specifications do not
    depend on the contents). -/
theorem after_sub_pin (a : (pcfg0 (F := F)).Adm) : ∀ ops ∈ (opssAfter (F := F)), ∀ op ∈ ops,
    op.bufs ⊆ Pipeline.tailRefs sig (pcfgs (F := F) 0).pre (Pipeline.pin (pcfgs (F := F)) (fun _ => a) 0).spec :=
  after_sub

/-- No line after the region leaves a result buffer undetermined. -/
theorem after_fresh : ∀ ops ∈ (opssAfter (F := F)), ∀ op ∈ ops, op.fresh = ∅ := by
  intro ops hops op hop
  simp only [List.mem_cons, List.mem_nil_iff, or_false] at hops
  subst hops
  have h : (Gen.hostOps1 (F := F)).Forall fun op => op.fresh = ∅ := by
    simp only [List.Forall]; repeat' constructor
  exact (List.forall_iff_forall_mem.mp h) op hop

/-- No line after the region writes a window's array: each writes its own result buffer, which is none of the four. -/
theorem after_keep : ∀ ops ∈ (opssAfter (F := F)), ∀ op ∈ ops, ∀ w, Proc.devRef .tc (Pipeline.arrRef spec0 w) ∉ op.writes := by
  intro ops hops op hop
  simp only [List.mem_cons, List.mem_nil_iff, or_false] at hops
  subst hops
  simp only [Gen.hostOps1, List.mem_cons, List.mem_nil_iff, or_false] at hop
  rcases hop with rfl | rfl | rfl | rfl | rfl | rfl | rfl | rfl | rfl
  all_goals
    intro w
    fin_cases w <;>
      simp only [StableHlo.nullary_writes, StableHlo.unary_writes, StableHlo.binary_writes, StableHlo.ternary_writes,
        Finset.mem_singleton] <;>
      exact StableHlo.devRef_ne_of_ne (by decide)

/-! ## The prefetched tables -/

def tblOf (m : (ℓ : Loc nD τ sig) → Buf (Elt F) ℓ) : pre0.Contents (Elt F) :=
  fun k => V₀ m (0 : Dev nD) (Proc.devRef .tc (pre0.ref k))

theorem hpf (m : (ℓ : Loc nD τ sig) → Buf (Elt F) ℓ) (c : Dev nD) (k : Fin pre0.K) :
    V₀ m c (Proc.devRef .tc (pre0.ref k)) = tblOf m k := by
  obtain rfl : c = 0 := Subsingleton.elim _ _
  rfl

/-! ### The first table holds expert numbers below sixteen

The first table is the elementwise signed minimum of fifteen and a row sum, over fifteen columns, of words that are each
0 or 1 (the zero-extensions of comparison bits). Such a sum is computed without wrap-around and is at most the number of
summands, so it is nonnegative as a signed word, and its signed minimum with fifteen is a word whose unsigned value is at
most fifteen. -/

/-- Adding words that are each 0 or 1 to a start value: while the count fits the width there is no wrap-around, and the
    result exceeds the start by at most the number of words added. -/
theorem foldl_addi_toNat_le {ι : Type} (x : ι → BitVec 32) :
    ∀ (l : List ι) (init : BitVec 32), (∀ i ∈ l, (x i).toNat ≤ 1) → init.toNat + l.length < 2 ^ 32 →
      (l.foldl (fun r i => IntOp.addi r (x i)) init).toNat ≤ init.toNat + l.length
  | [], init, _, _ => by simp
  | a :: l, init, hx, hlen => by
    rw [List.foldl_cons]
    have ha : (x a).toNat ≤ 1 := hx a List.mem_cons_self
    have h1 : (IntOp.addi init (x a)).toNat ≤ init.toNat + 1 := by
      unfold IntOp.addi
      rw [BitVec.toNat_add]
      exact (Nat.mod_le _ _).trans (by omega)
    simp only [List.length_cons] at hlen ⊢
    have := foldl_addi_toNat_le x l (IntOp.addi init (x a)) (fun i hi => hx i (List.mem_cons_of_mem _ hi)) (by omega)
    omega

/-- A row sum of zero-extended bits, from zero, is at most the number of elements of the summed array. -/
theorem reduce_bits_toNat_le (x : IVec S80x15 1) (j : S80.Idx) :
    (Host.reduce IntOp.addi (extui 32 x Gen.natLt_1_32) (constantI S_ 32 0#32) Gen.reducesTo_S80x15_S80_d1 Gen.h_S_ j).toNat ≤ 1200 := by
  rw [Host.reduce_eq_foldl]
  have hlen : ((((List.finRange S80x15.numel).map S80x15.rowMajor.symm).filter
      fun i => Gen.reducesTo_S80x15_S80_d1.drop i = j).length) ≤ 1200 :=
    (List.length_filter_le _ _).trans (by rw [List.length_map, List.length_finRange]; decide)
  have h0 : (constantI S_ 32 0#32 (Shape.Idx.first Gen.h_S_)).toNat = 0 := rfl
  refine (foldl_addi_toNat_le _ _ _ (fun i _ => ?_) (by rw [h0]; omega)).trans (by rw [h0]; omega)
  show ((x i).setWidth 32).toNat ≤ 1
  rw [BitVec.toNat_setWidth]
  have := (x i).isLt
  exact (Nat.mod_le _ _).trans (by omega)

/-- The signed minimum of fifteen and a word of small unsigned value has unsigned value below sixteen. -/
theorem minsi_15_toNat_lt (x : BitVec 32) (hx : x.toNat ≤ 1200) : (IntOp.minsi x 15#32).toNat < 16 := by
  unfold IntOp.minsi
  split
  · rename_i h
    have h' : x.toInt < (15#32).toInt := BitVec.slt_iff_toInt_lt.mp h
    rw [BitVec.toInt_eq_toNat_of_lt (by omega)] at h'
    have h15 : (15#32 : BitVec 32).toInt = 15 := by decide
    rw [h15] at h'
    omega
  · decide

/-- The first table's term, at any array of bits in place of the comparison's result: every element below sixteen. -/
theorem minsi_reduce_lt (x : IVec S80x15 1) (j : S80.Idx) :
    ((minsi (Host.reduce IntOp.addi (extui 32 x Gen.natLt_1_32) (constantI S_ 32 0#32) Gen.reducesTo_S80x15_S80_d1 Gen.h_S_)
        (broadcastInDim S80 ![] Gen.bcast_S_S80 (constantI S_ 32 15#32)) : IVec S80 32) j).toNat < 16 :=
  minsi_15_toNat_lt _ (reduce_bits_toNat_le x j)

/-- After the last stretch before the region, from ANY contents before it, the first table's buffer holds words below
    sixteen: the stretch computes it as that minimum (only the operations the table depends on are read). -/
theorem last_stretch_v79_lt (W : Valuation τ sig (Elt F)) (j : S80.Idx) :
    BitVec.toNat (w := 32) (StableHlo.after (Gen.hostOps0_7 (F := F)) W (Proc.devRef .tc main_v79) j) < 16 := by
  simp only [Gen.hostOps0_7]
  after_results_simp
  exact minsi_reduce_lt _ j

/-- Running the stretches of a list that ends in the stretch h: the earlier ones, then h. -/
theorem after_flatten_concat (L : List (List (HloOp τ sig (Elt F)))) (h : List (HloOp τ sig (Elt F)))
    (V : Valuation τ sig (Elt F)) :
    StableHlo.after (L ++ [h]).flatten V = StableHlo.after h (StableHlo.after L.flatten V) := by
  rw [List.flatten_append, StableHlo.after_append, List.flatten_cons, List.flatten_nil, List.append_nil]

/-- The contents at the region's entry are the last stretch run from the contents after the first seven. -/
theorem V₀_last (m : (ℓ : Loc nD τ sig) → Buf (Elt F) ℓ) (c : Dev nD) :
    V₀ m c = StableHlo.after (Gen.hostOps0_7 (F := F))
      (StableHlo.after ([Gen.hostOps0, Gen.hostOps0_1, Gen.hostOps0_2, Gen.hostOps0_3, Gen.hostOps0_4, Gen.hostOps0_5,
        Gen.hostOps0_6] : List (List (HloOp τ sig (Elt F)))).flatten (fun b => m (c, b))) :=
  after_flatten_concat [Gen.hostOps0, Gen.hostOps0_1, Gen.hostOps0_2, Gen.hostOps0_3, Gen.hostOps0_4, Gen.hostOps0_5,
    Gen.hostOps0_6] Gen.hostOps0_7 (fun b => m (c, b))

/-- Every element of the first table is below sixteen, whatever the launch memory. -/
theorem tbl0_lt (m : (ℓ : Loc nD τ sig) → Buf (Elt F) ℓ) (j : S80.Idx) : BitVec.toNat (w := 32) (tblOf m 0 j) < 16 := by
  show BitVec.toNat (w := 32) (V₀ m (0 : Dev nD) (Proc.devRef .tc main_v79) j) < 16
  rw [V₀_last]
  exact last_stretch_v79_lt _ j

/-! ### The side condition on the tables, from the bound

Proved at ANY contents of the tables whose first table stays below sixteen; the launch's contents are put in last. -/

/-- Window 1's block index is the first table's word at the grid point, then two zeros. -/
theorem transform_1_eq (pf : pre0.Contents (Elt F)) (i : grid0.Coords) :
    ∃ j : S80.Idx, cc0_transform_1 Gen.k0_off1_inb Gen.numel1_S1 pf i = ![BitVec.toNat (w := 32) (pf 0 j), 0, 0] :=
  ⟨_, rfl⟩

/-- Window 2's block index likewise. -/
theorem transform_2_eq (pf : pre0.Contents (Elt F)) (i : grid0.Coords) :
    ∃ j : S80.Idx, cc0_transform_2 Gen.k0_off1_inb Gen.numel1_S1 pf i = ![BitVec.toNat (w := 32) (pf 0 j), 0, 0] :=
  ⟨_, rfl⟩

/-- With sixteen experts, a first table below sixteen keeps every table-indexed block of windows 1 and 2 inside its array;
    window 1's blocks (16-bit elements) have a row extent that is a multiple of the packing, window 2's elements are
    word-wide. -/
theorem ok_of_lt (pf : pre0.Contents (Elt F)) (h : ∀ j : S80.Idx, BitVec.toNat (w := 32) (pf 0 j) < 16) : ok0 pf := by
  refine ⟨fun i => ?_, fun i => ?_⟩
  · obtain ⟨j, hj⟩ := transform_1_eq pf i
    have hb : ∀ a, (cc0_transform_1 Gen.k0_off1_inb Gen.numel1_S1 pf i a + 1) * S1x1024x1024.size a ≤ S16x1024x1024.size a := by
      intro a
      rw [hj]
      have := h j
      fin_cases a
      · show (BitVec.toNat (w := 32) (pf 0 j) + 1) * 1 ≤ 16
        omega
      · show (0 + 1) * 1024 ≤ 1024
        omega
      · show (0 + 1) * 1024 ≤ 1024
        omega
    exact ⟨hb, .inr (Affine.block_words_dvd (by decide) (by decide))⟩
  · obtain ⟨j, hj⟩ := transform_2_eq pf i
    have hb : ∀ a, (cc0_transform_2 Gen.k0_off1_inb Gen.numel1_S1 pf i a + 1) * S1x1x1024.size a ≤ S16x1x1024.size a := by
      intro a
      rw [hj]
      have := h j
      fin_cases a
      · show (BitVec.toNat (w := 32) (pf 0 j) + 1) * 1 ≤ 16
        omega
      · show (0 + 1) * 1 ≤ 1
        omega
      · show (0 + 1) * 1024 ≤ 1024
        omega
    exact ⟨hb, .inl rfl⟩

/-- The pipeline's side condition holds of the tables the host lines compute, at every launch memory. -/
theorem ok_tbl (m : (ℓ : Loc nD τ sig) → Buf (Elt F) ℓ) : ok0 (F := F) (tblOf m) :=
  ok_of_lt (tblOf m) (tbl0_lt m)

/-! ## The two branch conditions -/

/-- The first branch is taken exactly when the word is not zero. -/
theorem cond1_iff (v : BitVec 32) : k0_cond1 v = 1#1 ↔ v ≠ 0#32 := by
  unfold k0_cond1
  simp only [Scalar.cmpi, IntOp.cmpi, Scalar.extui]
  by_cases h : v = 0#32
  · subst h; decide
  · have hb : (v != 0#32) = true := by simpa using h
    rw [hb]; simp only [h, ne_eq, not_false_eq_true, iff_true]; decide

/-- The second branch is taken exactly when the word is zero. -/
theorem cond2_iff (v : BitVec 32) : k0_cond2 v = 1#1 ↔ v = 0#32 := by
  unfold k0_cond2
  simp only [Scalar.cmpi, IntOp.cmpi, Scalar.extui]
  by_cases h : v = 0#32
  · subst h; decide
  · have hb : (v == 0#32) = false := by simpa using h
    rw [hb]; simp only [h, iff_false]; decide

/-- At every word exactly one of the two branches is taken. -/
theorem cond_compl (v : BitVec 32) : ¬ (k0_cond1 v = 1#1) ↔ k0_cond2 v = 1#1 := by
  rw [cond1_iff, cond2_iff, not_not]

/-- So the output window is idle at no grid point. -/
theorem idle0_3 (pf : pre0.Contents (Elt F)) (i : grid0.Coords) : idle0 pf 3 i = false := by
  show (!(k0_cond1 (pf.atD 1 (k0_off1 i)) == 1#1) && !(k0_cond2 (pf.atD 1 (k0_off1 i)) == 1#1)) = false
  generalize pf.atD 1 (k0_off1 i) = v
  by_cases h : k0_cond1 v = 1#1
  · simp [h]
  · have h2 := (cond_compl v).1 h
    simp [h2]

end Cert.Kernel.Hand

end
-- ==== Proof.BFrame.lean ====
/-
  The proof data of the one launch and the body's obligation. At grid point t the three input windows hold block t of
  the padded input rows and the slabs of the weights and of the bias that the tile's label selects; the output window
  ends at the product of the rows with the slab plus the bias row, clipped at zero, when the tile-valid word is non-zero,
  and at zeros when it is zero. The body reads the word from the table in scalar memory, takes exactly one of its two
  guarded branches, and stores over the whole output block; with the tables held by the invariant this is the obligation
  the launch theorem asks at every point.
-/
import proofs.«405730_j30700426232147_3_alg».proof.Proof.BLaunch
import proofs.«405730_j30700426232147_3_alg».proof.Proof.Gen.Kernel.Launch
import proofs.«405730_j30700426232147_3_alg».proof.Proof.Gen.Kernel.Skeleton
import Idealize.ShloMosaic.Lib.Pipeline.FrameSuffix
import Idealize.ShloMosaic.Lib.Pipeline.FrameBody
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The admissible table contents and the pinned pipeline -/

/-- The tables' contents at the region's entry, as admissible contents of the one pipeline. -/
def adm : (p : Fin 1) → (pcfgs (F := F) p).Adm := fun _ => ⟨tblOf m, ok_tbl m⟩

/-- The pipeline at those contents. -/
abbrev cfgM : Pipeline.Cfg sig Λ₀ := Pipeline.pin (pcfgs (F := F)) (adm m) 0

/-- Window w's block at point t, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V₀ m c (Proc.devRef .tc (Pipeline.arrRef spec0 w)))

/-- The validity word of tile t: the second table's element at the offsets the body's scalar load computes. -/
def tvWord (t : Fin (cfgM m).N) : BitVec 32 :=
  (tblOf m).at 1 (Rect.unit (s := S80) (k0_off1 (grid0.coords t)) S1.size (k0_off1_inb (grid0.coords t))) numel1_S1

/-- What the body leaves in the output block at point t. -/
def outAt (c : Dev nD) (t : Fin (cfgM m).N) : FVec F S128x1024 .f32 :=
  if k0_cond1 (tvWord m t) = 1#1 then Gen.k0_pay1 (iblk m c 0 t) (iblk m c 1 t) (iblk m c 2 t) else Gen.k0_pay2

def dats (_ : Fin 1) (c : Dev nD) : Dat τ (Elt F) Unit ℕ (UR sig nD τ) ℕ (cfgM m) c where
  A w := V₀ m c (Proc.devRef .tc (Pipeline.arrRef spec0 w))
  after w t := match w with
    | ⟨0, _⟩ => iblk m c 0 t
    | ⟨1, _⟩ => iblk m c 1 t
    | ⟨2, _⟩ => iblk m c 2 t
    | ⟨3, _⟩ => outAt m c t
  Φ _ := iprop(Pipeline.ΦA spec0 c ∗ Pipeline.ΦT pre0 (tblOf m) c)
  q _ := fullShare
  owed _ := 0

theorem A_eq (c : Dev nD) (w : Fin (cfgM m).W) : (dats m 0 c).A w = V₀ m c (Proc.devRef .tc (Pipeline.arrRef spec0 w)) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t =
    if k0_cond1 (tvWord m t) = 1#1 then Gen.k0_pay1 (iblk m c 0 t) (iblk m c 1 t) (iblk m c 2 t) else Gen.k0_pay2 := by
  dsimp only [dats]; try rfl

/-! ## The prefetched tables as the body holds them -/

/-- Each table as the body is handed it: its whole buffer as a memref. -/
abbrev tbM0 : Memref sig .tc .smem S80 .i32 := Memref.whole main_v79
abbrev htbM0 : tbM0.IsWhole := Memref.isWhole_whole _
abbrev tbM1 : Memref sig .tc .smem S80 .i32 := Memref.whole main_v82
abbrev htbM1 : tbM1.IsWhole := Memref.isWhole_whole _

/-- A table's buffer on core c, and that buffer held read-only (half of the full share) at contents f. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The two tables' halves, one by one. -/
theorem PhiT_eq (c : Dev nD) : (Pipeline.ΦT pre0 (tblOf m) c : sProp 𝕄) = iprop(tbPt c tbM0 (tblOf m 0) ∗ tbPt c tbM1 (tblOf m 1)) := by
  unfold Pipeline.ΦT Pipeline.prefHeld
  rw [show (Finset.univ : Finset (Fin 2)) = insert (0 : Fin 2) {(1 : Fin 2)} from by decide,
    bigSep_insert (by decide), bigSep_singleton]
  rfl

/-- The word the body's scalar load reads from the second table held at contents xt1, at grid point i. -/
abbrev wordOf (c : Dev nD) (i : grid0.Coords) (xt1 : TbBuf (F := F) c tbM1) : BitVec 32 :=
  View.readAt (Elt F) tbM1.view (Rect.unit (s := S80) (k0_off1 i) S1.size (k0_off1_inb i)).toLoadRect xt1 (Shape.Idx.first (numel1_S1.symm ▸ Nat.one_pos))

theorem zero2 : (![0, 0] : Fin 2 → Nat) = fun _ => 0 := by funext a; fin_cases a <;> rfl
theorem zero3 : (![0, 0, 0] : Fin 3 → Nat) = fun _ => 0 := by funext a; fin_cases a <;> rfl

/-- One store through the whole-shape rectangle leaves its payload, whatever the buffer held. -/
theorem read_one_whole {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- A load through the whole-shape rectangle of a whole memref held at the contents that read x reads x. -/
theorem load_whole {sg : RefSig} {κ : Kind} {sp : Space} {S : Shape} {e : EltTy} {Val : EltTy → Type}
    (a : Memref sg κ sp S e) (h : a.IsWhole) {off : Fin S.rank → Nat} (hz : off = fun _ => 0)
    (inb : ∀ a, off a + S.size a ≤ S.size a) (x : S.Idx → Val e) :
    View.readAt Val a.view (Rect.unit off S.size inb).toLoadRect (h.unread x) = x := by
  rw [View.readAt_eq_ld, h.read_unread, View.ld_unit_zero hz]

/-! ## The kernel body on any whole staging memrefs -/

set_option maxHeartbeats 1000000 in
/-- From the three input buffers at their blocks, the output buffer at anything and the tables' halves, the body runs to
    the same with the output buffer at the payload the validity word selects: exactly one of the two guarded stores
    fires, and it overwrites the whole block. -/
theorem body_run (c : Dev nD) (i : grid0.Coords)
    (arg3 : Memref sig .tc .vmem S128x1024 .bf16) (harg3 : arg3.IsWhole) (arg4 : Memref sig .tc .vmem S1x1024x1024 .bf16) (harg4 : arg4.IsWhole)
    (arg5 : Memref sig .tc .vmem S1x1x1024 .f32) (harg5 : arg5.IsWhole) (arg6 : Memref sig .tc .vmem S128x1024 .f32) (harg6 : arg6.IsWhole)
    (x0 : Vec F S128x1024 .bf16) (x1 : Vec F S1x1024x1024 .bf16) (x2 : Vec F S1x1x1024 .f32)
    (xt0 : TbBuf (F := F) c tbM0) (xt1 : TbBuf (F := F) c tbM1)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2
            ∗ owns (c : Thread nD τ) arg6 fullShare (if k0_cond1 (wordOf c i xt1) = 1#1 then Gen.k0_pay1 x0 x1 x2 else Gen.k0_pay2)
            ∗ tbPt c tbM0 xt0 ∗ tbPt c tbM1 xt1) -∗ K ⟨⟩))
      ⊢ wp frame (wpE (defs₀ (F := F)) Variants.none c none) E (cc0__moe_kernel i tbM0 htbM0 tbM1 htbM1 arg3 harg3 arg4 harg4 arg5 harg5 arg6 harg6) K := by
  simp only [cc0__moe_kernel_eq_skeleton]; unfold cc0__moe_kernel_skel
  unfold owns
  iintro ⟨⟨%f0, %hf0, H0⟩, ⟨%f1, %hf1, H1⟩, ⟨%f2, %hf2, H2⟩, ⟨%d3, %f3, -, H3⟩, HT0, HT1, Hk⟩
  obtain rfl := harg3.eq_unread hf0
  obtain rfl := harg4.eq_unread hf1
  obtain rfl := harg5.eq_unread hf2
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    unfold body_run.sl.r
    by_cases h1 : k0_cond1 (wordOf c i xt1) = 1#1
    · have h2 : ¬ k0_cond2 (wordOf c i xt1) = 1#1 := fun h2 => (cond_compl _).mpr h2 h1
      rw [dif_neg h2, dif_pos h1, if_pos h1, read_one_whole _ _ zero2, load_whole arg3 harg3 zero2, load_whole arg4 harg4 zero3, load_whole arg5 harg5 zero3]
    · have h2 : k0_cond2 (wordOf c i xt1) = 1#1 := (cond_compl _).mp h1
      rw [dif_pos h2, dif_neg h1, if_neg h1, read_one_whole _ _ zero2]
  isplitl [HT0]; · iexact HT0
  iexact HT1

/-! ## What the body finds in each input's buffer -/

/-- Each input's current staging buffer holds the window's block at every point, fetched there or not. -/
theorem before0 (c : Dev nD) (t : Fin (cfgM m).N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The body obligation -/

/-- Each window's current staging memref at point t, as the pipeline passes it to the body, and its wholeness. -/
abbrev ms0 (t : Fin (cfgM m).N) : Memref sig .tc .vmem S128x1024 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1024x1024 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1x1024 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S128x1024 .f32 := spec0_3.stage ((cfgM m).slots t 3)
abbrev hs3 (t : Fin (cfgM m).N) : (ms3 m t).IsWhole := hstage0_3 (((cfgM m).slots t 3).cast nbuf0_3)

/-- The kernel body at point t, on what the pipeline calls it with. -/
abbrev bodyAt (t : Fin (cfgM m).N) : Prog (TpuEff nD τ sig (Elt F) Λ₀ .tc) PUnit :=
  cc0__moe_kernel (grid0.coords t) tbM0 htbM0 tbM1 htbM1 (ms0 m t) (hs0 m t) (ms1 m t) (hs1 m t) (ms2 m t) (hs2 m t) (ms3 m t) (hs3 m t)

/-- The word the body loads at point t is the validity word of tile t. -/
theorem wordOf_tbl (c : Dev nD) (t : Fin (cfgM m).N) : wordOf c (grid0.coords t) (tblOf m 1) = tvWord m t := by
  rfl

/-- What the body is called with at point t, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = iprop(Pipeline.ΦA spec0 c ∗ Pipeline.ΦT pre0 (tblOf m) c) from rfl, PhiT_eq]
  iintro ⟨⟨HΦ, ⟨HT0, HT1⟩⟩, Ho, ⟨%d0, H0⟩, ⟨%d1, H1⟩, ⟨%d2, H2⟩, ⟨%d3, H3⟩⟩
  iapply (body_run c (grid0.coords t) (ms0 m t) (hs0 m t) (ms1 m t) (hs1 m t) (ms2 m t) (hs2 m t) (ms3 m t) (hs3 m t)
    (iblk m c 0 t) (iblk m c 1 t) (iblk m c 2 t) (tblOf m 0) (tblOf m 1) Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  rw [wordOf_tbl]
  iexact H3

theorem body_obligation (c : Dev nD) : BodyObligationLoose (dats (F := F) m 0 c) (defs₀ (F := F)) Variants.none () Set.univ := fun t => by
  rw [bigSep_W0, bigSep_W0]
  have hi : (cfgM m).idle (3 : Fin 4) ((cfgM m).grid.coords t) = false := idle0_3 _ _
  rw [hi]
  exact sound_body m c t

/-! ## The validity word in closed form -/

/-- On the one-axis grid the point's coordinate is the point's number. -/
theorem coords_val : ∀ t : Fin grid0.N, (grid0.coords t 0).val = t.val := by decide +kernel

/-- The validity word of tile t is the second table's entry t. -/
theorem tvWord_tbl (t : Fin (cfgM m).N) :
    tvWord m t = tblOf m 1 (ValueIdx.ix1 (⟨t.val, lt_of_lt_of_eq t.isLt Gen.N_0⟩ : Fin 80)) := by
  unfold tvWord
  show tblOf m 1 _ = tblOf m 1 _
  congr 1
  funext d
  match d with
  | ⟨0, _⟩ =>
    apply Fin.ext
    show k0_off1 (grid0.coords t) 0 + 1 * 0 = t.val
    rw [Gen.k0_off1_eq]
    exact coords_val t

end Cert.Kernel.Hand

end
-- ==== Proof.BRun.lean ====
/-
  The launch assembled: the whole program runs to the frame post — each window's array at what the proof data compute
  after the last grid point, every buffer that bypasses the region at what the host lines after the region leave — and,
  from it, the four arguments end as they started: no host line, before or after the region, writes an argument, and no
  argument is a window's array.
-/
import proofs.«405730_j30700426232147_3_alg».proof.Proof.BFrame

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

variable (m : (ℓ : Loc nD τ sig) → Buf (Elt F) ℓ) (ρ : Dev nD → PrngReg)

/-! ## The frame run -/

set_option backward.isDefEq.respectTransparency.types false in
/-- The program runs, and ends at the frame post read at the contents after the host lines that follow the region. -/
theorem run_main : θ_run defs (onTc (τ := τ) (main (F := F))) ⟨m, fun _ => 0, ρ⟩
    (Pipeline.FramePost (Pipeline.pin pcfgs (adm m)) (dats m) 0 (Pipeline.afterTail pcfgs (adm m) (dats m) 0 (V₀ m) opssAfter)) :=
  Pipeline.θ_run_frameP_around pcfgs (adm m) (dats m) 0 Gen.launch0 defs₀ Variants.none m ρ main
    (hbody := body_obligation m) (hshare := fun c => (dats m 0 c).share_full fun _ => rfl) (howed := fun _ _ => rfl) (V₀ m) opssAfter
    (hsub := after_sub) after_fresh after_keep (hmain Variants.none m) (hA := A_eq m) (hpf := hpf m)
    (hΦ := fun _ _ => rfl)

/-! ## The arguments end as they started -/

/-- The four argument buffers. -/
abbrev argRef : Fin 4 → Ref sig .tc := ![main_arg0, main_arg1, main_arg2, main_arg3]

/-- No host operation before the region writes an argument: each writes its own result buffer, which is no argument. -/
theorem before_keeps_arg (k : Fin 4) :
    ∀ op ∈ (opssBefore (F := F)).flatten, Proc.devRef (τ := τ) .tc (argRef k) ∉ op.writes := by
  have w0 : (Gen.hostOps0 (F := F)).Forall fun op => Proc.devRef (τ := τ) .tc (argRef k) ∉ op.writes := by
    fin_cases k <;>
      (simp only [Gen.hostOps0, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w1 : (Gen.hostOps0_1 (F := F)).Forall fun op => Proc.devRef (τ := τ) .tc (argRef k) ∉ op.writes := by
    fin_cases k <;>
      (simp only [Gen.hostOps0_1, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w2 : (Gen.hostOps0_2 (F := F)).Forall fun op => Proc.devRef (τ := τ) .tc (argRef k) ∉ op.writes := by
    fin_cases k <;>
      (simp only [Gen.hostOps0_2, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w3 : (Gen.hostOps0_3 (F := F)).Forall fun op => Proc.devRef (τ := τ) .tc (argRef k) ∉ op.writes := by
    fin_cases k <;>
      (simp only [Gen.hostOps0_3, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w4 : (Gen.hostOps0_4 (F := F)).Forall fun op => Proc.devRef (τ := τ) .tc (argRef k) ∉ op.writes := by
    fin_cases k <;>
      (simp only [Gen.hostOps0_4, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w5 : (Gen.hostOps0_5 (F := F)).Forall fun op => Proc.devRef (τ := τ) .tc (argRef k) ∉ op.writes := by
    fin_cases k <;>
      (simp only [Gen.hostOps0_5, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w6 : (Gen.hostOps0_6 (F := F)).Forall fun op => Proc.devRef (τ := τ) .tc (argRef k) ∉ op.writes := by
    fin_cases k <;>
      (simp only [Gen.hostOps0_6, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w7 : (Gen.hostOps0_7 (F := F)).Forall fun op => Proc.devRef (τ := τ) .tc (argRef k) ∉ op.writes := by
    fin_cases k <;>
      (simp only [Gen.hostOps0_7, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  intro op hop
  obtain ⟨ops, hops, hop'⟩ := List.mem_flatten.mp hop
  simp only [List.mem_cons, List.mem_nil_iff, or_false] at hops
  rcases hops with rfl | rfl | rfl | rfl | rfl | rfl | rfl | rfl
  · exact (List.forall_iff_forall_mem.mp w0) op hop'
  · exact (List.forall_iff_forall_mem.mp w1) op hop'
  · exact (List.forall_iff_forall_mem.mp w2) op hop'
  · exact (List.forall_iff_forall_mem.mp w3) op hop'
  · exact (List.forall_iff_forall_mem.mp w4) op hop'
  · exact (List.forall_iff_forall_mem.mp w5) op hop'
  · exact (List.forall_iff_forall_mem.mp w6) op hop'
  · exact (List.forall_iff_forall_mem.mp w7) op hop'

/-- Nor does a host operation after the region. -/
theorem after_keeps_arg (k : Fin 4) :
    ∀ op ∈ (opssAfter (F := F)).flatten, Proc.devRef (τ := τ) .tc (argRef k) ∉ op.writes := by
  have w : (Gen.hostOps1 (F := F)).Forall fun op => Proc.devRef (τ := τ) .tc (argRef k) ∉ op.writes := by
    fin_cases k <;>
      (simp only [Gen.hostOps1, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  intro op hop
  obtain ⟨ops, hops, hop'⟩ := List.mem_flatten.mp hop
  simp only [List.mem_cons, List.mem_nil_iff, or_false] at hops
  subst hops
  exact (List.forall_iff_forall_mem.mp w) op hop'

/-- No argument is a window's array. -/
theorem arg_ne_arr (k : Fin 4) (w : Fin 4) : Pipeline.arrRef spec0 w ≠ argRef k := by
  fin_cases k <;> fin_cases w <;> decide

/-- An argument holds at the region's entry what the launch memory holds. -/
theorem V₀_arg (c : Dev nD) (k : Fin 4) :
    V₀ m c (Proc.devRef .tc (argRef k)) = m ((c.tc : Thread nD τ).loc (argRef k)) :=
  StableHlo.after_of_forall_not_mem _ _ (before_keeps_arg k)

/-- And after the host lines that follow the region it still does. -/
theorem tail_arg (c : Dev nD) (k : Fin 4) :
    Pipeline.afterTail pcfgs (adm m) (dats m) 0 (V₀ m) opssAfter c (argRef k) = m ((c.tc : Thread nD τ).loc (argRef k)) := by
  unfold Pipeline.afterTail
  rw [StableHlo.after_of_forall_not_mem _ _ (after_keeps_arg k),
    Pipeline.withArrays_of_ne _ c (V₀ m c) _ (argRef k) (fun w => arg_ne_arr k w)]
  exact V₀_arg m c k

theorem tail_arg0 (c : Dev nD) :
    Pipeline.afterTail pcfgs (adm m) (dats m) 0 (V₀ m) opssAfter c main_arg0 = m ((c.tc : Thread nD τ).loc main_arg0) :=
  tail_arg m c 0
theorem tail_arg1 (c : Dev nD) :
    Pipeline.afterTail pcfgs (adm m) (dats m) 0 (V₀ m) opssAfter c main_arg1 = m ((c.tc : Thread nD τ).loc main_arg1) :=
  tail_arg m c 1
theorem tail_arg2 (c : Dev nD) :
    Pipeline.afterTail pcfgs (adm m) (dats m) 0 (V₀ m) opssAfter c main_arg2 = m ((c.tc : Thread nD τ).loc main_arg2) :=
  tail_arg m c 2
theorem tail_arg3 (c : Dev nD) :
    Pipeline.afterTail pcfgs (adm m) (dats m) 0 (V₀ m) opssAfter c main_arg3 = m ((c.tc : Thread nD τ).loc main_arg3) :=
  tail_arg m c 3

/-- An argument bypasses the region: it is unscoped and no window's array. -/
theorem arg_mem_rest (k : Fin 4) : argRef k ∈ Pipeline.restRefs sig (Pipeline.pin (pcfgs (F := F)) (adm m) 0).spec :=
  Pipeline.mem_restRefs_of (argRef k) (by fin_cases k <;> rfl) (fun w => arg_ne_arr k w)

/-- THE FRAME: the program runs, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (arg_mem_rest m 0)).trans (tail_arg0 m c),
      ((h c).2 main_arg1 (arg_mem_rest m 1)).trans (tail_arg1 m c),
      ((h c).2 main_arg2 (arg_mem_rest m 2)).trans (tail_arg2 m c),
      ((h c).2 main_arg3 (arg_mem_rest m 3)).trans (tail_arg3 m c)⟩) (run_main m ρ)

end Cert.Kernel.Hand

end
-- ==== Proof.KLaunch.lean ====
/-
  The host side of the one launch. The program is eight stretches of host operations (the routing of tokens to padded
  rows: sort, counts, running sums, the two tile tables), the region, and nine more host operations (the gather of the
  result rows). The contents the region starts from are the first eight stretches applied to the launch memory; the two
  tables the region's index maps read are those contents at the tables' buffers. The table of tile labels is a sum of
  fifteen bits capped at fifteen, so every label it holds is below sixteen and every block it selects lies inside its
  array, whatever the inputs are. The operations after the region touch neither a table nor a scoped buffer and write no
  window's array. Of the body's two guards, on the tile-valid word being non-zero and being zero, exactly one holds.
-/
import proofs.«405730_j30700426232147_3_alg».proof.Proof.Gen.KernelIdeal.Launch
import Idealize.ShloMosaic.Lib.Pipeline.FrameSuffix
import Idealize.ShloMosaic.PureOps.Reduce

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## The host lines around the region -/

/-- The eight stretches of host operations that run before the region, in order. -/
abbrev opssBefore : List (List (HloOp τ sig (Elt F))) :=
  [Gen.hostOps0, Gen.hostOps0_1, Gen.hostOps0_2, Gen.hostOps0_3, Gen.hostOps0_4, Gen.hostOps0_5, Gen.hostOps0_6, Gen.hostOps0_7]

/-- The one stretch of host operations that runs after the region. -/
abbrev opssAfter : List (List (HloOp τ sig (Elt F))) := [Gen.hostOps1]

theorem main_eq (c : Dev nD) :
    main (F := F) c = Pipeline.chain ((opssBefore (F := F)).map StableHlo.seq
      ++ [Prog.lift (.customCall (Pipeline.entry 0) ())] ++ (opssAfter (F := F)).map StableHlo.seq) :=
  Gen.main_chain c

/-- No host operation before the region leaves a result buffer undetermined. -/
theorem before_fresh : (opssBefore (F := F)).Forall fun ops => ops.Forall fun op => op.fresh = ∅ := by
  refine ⟨?_, ?_, ?_, ?_, ?_, ?_, ?_, ?_⟩ <;> (simp only [List.Forall]; repeat' constructor)

/-- Every host operation before the region touches TensorCore references only. -/
theorem before_sub : (opssBefore (F := F)).Forall fun ops => ops.Forall fun op => op.bufs ⊆ StableHlo.tcRefs τ sig :=
  ⟨Gen.hostOps0_sub, Gen.hostOps0_1_sub, Gen.hostOps0_2_sub, Gen.hostOps0_3_sub, Gen.hostOps0_4_sub, Gen.hostOps0_5_sub,
    Gen.hostOps0_6_sub, Gen.hostOps0_7_sub⟩

/-- The buffer contents of core c when the region is entered. -/
def V₀ (m : (ℓ : Loc nD τ sig) → Buf (Elt F) ℓ) (c : Dev nD) : Valuation τ sig (Elt F) :=
  StableHlo.after (opssBefore (F := F)).flatten (fun b => m (c, b))

theorem hmain (𝒱₀ : Variants) (m : (ℓ : Loc nD τ sig) → Buf (Elt F) ℓ) :
    Pipeline.HMainPK (Ix := Unit) (Name := ℕ) (U := UR sig nD τ) (Lvl := ℕ) pcfgs 0 defs₀ 𝒱₀ m (main (F := F))
      (fun c b => V₀ m c (Proc.devRef .tc b)) (fun _ => Pipeline.chain ((opssAfter (F := F)).map StableHlo.seq)) :=
  Pipeline.hmainP_around pcfgs 0 defs₀ 𝒱₀ m main opssBefore opssAfter before_sub before_fresh main_eq

/-! ## The lines after the region -/

/-- Each line after the region touches only the windows' arrays and buffers that bypass the region: it touches TensorCore
    references, and neither prefetched table is among them. -/
theorem after_sub : ∀ ops ∈ (opssAfter (F := F)), ∀ op ∈ ops,
    op.bufs ⊆ Pipeline.tailRefs sig pre0 spec0 := by
  intro ops hops op hop
  simp only [List.mem_cons, List.mem_nil_iff, or_false] at hops
  subst hops
  refine Pipeline.sub_tailRefs pre0 spec0 op ((List.forall_iff_forall_mem.mp Gen.hostOps1_sub) op hop) ?_
  simp only [Gen.hostOps1, List.mem_cons, List.mem_nil_iff, or_false] at hop
  rcases hop with rfl | rfl | rfl | rfl | rfl | rfl | rfl | rfl | rfl
  all_goals
    intro k
    fin_cases k <;>
      simp only [StableHlo.nullary_bufs, StableHlo.unary_bufs, StableHlo.binary_bufs, StableHlo.ternary_bufs,
        Finset.mem_insert, Finset.mem_singleton, not_or] <;>
      (repeat' apply And.intro) <;> exact StableHlo.devRef_ne_of_ne (by decide)

/-- The same, spelled at the pipeline pinned at admissible contents of its tables (the windows' specifications do not
    depend on the contents). -/
theorem after_sub_pin (a : (pcfg0 (F := F)).Adm) : ∀ ops ∈ (opssAfter (F := F)), ∀ op ∈ ops,
    op.bufs ⊆ Pipeline.tailRefs sig (pcfgs (F := F) 0).pre (Pipeline.pin (pcfgs (F := F)) (fun _ => a) 0).spec :=
  after_sub

/-- No line after the region leaves a result buffer undetermined. -/
theorem after_fresh : ∀ ops ∈ (opssAfter (F := F)), ∀ op ∈ ops, op.fresh = ∅ := by
  intro ops hops op hop
  simp only [List.mem_cons, List.mem_nil_iff, or_false] at hops
  subst hops
  have h : (Gen.hostOps1 (F := F)).Forall fun op => op.fresh = ∅ := by
    simp only [List.Forall]; repeat' constructor
  exact (List.forall_iff_forall_mem.mp h) op hop

/-- No line after the region writes a window's array: each writes its own result buffer, which is none of the four. -/
theorem after_keep : ∀ ops ∈ (opssAfter (F := F)), ∀ op ∈ ops, ∀ w, Proc.devRef .tc (Pipeline.arrRef spec0 w) ∉ op.writes := by
  intro ops hops op hop
  simp only [List.mem_cons, List.mem_nil_iff, or_false] at hops
  subst hops
  simp only [Gen.hostOps1, List.mem_cons, List.mem_nil_iff, or_false] at hop
  rcases hop with rfl | rfl | rfl | rfl | rfl | rfl | rfl | rfl | rfl
  all_goals
    intro w
    fin_cases w <;>
      simp only [StableHlo.nullary_writes, StableHlo.unary_writes, StableHlo.binary_writes, StableHlo.ternary_writes,
        Finset.mem_singleton] <;>
      exact StableHlo.devRef_ne_of_ne (by decide)

/-! ## The prefetched tables -/

def tblOf (m : (ℓ : Loc nD τ sig) → Buf (Elt F) ℓ) : pre0.Contents (Elt F) :=
  fun k => V₀ m (0 : Dev nD) (Proc.devRef .tc (pre0.ref k))

theorem hpf (m : (ℓ : Loc nD τ sig) → Buf (Elt F) ℓ) (c : Dev nD) (k : Fin pre0.K) :
    V₀ m c (Proc.devRef .tc (pre0.ref k)) = tblOf m k := by
  obtain rfl : c = 0 := Subsingleton.elim _ _
  rfl

/-! ### The first table holds expert numbers below sixteen

The first table is the elementwise signed minimum of fifteen and a row sum, over fifteen columns, of words that are each
0 or 1 (the zero-extensions of comparison bits). Such a sum is computed without wrap-around and is at most the number of
summands, so it is nonnegative as a signed word, and its signed minimum with fifteen is a word whose unsigned value is at
most fifteen. -/

/-- Adding words that are each 0 or 1 to a start value: while the count fits the width there is no wrap-around, and the
    result exceeds the start by at most the number of words added. -/
theorem foldl_addi_toNat_le {ι : Type} (x : ι → BitVec 32) :
    ∀ (l : List ι) (init : BitVec 32), (∀ i ∈ l, (x i).toNat ≤ 1) → init.toNat + l.length < 2 ^ 32 →
      (l.foldl (fun r i => IntOp.addi r (x i)) init).toNat ≤ init.toNat + l.length
  | [], init, _, _ => by simp
  | a :: l, init, hx, hlen => by
    rw [List.foldl_cons]
    have ha : (x a).toNat ≤ 1 := hx a List.mem_cons_self
    have h1 : (IntOp.addi init (x a)).toNat ≤ init.toNat + 1 := by
      unfold IntOp.addi
      rw [BitVec.toNat_add]
      exact (Nat.mod_le _ _).trans (by omega)
    simp only [List.length_cons] at hlen ⊢
    have := foldl_addi_toNat_le x l (IntOp.addi init (x a)) (fun i hi => hx i (List.mem_cons_of_mem _ hi)) (by omega)
    omega

/-- A row sum of zero-extended bits, from zero, is at most the number of elements of the summed array. -/
theorem reduce_bits_toNat_le (x : IVec S80x15 1) (j : S80.Idx) :
    (Host.reduce IntOp.addi (extui 32 x Gen.natLt_1_32) (constantI S_ 32 0#32) Gen.reducesTo_S80x15_S80_d1 Gen.h_S_ j).toNat ≤ 1200 := by
  rw [Host.reduce_eq_foldl]
  have hlen : ((((List.finRange S80x15.numel).map S80x15.rowMajor.symm).filter
      fun i => Gen.reducesTo_S80x15_S80_d1.drop i = j).length) ≤ 1200 :=
    (List.length_filter_le _ _).trans (by rw [List.length_map, List.length_finRange]; decide)
  have h0 : (constantI S_ 32 0#32 (Shape.Idx.first Gen.h_S_)).toNat = 0 := rfl
  refine (foldl_addi_toNat_le _ _ _ (fun i _ => ?_) (by rw [h0]; omega)).trans (by rw [h0]; omega)
  show ((x i).setWidth 32).toNat ≤ 1
  rw [BitVec.toNat_setWidth]
  have := (x i).isLt
  exact (Nat.mod_le _ _).trans (by omega)

/-- The signed minimum of fifteen and a word of small unsigned value has unsigned value below sixteen. -/
theorem minsi_15_toNat_lt (x : BitVec 32) (hx : x.toNat ≤ 1200) : (IntOp.minsi x 15#32).toNat < 16 := by
  unfold IntOp.minsi
  split
  · rename_i h
    have h' : x.toInt < (15#32).toInt := BitVec.slt_iff_toInt_lt.mp h
    rw [BitVec.toInt_eq_toNat_of_lt (by omega)] at h'
    have h15 : (15#32 : BitVec 32).toInt = 15 := by decide
    rw [h15] at h'
    omega
  · decide

/-- The first table's term, at any array of bits in place of the comparison's result: every element below sixteen. -/
theorem minsi_reduce_lt (x : IVec S80x15 1) (j : S80.Idx) :
    ((minsi (Host.reduce IntOp.addi (extui 32 x Gen.natLt_1_32) (constantI S_ 32 0#32) Gen.reducesTo_S80x15_S80_d1 Gen.h_S_)
        (broadcastInDim S80 ![] Gen.bcast_S_S80 (constantI S_ 32 15#32)) : IVec S80 32) j).toNat < 16 :=
  minsi_15_toNat_lt _ (reduce_bits_toNat_le x j)

/-- After the last stretch before the region, from ANY contents before it, the first table's buffer holds words below
    sixteen: the stretch computes it as that minimum (only the operations the table depends on are read). -/
theorem last_stretch_v79_lt (W : Valuation τ sig (Elt F)) (j : S80.Idx) :
    BitVec.toNat (w := 32) (StableHlo.after (Gen.hostOps0_7 (F := F)) W (Proc.devRef .tc main_v79) j) < 16 := by
  simp only [Gen.hostOps0_7]
  after_results_simp
  exact minsi_reduce_lt _ j

/-- Running the stretches of a list that ends in the stretch h: the earlier ones, then h. -/
theorem after_flatten_concat (L : List (List (HloOp τ sig (Elt F)))) (h : List (HloOp τ sig (Elt F)))
    (V : Valuation τ sig (Elt F)) :
    StableHlo.after (L ++ [h]).flatten V = StableHlo.after h (StableHlo.after L.flatten V) := by
  rw [List.flatten_append, StableHlo.after_append, List.flatten_cons, List.flatten_nil, List.append_nil]

/-- The contents at the region's entry are the last stretch run from the contents after the first seven. -/
theorem V₀_last (m : (ℓ : Loc nD τ sig) → Buf (Elt F) ℓ) (c : Dev nD) :
    V₀ m c = StableHlo.after (Gen.hostOps0_7 (F := F))
      (StableHlo.after ([Gen.hostOps0, Gen.hostOps0_1, Gen.hostOps0_2, Gen.hostOps0_3, Gen.hostOps0_4, Gen.hostOps0_5,
        Gen.hostOps0_6] : List (List (HloOp τ sig (Elt F)))).flatten (fun b => m (c, b))) :=
  after_flatten_concat [Gen.hostOps0, Gen.hostOps0_1, Gen.hostOps0_2, Gen.hostOps0_3, Gen.hostOps0_4, Gen.hostOps0_5,
    Gen.hostOps0_6] Gen.hostOps0_7 (fun b => m (c, b))

/-- Every element of the first table is below sixteen, whatever the launch memory. -/
theorem tbl0_lt (m : (ℓ : Loc nD τ sig) → Buf (Elt F) ℓ) (j : S80.Idx) : BitVec.toNat (w := 32) (tblOf m 0 j) < 16 := by
  show BitVec.toNat (w := 32) (V₀ m (0 : Dev nD) (Proc.devRef .tc main_v79) j) < 16
  rw [V₀_last]
  exact last_stretch_v79_lt _ j

/-! ### The side condition on the tables, from the bound

Proved at ANY contents of the tables whose first table stays below sixteen; the launch's contents are put in last. -/

/-- Window 1's block index is the first table's word at the grid point, then two zeros. -/
theorem transform_1_eq (pf : pre0.Contents (Elt F)) (i : grid0.Coords) :
    ∃ j : S80.Idx, cc0_transform_1 Gen.k0_off1_inb Gen.numel1_S1 pf i = ![BitVec.toNat (w := 32) (pf 0 j), 0, 0] :=
  ⟨_, rfl⟩

/-- Window 2's block index likewise. -/
theorem transform_2_eq (pf : pre0.Contents (Elt F)) (i : grid0.Coords) :
    ∃ j : S80.Idx, cc0_transform_2 Gen.k0_off1_inb Gen.numel1_S1 pf i = ![BitVec.toNat (w := 32) (pf 0 j), 0, 0] :=
  ⟨_, rfl⟩

/-- With sixteen experts, a first table below sixteen keeps every table-indexed block of windows 1 and 2 inside its array;
    window 1's blocks (16-bit elements) have a row extent that is a multiple of the packing, window 2's elements are
    word-wide. -/
theorem ok_of_lt (pf : pre0.Contents (Elt F)) (h : ∀ j : S80.Idx, BitVec.toNat (w := 32) (pf 0 j) < 16) : ok0 pf := by
  refine ⟨fun i => ?_, fun i => ?_⟩
  · obtain ⟨j, hj⟩ := transform_1_eq pf i
    have hb : ∀ a, (cc0_transform_1 Gen.k0_off1_inb Gen.numel1_S1 pf i a + 1) * S1x1024x1024.size a ≤ S16x1024x1024.size a := by
      intro a
      rw [hj]
      have := h j
      fin_cases a
      · show (BitVec.toNat (w := 32) (pf 0 j) + 1) * 1 ≤ 16
        omega
      · show (0 + 1) * 1024 ≤ 1024
        omega
      · show (0 + 1) * 1024 ≤ 1024
        omega
    exact ⟨hb, .inr (Affine.block_words_dvd (by decide) (by decide))⟩
  · obtain ⟨j, hj⟩ := transform_2_eq pf i
    have hb : ∀ a, (cc0_transform_2 Gen.k0_off1_inb Gen.numel1_S1 pf i a + 1) * S1x1x1024.size a ≤ S16x1x1024.size a := by
      intro a
      rw [hj]
      have := h j
      fin_cases a
      · show (BitVec.toNat (w := 32) (pf 0 j) + 1) * 1 ≤ 16
        omega
      · show (0 + 1) * 1 ≤ 1
        omega
      · show (0 + 1) * 1024 ≤ 1024
        omega
    exact ⟨hb, .inl rfl⟩

/-- The pipeline's side condition holds of the tables the host lines compute, at every launch memory. -/
theorem ok_tbl (m : (ℓ : Loc nD τ sig) → Buf (Elt F) ℓ) : ok0 (F := F) (tblOf m) :=
  ok_of_lt (tblOf m) (tbl0_lt m)

/-! ## The two branch conditions -/

/-- The first branch is taken exactly when the word is not zero. -/
theorem cond1_iff (v : BitVec 32) : k0_cond1 v = 1#1 ↔ v ≠ 0#32 := by
  unfold k0_cond1
  simp only [Scalar.cmpi, IntOp.cmpi, Scalar.extui]
  by_cases h : v = 0#32
  · subst h; decide
  · have hb : (v != 0#32) = true := by simpa using h
    rw [hb]; simp only [h, ne_eq, not_false_eq_true, iff_true]; decide

/-- The second branch is taken exactly when the word is zero. -/
theorem cond2_iff (v : BitVec 32) : k0_cond2 v = 1#1 ↔ v = 0#32 := by
  unfold k0_cond2
  simp only [Scalar.cmpi, IntOp.cmpi, Scalar.extui]
  by_cases h : v = 0#32
  · subst h; decide
  · have hb : (v == 0#32) = false := by simpa using h
    rw [hb]; simp only [h, iff_false]; decide

/-- At every word exactly one of the two branches is taken. -/
theorem cond_compl (v : BitVec 32) : ¬ (k0_cond1 v = 1#1) ↔ k0_cond2 v = 1#1 := by
  rw [cond1_iff, cond2_iff, not_not]

/-- So the output window is idle at no grid point. -/
theorem idle0_3 (pf : pre0.Contents (Elt F)) (i : grid0.Coords) : idle0 pf 3 i = false := by
  show (!(k0_cond1 (pf.atD 1 (k0_off1 i)) == 1#1) && !(k0_cond2 (pf.atD 1 (k0_off1 i)) == 1#1)) = false
  generalize pf.atD 1 (k0_off1 i) = v
  by_cases h : k0_cond1 v = 1#1
  · simp [h]
  · have h2 := (cond_compl v).1 h
    simp [h2]

end Cert.KernelIdeal.Hand

end
-- ==== Proof.KFrame.lean ====
/-
  The proof data of the one launch and the body's obligation. At grid point t the three input windows hold block t of
  the padded input rows and the slabs of the weights and of the bias that the tile's label selects; the output window
  ends at the product of the rows with the slab plus the bias row, clipped at zero, when the tile-valid word is non-zero,
  and at zeros when it is zero. The body reads the word from the table in scalar memory, takes exactly one of its two
  guarded branches, and stores over the whole output block; with the tables held by the invariant this is the obligation
  the launch theorem asks at every point.
-/
import proofs.«405730_j30700426232147_3_alg».proof.Proof.KLaunch
import proofs.«405730_j30700426232147_3_alg».proof.Proof.Gen.KernelIdeal.Launch
import proofs.«405730_j30700426232147_3_alg».proof.Proof.Gen.KernelIdeal.Skeleton
import Idealize.ShloMosaic.Lib.Pipeline.FrameSuffix
import Idealize.ShloMosaic.Lib.Pipeline.FrameBody
import Idealize.ShloMosaic.Lib.Pipeline.Kit
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The admissible table contents and the pinned pipeline -/

/-- The tables' contents at the region's entry, as admissible contents of the one pipeline. -/
def adm : (p : Fin 1) → (pcfgs (F := F) p).Adm := fun _ => ⟨tblOf m, ok_tbl m⟩

/-- The pipeline at those contents. -/
abbrev cfgM : Pipeline.Cfg sig Λ₀ := Pipeline.pin (pcfgs (F := F)) (adm m) 0

/-- Window w's block at point t, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V₀ m c (Proc.devRef .tc (Pipeline.arrRef spec0 w)))

/-- The validity word of tile t: the second table's element at the offsets the body's scalar load computes. -/
def tvWord (t : Fin (cfgM m).N) : BitVec 32 :=
  (tblOf m).at 1 (Rect.unit (s := S80) (k0_off1 (grid0.coords t)) S1.size (k0_off1_inb (grid0.coords t))) numel1_S1

/-- What the body leaves in the output block at point t. -/
def outAt (c : Dev nD) (t : Fin (cfgM m).N) : FVec F S128x1024 .f32 :=
  if k0_cond1 (tvWord m t) = 1#1 then Gen.k0_pay1 (iblk m c 0 t) (iblk m c 1 t) (iblk m c 2 t) else Gen.k0_pay2

def dats (_ : Fin 1) (c : Dev nD) : Dat τ (Elt F) Unit ℕ (UR sig nD τ) ℕ (cfgM m) c where
  A w := V₀ m c (Proc.devRef .tc (Pipeline.arrRef spec0 w))
  after w t := match w with
    | ⟨0, _⟩ => iblk m c 0 t
    | ⟨1, _⟩ => iblk m c 1 t
    | ⟨2, _⟩ => iblk m c 2 t
    | ⟨3, _⟩ => outAt m c t
  Φ _ := iprop(Pipeline.ΦA spec0 c ∗ Pipeline.ΦT pre0 (tblOf m) c)
  q _ := fullShare
  owed _ := 0

theorem A_eq (c : Dev nD) (w : Fin (cfgM m).W) : (dats m 0 c).A w = V₀ m c (Proc.devRef .tc (Pipeline.arrRef spec0 w)) := by
  dsimp only [dats]

theorem after0 (c : Dev nD) (t : Fin (cfgM m).N) : (dats m 0 c).after 0 t = iblk m c 0 t := by dsimp only [dats]; try rfl
theorem after1 (c : Dev nD) (t : Fin (cfgM m).N) : (dats m 0 c).after 1 t = iblk m c 1 t := by dsimp only [dats]; try rfl
theorem after2 (c : Dev nD) (t : Fin (cfgM m).N) : (dats m 0 c).after 2 t = iblk m c 2 t := by dsimp only [dats]; try rfl
theorem after3 (c : Dev nD) (t : Fin (cfgM m).N) : (dats m 0 c).after 3 t =
    if k0_cond1 (tvWord m t) = 1#1 then Gen.k0_pay1 (iblk m c 0 t) (iblk m c 1 t) (iblk m c 2 t) else Gen.k0_pay2 := by
  dsimp only [dats]; try rfl

/-! ## The prefetched tables as the body holds them -/

/-- Each table as the body is handed it: its whole buffer as a memref. -/
abbrev tbM0 : Memref sig .tc .smem S80 .i32 := Memref.whole main_v79
abbrev htbM0 : tbM0.IsWhole := Memref.isWhole_whole _
abbrev tbM1 : Memref sig .tc .smem S80 .i32 := Memref.whole main_v82
abbrev htbM1 : tbM1.IsWhole := Memref.isWhole_whole _

/-- A table's buffer on core c, and that buffer held read-only (half of the full share) at contents f. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The two tables' halves, one by one. -/
theorem PhiT_eq (c : Dev nD) : (Pipeline.ΦT pre0 (tblOf m) c : sProp 𝕄) = iprop(tbPt c tbM0 (tblOf m 0) ∗ tbPt c tbM1 (tblOf m 1)) := by
  unfold Pipeline.ΦT Pipeline.prefHeld
  rw [show (Finset.univ : Finset (Fin 2)) = insert (0 : Fin 2) {(1 : Fin 2)} from by decide,
    bigSep_insert (by decide), bigSep_singleton]
  rfl

/-- The word the body's scalar load reads from the second table held at contents xt1, at grid point i. -/
abbrev wordOf (c : Dev nD) (i : grid0.Coords) (xt1 : TbBuf (F := F) c tbM1) : BitVec 32 :=
  View.readAt (Elt F) tbM1.view (Rect.unit (s := S80) (k0_off1 i) S1.size (k0_off1_inb i)).toLoadRect xt1 (Shape.Idx.first (numel1_S1.symm ▸ Nat.one_pos))

theorem zero2 : (![0, 0] : Fin 2 → Nat) = fun _ => 0 := by funext a; fin_cases a <;> rfl
theorem zero3 : (![0, 0, 0] : Fin 3 → Nat) = fun _ => 0 := by funext a; fin_cases a <;> rfl

/-- One store through the whole-shape rectangle leaves its payload, whatever the buffer held. -/
theorem read_one_whole {sg : RefSig} {κ : Kind} {sp : Space} {S : Shape} {e : EltTy} {Val : EltTy → Type} [∀ e, Nonempty (Val e)]
    (v : View sg κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon v f _ (fun y => ⟨_, List.mem_singleton_self _, View.mem_set_unit_zero hz inb y⟩),
    View.canon_unit_zero hz]

/-- A load through the whole-shape rectangle of a whole memref held at the contents that read x reads x. -/
theorem load_whole {sg : RefSig} {κ : Kind} {sp : Space} {S : Shape} {e : EltTy} {Val : EltTy → Type}
    (a : Memref sg κ sp S e) (h : a.IsWhole) {off : Fin S.rank → Nat} (hz : off = fun _ => 0)
    (inb : ∀ a, off a + S.size a ≤ S.size a) (x : S.Idx → Val e) :
    View.readAt Val a.view (Rect.unit off S.size inb).toLoadRect (h.unread x) = x := by
  rw [View.readAt_eq_ld, h.read_unread, View.ld_unit_zero hz]

/-! ## The kernel body on any whole staging memrefs -/

set_option maxHeartbeats 1000000 in
/-- From the three input buffers at their blocks, the output buffer at anything and the tables' halves, the body runs to
    the same with the output buffer at the payload the validity word selects: exactly one of the two guarded stores
    fires, and it overwrites the whole block. -/
theorem body_run (c : Dev nD) (i : grid0.Coords)
    (arg3 : Memref sig .tc .vmem S128x1024 .bf16) (harg3 : arg3.IsWhole) (arg4 : Memref sig .tc .vmem S1x1024x1024 .bf16) (harg4 : arg4.IsWhole)
    (arg5 : Memref sig .tc .vmem S1x1x1024 .f32) (harg5 : arg5.IsWhole) (arg6 : Memref sig .tc .vmem S128x1024 .f32) (harg6 : arg6.IsWhole)
    (x0 : Vec F S128x1024 .bf16) (x1 : Vec F S1x1024x1024 .bf16) (x2 : Vec F S1x1x1024 .f32)
    (xt0 : TbBuf (F := F) c tbM0) (xt1 : TbBuf (F := F) c tbM1)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ tbPt c tbM0 xt0 ∗ tbPt c tbM1 xt1
        ∗ (iprop(owns (c : Thread nD τ) arg3 fullShare x0 ∗ owns (c : Thread nD τ) arg4 fullShare x1 ∗ owns (c : Thread nD τ) arg5 fullShare x2
            ∗ owns (c : Thread nD τ) arg6 fullShare (if k0_cond1 (wordOf c i xt1) = 1#1 then Gen.k0_pay1 x0 x1 x2 else Gen.k0_pay2)
            ∗ tbPt c tbM0 xt0 ∗ tbPt c tbM1 xt1) -∗ K ⟨⟩))
      ⊢ wp frame (wpE (defs₀ (F := F)) Variants.none c none) E (cc0__moe_kernel i tbM0 htbM0 tbM1 htbM1 arg3 harg3 arg4 harg4 arg5 harg5 arg6 harg6) K := by
  simp only [cc0__moe_kernel_eq_skeleton]; unfold cc0__moe_kernel_skel
  unfold owns
  iintro ⟨⟨%f0, %hf0, H0⟩, ⟨%f1, %hf1, H1⟩, ⟨%f2, %hf2, H2⟩, ⟨%d3, %f3, -, H3⟩, HT0, HT1, Hk⟩
  obtain rfl := harg3.eq_unread hf0
  obtain rfl := harg4.eq_unread hf1
  obtain rfl := harg5.eq_unread hf2
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    unfold body_run.sl.r
    by_cases h1 : k0_cond1 (wordOf c i xt1) = 1#1
    · have h2 : ¬ k0_cond2 (wordOf c i xt1) = 1#1 := fun h2 => (cond_compl _).mpr h2 h1
      rw [dif_neg h2, dif_pos h1, if_pos h1, read_one_whole _ _ zero2, load_whole arg3 harg3 zero2, load_whole arg4 harg4 zero3, load_whole arg5 harg5 zero3]
    · have h2 : k0_cond2 (wordOf c i xt1) = 1#1 := (cond_compl _).mp h1
      rw [dif_pos h2, dif_neg h1, if_neg h1, read_one_whole _ _ zero2]
  isplitl [HT0]; · iexact HT0
  iexact HT1

/-! ## What the body finds in each input's buffer -/

/-- Each input's current staging buffer holds the window's block at every point, fetched there or not. -/
theorem before0 (c : Dev nD) (t : Fin (cfgM m).N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin (cfgM m).N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin (cfgM m).N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-! ## The body obligation -/

/-- Each window's current staging memref at point t, as the pipeline passes it to the body, and its wholeness. -/
abbrev ms0 (t : Fin (cfgM m).N) : Memref sig .tc .vmem S128x1024 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1024x1024 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x1x1024 .f32 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S128x1024 .f32 := spec0_3.stage ((cfgM m).slots t 3)
abbrev hs3 (t : Fin (cfgM m).N) : (ms3 m t).IsWhole := hstage0_3 (((cfgM m).slots t 3).cast nbuf0_3)

/-- The kernel body at point t, on what the pipeline calls it with. -/
abbrev bodyAt (t : Fin (cfgM m).N) : Prog (TpuEff nD τ sig (Elt F) Λ₀ .tc) PUnit :=
  cc0__moe_kernel (grid0.coords t) tbM0 htbM0 tbM1 htbM1 (ms0 m t) (hs0 m t) (ms1 m t) (hs1 m t) (ms2 m t) (hs2 m t) (ms3 m t) (hs3 m t)

/-- The word the body loads at point t is the validity word of tile t. -/
theorem wordOf_tbl (c : Dev nD) (t : Fin (cfgM m).N) : wordOf c (grid0.coords t) (tblOf m 1) = tvWord m t := by
  rfl

/-- What the body is called with at point t, the windows one by one, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d)))

/-- and what it returns. -/
def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t)
    ∗ owns (c : Thread nD τ) (ms3 m t) fullShare ((dats m 0 c).after 3 t))

theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before0, before1, before2]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = iprop(Pipeline.ΦA spec0 c ∗ Pipeline.ΦT pre0 (tblOf m) c) from rfl, PhiT_eq]
  iintro ⟨⟨HΦ, ⟨HT0, HT1⟩⟩, Ho, ⟨%d0, H0⟩, ⟨%d1, H1⟩, ⟨%d2, H2⟩, ⟨%d3, H3⟩⟩
  iapply (body_run c (grid0.coords t) (ms0 m t) (hs0 m t) (ms1 m t) (hs1 m t) (ms2 m t) (hs2 m t) (ms3 m t) (hs3 m t)
    (iblk m c 0 t) (iblk m c 1 t) (iblk m c 2 t) (tblOf m 0) (tblOf m 1) Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]; · iexact H2
  rw [wordOf_tbl]
  iexact H3

theorem body_obligation (c : Dev nD) : BodyObligationLoose (dats (F := F) m 0 c) (defs₀ (F := F)) Variants.none () Set.univ := fun t => by
  rw [bigSep_W0, bigSep_W0]
  have hi : (cfgM m).idle (3 : Fin 4) ((cfgM m).grid.coords t) = false := idle0_3 _ _
  rw [hi]
  exact sound_body m c t

/-! ## The validity word in closed form -/

/-- On the one-axis grid the point's coordinate is the point's number. -/
theorem coords_val : ∀ t : Fin grid0.N, (grid0.coords t 0).val = t.val := by decide +kernel

/-- The validity word of tile t is the second table's entry t. -/
theorem tvWord_tbl (t : Fin (cfgM m).N) :
    tvWord m t = tblOf m 1 (ValueIdx.ix1 (⟨t.val, lt_of_lt_of_eq t.isLt Gen.N_0⟩ : Fin 80)) := by
  unfold tvWord
  show tblOf m 1 _ = tblOf m 1 _
  congr 1
  funext d
  match d with
  | ⟨0, _⟩ =>
    apply Fin.ext
    show k0_off1 (grid0.coords t) 0 + 1 * 0 = t.val
    rw [Gen.k0_off1_eq]
    exact coords_val t

end Cert.KernelIdeal.Hand

end
-- ==== Proof.KRun.lean ====
/-
  The launch assembled: the whole program runs to the frame post — each window's array at what the proof data compute
  after the last grid point, every buffer that bypasses the region at what the host lines after the region leave — and,
  from it, the four arguments end as they started: no host line, before or after the region, writes an argument, and no
  argument is a window's array.
-/
import proofs.«405730_j30700426232147_3_alg».proof.Proof.KFrame

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]

variable (m : (ℓ : Loc nD τ sig) → Buf (Elt F) ℓ) (ρ : Dev nD → PrngReg)

/-! ## The frame run -/

set_option backward.isDefEq.respectTransparency.types false in
/-- The program runs, and ends at the frame post read at the contents after the host lines that follow the region. -/
theorem run_main : θ_run defs (onTc (τ := τ) (main (F := F))) ⟨m, fun _ => 0, ρ⟩
    (Pipeline.FramePost (Pipeline.pin pcfgs (adm m)) (dats m) 0 (Pipeline.afterTail pcfgs (adm m) (dats m) 0 (V₀ m) opssAfter)) :=
  Pipeline.θ_run_frameP_around pcfgs (adm m) (dats m) 0 Gen.launch0 defs₀ Variants.none m ρ main
    (hbody := body_obligation m) (hshare := fun c => (dats m 0 c).share_full fun _ => rfl) (howed := fun _ _ => rfl) (V₀ m) opssAfter
    (hsub := after_sub) after_fresh after_keep (hmain Variants.none m) (hA := A_eq m) (hpf := hpf m)
    (hΦ := fun _ _ => rfl)

/-! ## The arguments end as they started -/

/-- The four argument buffers. -/
abbrev argRef : Fin 4 → Ref sig .tc := ![main_arg0, main_arg1, main_arg2, main_arg3]

/-- No host operation before the region writes an argument: each writes its own result buffer, which is no argument. -/
theorem before_keeps_arg (k : Fin 4) :
    ∀ op ∈ (opssBefore (F := F)).flatten, Proc.devRef (τ := τ) .tc (argRef k) ∉ op.writes := by
  have w0 : (Gen.hostOps0 (F := F)).Forall fun op => Proc.devRef (τ := τ) .tc (argRef k) ∉ op.writes := by
    fin_cases k <;>
      (simp only [Gen.hostOps0, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w1 : (Gen.hostOps0_1 (F := F)).Forall fun op => Proc.devRef (τ := τ) .tc (argRef k) ∉ op.writes := by
    fin_cases k <;>
      (simp only [Gen.hostOps0_1, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w2 : (Gen.hostOps0_2 (F := F)).Forall fun op => Proc.devRef (τ := τ) .tc (argRef k) ∉ op.writes := by
    fin_cases k <;>
      (simp only [Gen.hostOps0_2, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w3 : (Gen.hostOps0_3 (F := F)).Forall fun op => Proc.devRef (τ := τ) .tc (argRef k) ∉ op.writes := by
    fin_cases k <;>
      (simp only [Gen.hostOps0_3, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w4 : (Gen.hostOps0_4 (F := F)).Forall fun op => Proc.devRef (τ := τ) .tc (argRef k) ∉ op.writes := by
    fin_cases k <;>
      (simp only [Gen.hostOps0_4, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w5 : (Gen.hostOps0_5 (F := F)).Forall fun op => Proc.devRef (τ := τ) .tc (argRef k) ∉ op.writes := by
    fin_cases k <;>
      (simp only [Gen.hostOps0_5, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w6 : (Gen.hostOps0_6 (F := F)).Forall fun op => Proc.devRef (τ := τ) .tc (argRef k) ∉ op.writes := by
    fin_cases k <;>
      (simp only [Gen.hostOps0_6, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  have w7 : (Gen.hostOps0_7 (F := F)).Forall fun op => Proc.devRef (τ := τ) .tc (argRef k) ∉ op.writes := by
    fin_cases k <;>
      (simp only [Gen.hostOps0_7, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  intro op hop
  obtain ⟨ops, hops, hop'⟩ := List.mem_flatten.mp hop
  simp only [List.mem_cons, List.mem_nil_iff, or_false] at hops
  rcases hops with rfl | rfl | rfl | rfl | rfl | rfl | rfl | rfl
  · exact (List.forall_iff_forall_mem.mp w0) op hop'
  · exact (List.forall_iff_forall_mem.mp w1) op hop'
  · exact (List.forall_iff_forall_mem.mp w2) op hop'
  · exact (List.forall_iff_forall_mem.mp w3) op hop'
  · exact (List.forall_iff_forall_mem.mp w4) op hop'
  · exact (List.forall_iff_forall_mem.mp w5) op hop'
  · exact (List.forall_iff_forall_mem.mp w6) op hop'
  · exact (List.forall_iff_forall_mem.mp w7) op hop'

/-- Nor does a host operation after the region. -/
theorem after_keeps_arg (k : Fin 4) :
    ∀ op ∈ (opssAfter (F := F)).flatten, Proc.devRef (τ := τ) .tc (argRef k) ∉ op.writes := by
  have w : (Gen.hostOps1 (F := F)).Forall fun op => Proc.devRef (τ := τ) .tc (argRef k) ∉ op.writes := by
    fin_cases k <;>
      (simp only [Gen.hostOps1, List.Forall, StableHlo.nullary_writes, StableHlo.unary_writes, StableHlo.binary_writes,
        StableHlo.ternary_writes, StableHlo.reshape_writes, Finset.mem_singleton]
       repeat' apply And.intro
       all_goals exact StableHlo.devRef_ne_of_ne (by decide))
  intro op hop
  obtain ⟨ops, hops, hop'⟩ := List.mem_flatten.mp hop
  simp only [List.mem_cons, List.mem_nil_iff, or_false] at hops
  subst hops
  exact (List.forall_iff_forall_mem.mp w) op hop'

/-- No argument is a window's array. -/
theorem arg_ne_arr (k : Fin 4) (w : Fin 4) : Pipeline.arrRef spec0 w ≠ argRef k := by
  fin_cases k <;> fin_cases w <;> decide

/-- An argument holds at the region's entry what the launch memory holds. -/
theorem V₀_arg (c : Dev nD) (k : Fin 4) :
    V₀ m c (Proc.devRef .tc (argRef k)) = m ((c.tc : Thread nD τ).loc (argRef k)) :=
  StableHlo.after_of_forall_not_mem _ _ (before_keeps_arg k)

/-- And after the host lines that follow the region it still does. -/
theorem tail_arg (c : Dev nD) (k : Fin 4) :
    Pipeline.afterTail pcfgs (adm m) (dats m) 0 (V₀ m) opssAfter c (argRef k) = m ((c.tc : Thread nD τ).loc (argRef k)) := by
  unfold Pipeline.afterTail
  rw [StableHlo.after_of_forall_not_mem _ _ (after_keeps_arg k),
    Pipeline.withArrays_of_ne _ c (V₀ m c) _ (argRef k) (fun w => arg_ne_arr k w)]
  exact V₀_arg m c k

theorem tail_arg0 (c : Dev nD) :
    Pipeline.afterTail pcfgs (adm m) (dats m) 0 (V₀ m) opssAfter c main_arg0 = m ((c.tc : Thread nD τ).loc main_arg0) :=
  tail_arg m c 0
theorem tail_arg1 (c : Dev nD) :
    Pipeline.afterTail pcfgs (adm m) (dats m) 0 (V₀ m) opssAfter c main_arg1 = m ((c.tc : Thread nD τ).loc main_arg1) :=
  tail_arg m c 1
theorem tail_arg2 (c : Dev nD) :
    Pipeline.afterTail pcfgs (adm m) (dats m) 0 (V₀ m) opssAfter c main_arg2 = m ((c.tc : Thread nD τ).loc main_arg2) :=
  tail_arg m c 2
theorem tail_arg3 (c : Dev nD) :
    Pipeline.afterTail pcfgs (adm m) (dats m) 0 (V₀ m) opssAfter c main_arg3 = m ((c.tc : Thread nD τ).loc main_arg3) :=
  tail_arg m c 3

/-- An argument bypasses the region: it is unscoped and no window's array. -/
theorem arg_mem_rest (k : Fin 4) : argRef k ∈ Pipeline.restRefs sig (Pipeline.pin (pcfgs (F := F)) (adm m) 0).spec :=
  Pipeline.mem_restRefs_of (argRef k) (by fin_cases k <;> rfl) (fun w => arg_ne_arr k w)

/-- THE FRAME: the program runs, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (arg_mem_rest m 0)).trans (tail_arg0 m c),
      ((h c).2 main_arg1 (arg_mem_rest m 1)).trans (tail_arg1 m c),
      ((h c).2 main_arg2 (arg_mem_rest m 2)).trans (tail_arg2 m c),
      ((h c).2 main_arg3 (arg_mem_rest m 3)).trans (tail_arg3 m c)⟩) (run_main m ρ)

end Cert.KernelIdeal.Hand

end
-- ==== Proof.LibGatherRows.lean ====
/-
  The host's gather of whole rows, read at an index, at generic extents.
  `gather_rows_apply` — an [R, D] matrix indexed by an [N, 1] column of 32-bit words (`x[idx]` of a matrix: axis 1
  of the result an offset axis running over the whole row, the operand's axis 0 collapsed and named by the start
  index, the index vector on axis 1 of the start indices, slices of one row): entry `(n, j)` of the result is the
  operand at row `idx (n, 0)`, read signed and clamped into `[0, R - 1]`, and column `j`.
-/
import Idealize.ShloMosaic.PureOps.ShapeOps
import Idealize.ShloMosaic.Lib.ValueIdx

noncomputable section

namespace Cert.LibGatherRows

open Idealize.ShloMosaic Idealize.ShloMosaic.ValueIdx

/-- The dimension numbers of the row layout (operand `[R, D]`, start indices `[N, 1]`, result `[N, D]`). -/
private abbrev rowDims (R D N : ℕ)
    (wf : GatherDims.WF (⟨2, ![R, D]⟩ : Shape) (⟨2, ![N, 1]⟩ : Shape) (⟨2, ![N, D]⟩ : Shape) [1] [0] [] [0] [] 1 ![1, D]) :
    GatherDims (⟨2, ![R, D]⟩ : Shape) (⟨2, ![N, 1]⟩ : Shape) (⟨2, ![N, D]⟩ : Shape) :=
  ⟨[1], [0], [], [], [0], 1, ![1, D], wf⟩

/-- Rows of a matrix indexed by a column of words. Axis 0 of the operand is collapsed and named by the start index
    map (its start is the word `idx (n, 0)` read as a signed integer and clamped into `[0, R - 1]`, the slice being
    one row); axis 1 is the one kept axis, read by the result's offset axis 1 from start 0 (the slice is the whole
    row): entry `(n, j)` of the gather is the operand at that row and column `j`. -/
theorem gather_rows_apply {α : Type} {R D N : ℕ} (hR : 0 < R)
    (d : GatherDims (⟨2, ![R, D]⟩ : Shape) (⟨2, ![N, 1]⟩ : Shape) (⟨2, ![N, D]⟩ : Shape))
    (hod : d.offsetDims = [1]) (hcs : d.collapsedSliceDims = [0]) (hob : d.operandBatchingDims = [])
    (hsb : d.startIndicesBatchingDims = []) (hsim : d.startIndexMap = [0]) (hiv : d.indexVectorDim = 1)
    (hss : d.sliceSizes = ![1, D])
    (x : (⟨2, ![R, D]⟩ : Shape).Idx → α) (idx : IVec (⟨2, ![N, 1]⟩ : Shape) 32) (n : Fin N) (j : Fin D) :
    Host.gather d x idx (ix2 n j)
      = x (ix2 ⟨min (idx (ix2 n (0 : Fin 1))).toInt.toNat (R - 1), by omega⟩ j) := by
  obtain ⟨od, cs, ob, sb, sim, iv, ss, wf⟩ := d
  dsimp only at hod hcs hob hsb hsim hiv hss
  subst hod hcs hob hsb hsim hiv hss
  unfold Host.gather
  congr 1
  funext a
  refine Fin.ext ?_
  match a with
  | ⟨0, _⟩ =>
    show (rowDims R D N wf).start (ix2 n j) idx 0 + (rowDims R D N wf).batchCoord (ix2 n j) 0
      + (rowDims R D N wf).offCoord (ix2 n j) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R D N wf).startIndexMap from List.mem_singleton.mpr rfl)]
    have hsi : ∀ c, (rowDims R D N wf).siIdx (ix2 n j) c = ix2 n (0 : Fin 1) := by
      intro c
      funext b; refine Fin.ext ?_
      match b with
      | ⟨0, _⟩ => rfl
      | ⟨1, _⟩ => exact Nat.lt_one_iff.mp c.isLt
    rw [hsi]
    rfl
  | ⟨1, _⟩ =>
    show (rowDims R D N wf).start (ix2 n j) idx 1 + (rowDims R D N wf).batchCoord (ix2 n j) 1
      + (rowDims R D N wf).offCoord (ix2 n j) 1 = j.val
    have hns : (1 : Fin 2) ∉ (rowDims R D N wf).startIndexMap :=
      fun h => Nat.one_ne_zero (congrArg Fin.val (List.mem_singleton.mp h))
    rw [GatherDims.batchCoord_eq_zero _ _ _ List.not_mem_nil]
    unfold GatherDims.start
    rw [dif_neg hns]
    simp only [Nat.add_zero, Nat.zero_add]
    have hk : (1 : Fin 2) ∈ (rowDims R D N wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.LibGatherRows

end
-- ==== Proof.KTail.lean ====
/-
  The nine host operations after the region. They normalise the destination rows (a row word below zero gets the
  number of padded rows, 10240, added), lay them out as a column, and gather those rows of the output array: entry
  (n, j) of the result is entry (row n, j) of the array the region leaves.
-/
import proofs.«405730_j30700426232147_3_alg».proof.Proof.KFrame
import proofs.«405730_j30700426232147_3_alg».proof.Proof.LibGatherRows
import Idealize.ShloMosaic.Lib.ValueIdx
import Idealize.ShloMosaic.Lib.StableHlo.Run
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

variable (m : (ℓ : Loc nD τ sig) → Buf (Elt F) ℓ)

/-- The destination rows normalised and laid out as a column, as the host operations compute them. -/
def normRows (v : IVec S8192 32) : IVec S8192x1 32 :=
  broadcastInDim S8192x1 ![0] bcast_S8192_S8192x1_0
    (select (cmpi .slt v (broadcastInDim S8192 ![] bcast_S_S8192 (constantI S_ 32 0#32)))
      (addi v (broadcastInDim S8192 ![] bcast_S_S8192 (constantI S_ 32 10240#32))) v)

/-- THE RESULT: the rows of the output array gathered at the normalised destination rows. -/
theorem tail_v92 (c : Dev nD) :
    (Pipeline.afterTail pcfgs (adm m) (dats m) 0 (V₀ m) opssAfter c main_v92 : FVec F S8192x1024 .f32)
      = Host.gather gather_S10240x1024_S8192x1_S8192x1024_1_0_n_n_0_1_11024
          ((dats m 0 c).arrAt 3 (cfgM m).N : FVec F S10240x1024 .f32)
          (normRows (V₀ m c (Proc.devRef .tc main_v57) : IVec S8192 32)) := by
  unfold Pipeline.afterTail
  show StableHlo.after Gen.hostOps1 _ (Proc.devRef .tc main_v92) = _
  after_results
  have e85 : Pipeline.withArrays (Pipeline.pin (pcfgs (F := F)) (adm m) 0).spec c (V₀ m c)
      (fun w => (dats m 0 c).arrAt w (Pipeline.pin (pcfgs (F := F)) (adm m) 0).N) (Proc.devRef .tc main_v85)
        = (dats m 0 c).arrAt 3 (cfgM m).N :=
    Pipeline.withArrays_arr spec0 winFacts0.arr_inj c _ _ 3
  have e57 : Pipeline.withArrays (Pipeline.pin (pcfgs (F := F)) (adm m) 0).spec c (V₀ m c)
      (fun w => (dats m 0 c).arrAt w (Pipeline.pin (pcfgs (F := F)) (adm m) 0).N) (Proc.devRef .tc main_v57)
        = V₀ m c (Proc.devRef .tc main_v57) :=
    Pipeline.withArrays_of_ne spec0 c _ _ main_v57 (by decide)
  rw [e85, e57]
  rfl

/-- A row word that is a number below 10240 is not below zero as a signed word, so the normalisation leaves it. -/
theorem normRows_apply (v : IVec S8192 32) (n : Fin 8192) (r : ℕ) (hr : r < 10240) (h : v (ix1 n) = BitVec.ofNat 32 r) :
    normRows v (ix2 n (0 : Fin 1)) = BitVec.ofNat 32 r := by
  have e1 : (ix2 n (0 : Fin 1) : S8192x1.Idx) = StableHlo.Predicate.ixP n := by
    funext d; match d with | ⟨0, _⟩ => rfl | ⟨1, _⟩ => rfl
  have e2 : (Shape.Idx.ofFin n : S8192.Idx) = ix1 n := by
    funext d; match d with | ⟨0, _⟩ => rfl
  unfold normRows
  rw [e1, StableHlo.Predicate.bcast_col1, e2]
  show Scalar.select (IntOp.cmpi .slt (v (ix1 n)) 0#32) (IntOp.addi (v (ix1 n)) 10240#32) (v (ix1 n)) = _
  rw [h]
  have hr32 : (BitVec.ofNat 32 r).toNat = r := by
    rw [BitVec.toNat_ofNat]; exact Nat.mod_eq_of_lt (by omega)
  have hn : ¬ (IntOp.cmpi .slt (BitVec.ofNat 32 r) 0#32 = 1#1) := by
    rw [StableHlo.Predicate.slt_iff_toNat (by rw [hr32]; omega) (by decide)]
    exact Nat.not_lt_zero _
  exact if_neg hn

/-- A destination row word that is a number below 10240 names that row. -/
theorem tail_v92_apply (c : Dev nD) (n : Fin 8192) (j : Fin 1024) (r : Fin 10240)
    (h : (V₀ m c (Proc.devRef .tc main_v57) : IVec S8192 32) (ix1 n) = BitVec.ofNat 32 r.val) :
    (Pipeline.afterTail pcfgs (adm m) (dats m) 0 (V₀ m) opssAfter c main_v92 : FVec F S8192x1024 .f32) (ix2 n j)
      = ((dats m 0 c).arrAt 3 (cfgM m).N : FVec F S10240x1024 .f32) (ix2 r j) := by
  rw [tail_v92]
  refine (Cert.LibGatherRows.gather_rows_apply (by omega) gather_S10240x1024_S8192x1_S8192x1024_1_0_n_n_0_1_11024
    rfl rfl rfl rfl rfl rfl rfl _ _ n j).trans ?_
  have hrow := normRows_apply (V₀ m c (Proc.devRef .tc main_v57)) n r.val r.isLt h
  refine congrArg (fun q : Fin 10240 => ((dats m 0 c).arrAt 3 (cfgM m).N : FVec F S10240x1024 .f32) (ix2 q j)) (Fin.ext ?_)
  show min (normRows (V₀ m c (Proc.devRef .tc main_v57)) (ix2 n (0 : Fin 1))).toInt.toNat (10240 - 1) = r.val
  have hr := r.isLt
  rw [hrow, StableHlo.Predicate.toInt_ofNat_small _ (by omega), Int.toNat_natCast]
  omega

end Cert.KernelIdeal.Hand

end
-- ==== Proof.KBlocks.lean ====
/-
  From the blocks the body leaves to the output array, and the blocks the body reads, entry by entry.
  The grid has 80 points; point t owns rows 128 t … 128 t + 127 of the 10240 × 1024 output array, and these 80
  blocks of 128 rows tile it, so row r of the array after the run is row r mod 128 of what point r / 128 left.
  The first input block of point t is the same rows of the padded input matrix; the second and third input blocks
  are the slab of the expert matrices and of the bias rows that the first table names for tile t; the word the body
  branches on is entry t of the second table.
-/
import proofs.«405730_j30700426232147_3_alg».proof.Proof.KFrame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]

namespace Blocks

/-! ## The grid and the index maps, with the tables' contents a variable -/

/-- The one coordinate of grid point t is t. -/
theorem coords_val : ∀ t : Fin grid0.N, (grid0.coords t 0).val = t.val := by decide +kernel

/-- The first window's block index at coordinate i: row block i, column block 0. -/
theorem tr0_eq : ∀ i : grid0.Coords, cc0_transform_0 i = ![(i 0).val, 0] := by decide +kernel

/-- The output window's block index at coordinate i: row block i, column block 0. -/
theorem tr3_eq : ∀ i : grid0.Coords, cc0_transform_3 i = ![(i 0).val, 0] := by decide +kernel

theorem N_gen (a : (pcfg0 (F := F)).Adm) : (cfg0 a).N = 80 := N_0

theorem index0_gen (a : (pcfg0 (F := F)).Adm) (t : Fin (cfg0 a).N) :
    ((cfg0 a).win 0).index t = ![t.val, 0] := by
  show cc0_transform_0 (grid0.coords t) = _
  rw [tr0_eq, coords_val]

theorem index3_gen (a : (pcfg0 (F := F)).Adm) (t : Fin (cfg0 a).N) :
    ((cfg0 a).win 3).index t = ![t.val, 0] := by
  show cc0_transform_3 (grid0.coords t) = _
  rw [tr3_eq, coords_val]

/-! ## The tables' words -/

/-- The word read from the first table at coordinate i is the table's entry i. -/
theorem tbl_at0 (pf : pre0.Contents (Elt F)) (i : grid0.Coords) (x : S80.Idx) (hx : (x 0).val = (i 0).val) :
    pf.at 0 (Rect.unit (s := S80) (k0_off1 i) S1.size (k0_off1_inb i)) numel1_S1 = (pf 0 : IVec S80 32) x := by
  show pf 0 _ = pf 0 x
  refine congrArg (pf 0) ?_
  funext b
  apply Fin.ext
  match b with
  | ⟨0, _⟩ =>
    show (k0_off1 i) (0 : Fin 1) + 1 * 0 = (x 0).val
    rw [k0_off1_eq]
    show (i 0).val + 1 * 0 = (x 0).val
    omega

/-- The word read from the second table at coordinate i is the table's entry i. -/
theorem tbl_at1 (pf : pre0.Contents (Elt F)) (i : grid0.Coords) (x : S80.Idx) (hx : (x 0).val = (i 0).val) :
    pf.at 1 (Rect.unit (s := S80) (k0_off1 i) S1.size (k0_off1_inb i)) numel1_S1 = (pf 1 : IVec S80 32) x := by
  show pf 1 _ = pf 1 x
  refine congrArg (pf 1) ?_
  funext b
  apply Fin.ext
  match b with
  | ⟨0, _⟩ =>
    show (k0_off1 i) (0 : Fin 1) + 1 * 0 = (x 0).val
    rw [k0_off1_eq]
    show (i 0).val + 1 * 0 = (x 0).val
    omega

/-- The second window's block index at coordinate i: the slab the first table's entry i names. -/
theorem tr1_eq (pf : pre0.Contents (Elt F)) (i : grid0.Coords) (x : S80.Idx) (hx : (x 0).val = (i 0).val) :
    cc0_transform_1 k0_off1_inb numel1_S1 pf i = ![((pf 0 : IVec S80 32) x).toNat, 0, 0] := by
  have h := tbl_at0 pf i x hx
  show ![(pf.at 0 (Rect.unit (s := S80) (k0_off1 i) S1.size (k0_off1_inb i)) numel1_S1).toNat, 0, 0] = _
  rw [h]

/-- The third window's block index at coordinate i: the row the first table's entry i names. -/
theorem tr2_eq (pf : pre0.Contents (Elt F)) (i : grid0.Coords) (x : S80.Idx) (hx : (x 0).val = (i 0).val) :
    cc0_transform_2 k0_off1_inb numel1_S1 pf i = ![((pf 0 : IVec S80 32) x).toNat, 0, 0] := by
  have h := tbl_at0 pf i x hx
  show ![(pf.at 0 (Rect.unit (s := S80) (k0_off1 i) S1.size (k0_off1_inb i)) numel1_S1).toNat, 0, 0] = _
  rw [h]

theorem index1_gen (a : (pcfg0 (F := F)).Adm) (pf : pre0.Contents (Elt F)) (hpf : a.1 = pf) (t : Fin (cfg0 a).N)
    (x : S80.Idx) (hx : (x 0).val = t.val) :
    ((cfg0 a).win 1).index t = ![((pf 0 : IVec S80 32) x).toNat, 0, 0] := by
  subst hpf
  show cc0_transform_1 k0_off1_inb numel1_S1 a.1 (grid0.coords t) = _
  exact tr1_eq a.1 (grid0.coords t) x (by rw [coords_val]; exact hx)

theorem index2_gen (a : (pcfg0 (F := F)).Adm) (pf : pre0.Contents (Elt F)) (hpf : a.1 = pf) (t : Fin (cfg0 a).N)
    (x : S80.Idx) (hx : (x 0).val = t.val) :
    ((cfg0 a).win 2).index t = ![((pf 0 : IVec S80 32) x).toNat, 0, 0] := by
  subst hpf
  show cc0_transform_2 k0_off1_inb numel1_S1 a.1 (grid0.coords t) = _
  exact tr2_eq a.1 (grid0.coords t) x (by rw [coords_val]; exact hx)

/-! ## The input blocks, read at an entry -/

/-- Entry (p, k) of the first window's block at point t is entry (128 t + p, k) of its array. -/
theorem read0_gen (a : (pcfg0 (F := F)).Adm) (X : FVec F S10240x1024 .bf16) (t : Fin (cfg0 a).N) (p : Fin 128) (k : Fin 1024)
    (r : Fin 10240) (hr : r.val = 128 * t.val + p.val) :
    ((((cfg0 a).win 0).blk t).view.read (Elt F) X : FVec F S128x1024 .bf16) (ix2 p k) = X (ix2 r k) := by
  have hi0 : ((cfg0 a).win 0).index t (0 : Fin 2) = t.val := congrFun (index0_gen a t) (0 : Fin 2)
  have hi1 : ((cfg0 a).win 0).index t (1 : Fin 2) = 0 := congrFun (index0_gen a t) (1 : Fin 2)
  show X ((((cfg0 a).win 0).blk t).view.emb (ix2 p k)) = X (ix2 r k)
  refine congrArg X ?_
  funext b
  apply Fin.ext
  match b with
  | ⟨0, _⟩ =>
    show ((cfg0 a).win 0).index t (0 : Fin 2) * 128 + 1 * p.val = r.val
    rw [hi0]; omega
  | ⟨1, _⟩ =>
    show ((cfg0 a).win 0).index t (1 : Fin 2) * 1024 + 1 * k.val = k.val
    rw [hi1]; omega

/-- Entry (0, k, j) of the second window's block at point t is entry (e, k, j) of its array, e the slab the first
    table names for t. -/
theorem read1_gen (a : (pcfg0 (F := F)).Adm) (pf : pre0.Contents (Elt F)) (hpf : a.1 = pf) (X : FVec F S16x1024x1024 .bf16)
    (t : Fin (cfg0 a).N) (x : S80.Idx) (hx : (x 0).val = t.val) (k j : Fin 1024) (e : Fin 16)
    (he : ((pf 0 : IVec S80 32) x).toNat = e.val) :
    ((((cfg0 a).win 1).blk t).view.read (Elt F) X : FVec F S1x1024x1024 .bf16) (ix3 (0 : Fin 1) k j) = X (ix3 e k j) := by
  have hi := index1_gen a pf hpf t x hx
  have hi0 : ((cfg0 a).win 1).index t (0 : Fin 3) = ((pf 0 : IVec S80 32) x).toNat := congrFun hi (0 : Fin 3)
  have hi1 : ((cfg0 a).win 1).index t (1 : Fin 3) = 0 := congrFun hi (1 : Fin 3)
  have hi2 : ((cfg0 a).win 1).index t (2 : Fin 3) = 0 := congrFun hi (2 : Fin 3)
  show X ((((cfg0 a).win 1).blk t).view.emb (ix3 (0 : Fin 1) k j)) = X (ix3 e k j)
  refine congrArg X ?_
  funext b
  apply Fin.ext
  match b with
  | ⟨0, _⟩ =>
    show ((cfg0 a).win 1).index t (0 : Fin 3) * 1 + 1 * 0 = e.val
    rw [hi0, he]; omega
  | ⟨1, _⟩ =>
    show ((cfg0 a).win 1).index t (1 : Fin 3) * 1024 + 1 * k.val = k.val
    rw [hi1]; omega
  | ⟨2, _⟩ =>
    show ((cfg0 a).win 1).index t (2 : Fin 3) * 1024 + 1 * j.val = j.val
    rw [hi2]; omega

/-- Entry (0, 0, j) of the third window's block at point t is entry (e, 0, j) of its array, e the row the first
    table names for t. -/
theorem read2_gen (a : (pcfg0 (F := F)).Adm) (pf : pre0.Contents (Elt F)) (hpf : a.1 = pf) (X : FVec F S16x1x1024 .f32)
    (t : Fin (cfg0 a).N) (x : S80.Idx) (hx : (x 0).val = t.val) (j : Fin 1024) (e : Fin 16)
    (he : ((pf 0 : IVec S80 32) x).toNat = e.val) :
    ((((cfg0 a).win 2).blk t).view.read (Elt F) X : FVec F S1x1x1024 .f32) (ix3 (0 : Fin 1) (0 : Fin 1) j)
      = X (ix3 e (0 : Fin 1) j) := by
  have hi := index2_gen a pf hpf t x hx
  have hi0 : ((cfg0 a).win 2).index t (0 : Fin 3) = ((pf 0 : IVec S80 32) x).toNat := congrFun hi (0 : Fin 3)
  have hi1 : ((cfg0 a).win 2).index t (1 : Fin 3) = 0 := congrFun hi (1 : Fin 3)
  have hi2 : ((cfg0 a).win 2).index t (2 : Fin 3) = 0 := congrFun hi (2 : Fin 3)
  show X ((((cfg0 a).win 2).blk t).view.emb (ix3 (0 : Fin 1) (0 : Fin 1) j)) = X (ix3 e (0 : Fin 1) j)
  refine congrArg X ?_
  funext b
  apply Fin.ext
  match b with
  | ⟨0, _⟩ =>
    show ((cfg0 a).win 2).index t (0 : Fin 3) * 1 + 1 * 0 = e.val
    rw [hi0, he]; omega
  | ⟨1, _⟩ =>
    show ((cfg0 a).win 2).index t (1 : Fin 3) * 1 + 1 * 0 = 0
    rw [hi1]
  | ⟨2, _⟩ =>
    show ((cfg0 a).win 2).index t (2 : Fin 3) * 1024 + 1 * j.val = j.val
    rw [hi2]; omega

/-! ## The output array -/

/-- Every point writes its output block back: the next point's block is another one. -/
theorem flush3_gen (a : (pcfg0 (F := F)).Adm) (t : Fin (cfg0 a).N) : ((cfg0 a).win 3).flush t = true := by
  have hN : (cfg0 a).grid.N = 80 := N_gen a
  have hlt : t.val < (cfg0 a).grid.N := t.isLt
  unfold Pipeline.Window.flush
  rw [Bool.and_eq_true]
  refine ⟨rfl, ?_⟩
  rw [Bool.or_eq_true, decide_eq_true_eq, decide_eq_true_eq]
  by_cases h : t.val + 1 = (cfg0 a).grid.N
  · exact Or.inl h
  · refine Or.inr ⟨by omega, ?_⟩
    rw [index3_gen, index3_gen]
    intro e
    have e0 : t.val + 1 = t.val := congrFun e (0 : Fin 2)
    omega

/-- Two points' output blocks share no entry. -/
theorem disjoint3_gen (a : (pcfg0 (F := F)).Adm) (u u' : Fin (cfg0 a).N) (hne : u ≠ u') :
    Disjoint (((cfg0 a).win 3).blk u).view.set (((cfg0 a).win 3).blk u').view.set := by
  refine ((cfg0 a).win 3).disjoint_blk (fun h => hne ?_)
  rw [index3_gen, index3_gen] at h
  have e0 : u.val = u'.val := congrFun h (0 : Fin 2)
  exact Fin.ext e0

/-- Entry (p, j) of the output window's block at point t sits at entry (128 t + p, j) of the array. -/
theorem emb3_gen (a : (pcfg0 (F := F)).Adm) (t : Fin (cfg0 a).N) (p : Fin 128) (j : Fin 1024)
    (r : Fin 10240) (hr : r.val = 128 * t.val + p.val) :
    (((cfg0 a).win 3).blk t).view.emb (ix2 p j) = (ix2 r j : S10240x1024.Idx) := by
  have hi0 : ((cfg0 a).win 3).index t (0 : Fin 2) = t.val := congrFun (index3_gen a t) (0 : Fin 2)
  have hi1 : ((cfg0 a).win 3).index t (1 : Fin 2) = 0 := congrFun (index3_gen a t) (1 : Fin 2)
  funext b
  apply Fin.ext
  match b with
  | ⟨0, _⟩ =>
    show ((cfg0 a).win 3).index t (0 : Fin 2) * 128 + 1 * p.val = r.val
    rw [hi0]; omega
  | ⟨1, _⟩ =>
    show ((cfg0 a).win 3).index t (1 : Fin 2) * 1024 + 1 * j.val = j.val
    rw [hi1]; omega

/-- THE OUTPUT ARRAY after the run, for any record of what the body leaves: entry (128 t + p, j) is entry (p, j) of
    what point t left in its block. -/
theorem arr3_gen (a : (pcfg0 (F := F)).Adm) {c : Dev nD} (dat : Dat τ (Elt F) Unit ℕ (UR sig nD τ) ℕ (cfg0 a) c)
    (t : Fin (cfg0 a).N) (p : Fin 128) (j : Fin 1024) (r : Fin 10240) (hr : r.val = 128 * t.val + p.val) :
    (dat.arrAt 3 (cfg0 a).N : FVec F S10240x1024 .f32) (ix2 r j) = (dat.after 3 t : FVec F S128x1024 .f32) (ix2 p j) := by
  have h := dat.arrAt_emb_eq_flushed 3 (fun u u' _ _ hne => disjoint3_gen a u u' hne) t (flush3_gen a t) (ix2 p j)
  rw [emb3_gen a t p j r hr] at h
  exact h

end Blocks

open Blocks

/-! ## At the tables' contents as the region finds them -/

variable (m : (ℓ : Loc nD τ sig) → Buf (Elt F) ℓ)

/-- The pipeline runs over the 80 points of the grid. -/
theorem N_eq : (cfgM m).N = 80 := N_gen (adm m 0)

/-- Tile t as a point of the pipeline's grid. -/
def pt (t : Fin 80) : Fin (cfgM m).N := ⟨t.val, by rw [N_eq]; exact t.isLt⟩

/-- THE OUTPUT ARRAY after the run: row `128 t + p` is row `p` of what point `t` left in its block. -/
theorem arr3_apply (c : Dev nD) (t : Fin 80) (p : Fin 128) (j : Fin 1024) (r : Fin 10240) (hr : r.val = 128 * t.val + p.val) :
    ((dats m 0 c).arrAt 3 (cfgM m).N : FVec F S10240x1024 .f32) (ix2 r j) = outAt m c (pt m t) (ix2 p j) :=
  (arr3_gen (adm m 0) (dats m 0 c) (pt m t) p j r hr).trans (congrFun (after3 m c (pt m t)) (ix2 p j))

/-- The word the body branches on at tile t is entry t of the second table as the region finds it. -/
theorem tvWord_eq (c : Dev nD) (t : Fin 80) :
    tvWord m (pt m t) = (V₀ m c (Proc.devRef .tc main_v82) : IVec S80 32) (ix1 t) := by
  unfold tvWord
  rw [tbl_at1 (tblOf m) (grid0.coords (pt m t)) (ix1 t) (by rw [coords_val]; rfl)]
  exact congrFun (hpf m c 1).symm (ix1 t)

/-- The first input block of tile t is rows `128 t … 128 t + 127` of the padded input matrix. -/
theorem iblk0_apply (c : Dev nD) (t : Fin 80) (p : Fin 128) (k : Fin 1024) (r : Fin 10240) (hr : r.val = 128 * t.val + p.val) :
    (iblk m c 0 (pt m t) : FVec F S128x1024 .bf16) (ix2 p k)
      = (V₀ m c (Proc.devRef .tc main_v66) : FVec F S10240x1024 .bf16) (ix2 r k) :=
  read0_gen (adm m 0) (V₀ m c (Proc.devRef .tc main_v66)) (pt m t) p k r hr

/-- The second input block of tile t is the slab of the expert matrices that entry t of the first table names. -/
theorem iblk1_apply (c : Dev nD) (t : Fin 80) (k j : Fin 1024) (e : Fin 16)
    (he : ((V₀ m c (Proc.devRef .tc main_v79) : IVec S80 32) (ix1 t)).toNat = e.val) :
    (iblk m c 1 (pt m t) : FVec F S1x1024x1024 .bf16) (ix3 (0 : Fin 1) k j)
      = (V₀ m c (Proc.devRef .tc main_v83) : FVec F S16x1024x1024 .bf16) (ix3 e k j) :=
  read1_gen (adm m 0) (tblOf m) rfl (V₀ m c (Proc.devRef .tc main_v83)) (pt m t) (ix1 t) rfl k j e
    (by rw [← hpf m c 0]; exact he)

/-- The third input block of tile t is the bias row that entry t of the first table names. -/
theorem iblk2_apply (c : Dev nD) (t : Fin 80) (j : Fin 1024) (e : Fin 16)
    (he : ((V₀ m c (Proc.devRef .tc main_v79) : IVec S80 32) (ix1 t)).toNat = e.val) :
    (iblk m c 2 (pt m t) : FVec F S1x1x1024 .f32) (ix3 (0 : Fin 1) (0 : Fin 1) j)
      = (V₀ m c (Proc.devRef .tc main_v84) : FVec F S16x1x1024 .f32) (ix3 e (0 : Fin 1) j) :=
  read2_gen (adm m 0) (tblOf m) rfl (V₀ m c (Proc.devRef .tc main_v84)) (pt m t) (ix1 t) rfl j e
    (by rw [← hpf m c 0]; exact he)

end Cert.KernelIdeal.Hand

end
-- ==== Proof.KPayload.lean ====
/-
  The value the kernel body stores, entry by entry, over the extended reals. The body multiplies a 128 × 1024 block
  of rows by one 1024 × 1024 matrix (handed over with a leading unit axis), adds one bias row (handed over with two
  leading unit axes) to every row of the product, and clips below at zero:
  entry `(p, j)` is `max (∑ₖ x[p, k] · w[0, k, j] + b[0, 0, j]) 0`. The other stored value is the zero block.
-/
import proofs.«405730_j30700426232147_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx Idealize.SL.Sem

/-- The other stored value is the zero block. -/
theorem k0_pay2_apply (p : Fin 128) (j : Fin 1024) : Gen.k0_pay2 (F := Ideal) (ix2 p j) = 0 := by
  unfold Gen.k0_pay2
  show Ideal.ofBits .f32 0x00000000#32 = 0
  exact Ideal.ofBits_zero_f32

theorem lhs_mm_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs_mm_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs_mm_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs_mm_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The block product into the zero block, entry by entry: row `p` of the left operand against column `j` of the right. -/
theorem mm_apply (x : FVec Ideal S128x1024 .bf16) (w : FVec Ideal S1024x1024 .bf16) (p : Fin 128) (j : Fin 1024) :
    FloatOps.matmul dot_S128x1024_S1024x1024_S128x1024_1_0_0_1_n_n none x w (constant (F := Ideal) S128x1024 .f32 0x00000000#32) (ix2 p j)
      = ∑ k : Fin 1024, x (ix2 p k) * w (ix2 k j) := by
  rw [Ideal.matmul_constant_zero_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ix2 p j) ((ValueIdx.contrEquiv1 dot_S128x1024_S1024x1024_S128x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S128x1024_S1024x1024_S128x1024_1_0_0_1_n_n.rhsIdx (ix2 p j) ((ValueIdx.contrEquiv1 dot_S128x1024_S1024x1024_S128x1024_1_0_0_1_n_n 1024 rfl rfl).symm k) = ix2 k j := funext fun a => Fin.ext (by
    match a with
    | ⟨0, _⟩ => exact (rhs_mm_0 _ _).trans hk
    | ⟨1, _⟩ => exact rhs_mm_1 _ _)
  rw [el, er]

/-- Entry `(p, j)` of the stored value: the row of `x` against column `j` of the matrix, plus the bias at `j`, clipped at zero. -/
theorem k0_pay1_apply (x0 : Vec Ideal S128x1024 .bf16) (w0 : Vec Ideal S1x1024x1024 .bf16) (b0 : Vec Ideal S1x1x1024 .f32)
    (p : Fin 128) (j : Fin 1024) :
    Gen.k0_pay1 (F := Ideal) x0 w0 b0 (ix2 p j)
      = max ((∑ k : Fin 1024, x0 (ix2 p k) * w0 (ix3 0 k j)) + b0 (ix3 0 0 j)) 0 := by
  -- the cast of the block to its own shape changes nothing
  have hx : shapeCast S128x1024 x0 shapeCasts_S128x1024_S128x1024 = x0 := shapeCast_self x0 _
  -- dropping the matrix's leading unit axis: entry (k, j) is entry (0, k, j)
  have hw : ∀ k : Fin 1024, shapeCast S1024x1024 w0 shapeCasts_S1x1024x1024_S1024x1024 (ix2 k j) = w0 (ix3 0 k j) :=
    fun k => shapeCast_1ab_ab_apply w0 _ k j
  -- the bias: one row repeated over the 128 rows, itself entry (0, 0, j) once its leading unit axis is dropped
  have hb : broadcastTo S128x1024 (shapeCast S1x1024 b0 shapeCasts_S1x1x1024_S1x1024) broadcasts_S1x1024_S128x1024 (ix2 p j)
      = b0 (ix3 0 0 j) :=
    (broadcastTo_1b_ab_apply _ _ p j).trans (shapeCast_1ab_ab_apply b0 _ 0 j)
  have hm := mm_apply (shapeCast S128x1024 x0 shapeCasts_S128x1024_S128x1024)
    (shapeCast S1024x1024 w0 shapeCasts_S1x1024x1024_S1024x1024) p j
  unfold Gen.k0_pay1
  show max (FloatOps.matmul _ none _ _ _ (ix2 p j) + broadcastTo S128x1024 _ _ (ix2 p j)) (Ideal.ofBits .f32 0x00000000#32) = _
  rw [hm, hb, Ideal.ofBits_zero_f32, hx]
  simp only [hw]

end Cert.KernelIdeal.Hand

end
-- ==== Proof.MoeSpec.lean ====
/-
  What both programs compute. Token `n` carries an expert label `e n` in `[0, 16)`; its output row is
  `max (x[n, ·] · w[e n] + b[e n]) 0`: the token's row of `x` times the labelled expert's matrix, plus that
  expert's bias row, clipped below at zero — over the extended reals, entry by entry.
-/
import Idealize.ShloMosaic.PureOps.Ideal
import Idealize.ShloMosaic.Lib.ValueIdx

noncomputable section

namespace Cert.Moe

open Idealize.ShloMosaic Idealize.ShloMosaic.ValueIdx

/-- The expert label of token `n`: the token's 32-bit word read as a natural number, reduced mod 16 so that it
    is total (a word in `[0, 16)` is its own residue). -/
def expertOf (idxs : IVec ⟨1, ![8192]⟩ 32) (n : Fin 8192) : Fin 16 :=
  ⟨(idxs (ix1 n)).toNat % 16, Nat.mod_lt _ (by decide)⟩

/-- Every label word lies in `[0, 16)`. -/
def InRange (idxs : IVec ⟨1, ![8192]⟩ 32) : Prop := ∀ n : Fin 8192, (idxs (ix1 n)).toNat < 16

theorem expertOf_val {idxs : IVec ⟨1, ![8192]⟩ 32} (h : InRange idxs) (n : Fin 8192) :
    (expertOf idxs n).val = (idxs (ix1 n)).toNat := Nat.mod_eq_of_lt (h n)

/-- Entry `(n, j)` of the result: `max (∑ₖ x[n,k] · w[e n, k, j] + b[e n, j]) 0`. -/
def G (x : FVec Ideal ⟨2, ![8192, 1024]⟩ .f32) (idxs : IVec ⟨1, ![8192]⟩ 32)
    (w : FVec Ideal ⟨3, ![16, 1024, 1024]⟩ .f32) (b : FVec Ideal ⟨2, ![16, 1024]⟩ .f32)
    (n : Fin 8192) (j : Fin 1024) : EReal :=
  max ((∑ k : Fin 1024, x (ix2 n k) * w (ix3 (expertOf idxs n) k j)) + b (ix2 (expertOf idxs n) j)) 0

/-- The result as an array. -/
def Garr (x : FVec Ideal ⟨2, ![8192, 1024]⟩ .f32) (idxs : IVec ⟨1, ![8192]⟩ 32)
    (w : FVec Ideal ⟨3, ![16, 1024, 1024]⟩ .f32) (b : FVec Ideal ⟨2, ![16, 1024]⟩ .f32) :
    FVec Ideal ⟨2, ![8192, 1024]⟩ .f32 :=
  fun i => G x idxs w b (i 0) (i 1)

theorem Garr_ix2 (x : FVec Ideal ⟨2, ![8192, 1024]⟩ .f32) (idxs : IVec ⟨1, ![8192]⟩ 32)
    (w : FVec Ideal ⟨3, ![16, 1024, 1024]⟩ .f32) (b : FVec Ideal ⟨2, ![16, 1024]⟩ .f32) (n : Fin 8192) (j : Fin 1024) :
    Garr x idxs w b (ix2 n j) = G x idxs w b n j := rfl

end Cert.Moe

end
-- ==== Proof.MoeRouting.lean ====
/-
  The routing arithmetic, over the natural numbers. `N` tokens carry labels `e n < E`. Sorted by label, the
  tokens of label `k` occupy the positions `[rstart k, rstart k + cnt k)`, where `cnt k` counts the tokens of
  label `k` and `rstart k` those of smaller labels. Each label's run is padded to a multiple of the tile height
  `B` (`pcnt k`), and the padded runs are laid end to end: label `k`'s begins at row `pstart k`, all of them end at
  `ptotal`. The token at sorted position `j` (token `σ j`, with `σ` a bijection along which the labels do not
  decrease) is sent to row `slot j = pstart (e (σ j)) + (j - rstart (e (σ j)))`.
  What is proved: the rows are pairwise distinct and below `ptotal`; the tile `slot j / B` lies inside its label's
  padded run, so that the number of runs `1 ≤ k < E` that begin at or before the tile's first row — capped at `E - 1` —
  is the token's label, and the tile's first row is below `ptotal`.
-/
import Mathlib.Algebra.BigOperators.Group.Finset.Basic
import Mathlib.Algebra.BigOperators.Group.Finset.Piecewise
import Mathlib.Algebra.BigOperators.Ring.Finset
import Mathlib.Algebra.Order.BigOperators.Group.Finset
import Mathlib.Data.Fintype.Card
import Mathlib.Order.Interval.Finset.Fin
import Mathlib.Order.Interval.Finset.Nat
import Mathlib.Tactic.Ring
import Mathlib.Tactic.Linarith

namespace Cert.Moe.Routing

open Finset

variable {N E : ℕ}

/-- How many tokens carry label `k`. -/
def cnt (e : Fin N → Fin E) (k : ℕ) : ℕ := (univ.filter fun n : Fin N => (e n).val = k).card
/-- How many tokens carry a label below `k`: where label `k`'s run begins in sorted order. -/
def rstart (e : Fin N → Fin E) (k : ℕ) : ℕ := ∑ k' ∈ range k, cnt e k'
/-- Label `k`'s count rounded up to a multiple of `B`. -/
def pcnt (B : ℕ) (e : Fin N → Fin E) (k : ℕ) : ℕ := (cnt e k + (B - 1)) / B * B
/-- Where label `k`'s padded run begins. -/
def pstart (B : ℕ) (e : Fin N → Fin E) (k : ℕ) : ℕ := ∑ k' ∈ range k, pcnt B e k'
/-- Where the last padded run ends. -/
def ptotal (B : ℕ) (e : Fin N → Fin E) : ℕ := pstart B e E
/-- The row of the token at sorted position `j`. -/
def slot (B : ℕ) (e : Fin N → Fin E) (σ : Fin N → Fin N) (j : Fin N) : ℕ :=
  pstart B e (e (σ j)).val + (j.val - rstart e (e (σ j)).val)
/-- The label a tile is given: how many runs `1 ≤ k < E` begin at or before its first row, capped at `E - 1`. -/
def texp (B : ℕ) (e : Fin N → Fin E) (t : ℕ) : ℕ := min ((Ico 1 E).filter fun k => pstart B e k ≤ B * t).card (E - 1)

section
variable {B : ℕ} {e : Fin N → Fin E} {σ : Fin N → Fin N}

/-- Every token carries exactly one label below `E`, so the counts add up to the number of tokens. -/
theorem sum_cnt (e : Fin N → Fin E) : ∑ k ∈ range E, cnt e k = N := by
  have h := card_eq_sum_card_fiberwise (f := fun n : Fin N => (e n).val) (s := univ) (t := range E)
    (fun n _ => mem_coe.mpr (mem_range.mpr (e n).isLt))
  rw [card_univ, Fintype.card_fin] at h
  exact h.symm

theorem rstart_succ (e : Fin N → Fin E) (k : ℕ) : rstart e (k + 1) = rstart e k + cnt e k := by
  unfold rstart; rw [sum_range_succ]

/-- The running sum of the counts counts the tokens whose label is smaller. -/
theorem rstart_eq_card (e : Fin N → Fin E) (k : ℕ) :
    rstart e k = (univ.filter fun n : Fin N => (e n).val < k).card := by
  induction k with
  | zero => simp [rstart]
  | succ k ih =>
    rw [rstart_succ, ih, cnt, card_filter, card_filter, card_filter, ← sum_add_distrib]
    refine sum_congr rfl fun n _ => ?_
    split_ifs <;> omega

theorem rstart_le_N (e : Fin N → Fin E) (k : ℕ) : rstart e k ≤ N := by
  rw [rstart_eq_card]
  exact (card_filter_le _ _).trans_eq (by rw [card_univ, Fintype.card_fin])

theorem pstart_succ (B : ℕ) (e : Fin N → Fin E) (k : ℕ) : pstart B e (k + 1) = pstart B e k + pcnt B e k := by
  unfold pstart; rw [sum_range_succ]

theorem pstart_mono (B : ℕ) (e : Fin N → Fin E) : Monotone (pstart B e) :=
  monotone_nat_of_le_succ fun k => by rw [pstart_succ]; exact Nat.le_add_right _ _

theorem dvd_pstart (B : ℕ) (e : Fin N → Fin E) (k : ℕ) : B ∣ pstart B e k := by
  unfold pstart
  refine Finset.dvd_sum fun k' _ => ?_
  unfold pcnt
  exact dvd_mul_left B _

theorem cnt_le_pcnt (hB : 0 < B) (e : Fin N → Fin E) (k : ℕ) : cnt e k ≤ pcnt B e k := by
  unfold pcnt
  generalize cnt e k = c
  -- c + (B - 1) = B * q + r with r ≤ B - 1, hence c ≤ B * q
  have h := Nat.div_add_mod (c + (B - 1)) B
  have hm := Nat.mod_lt (c + (B - 1)) hB
  rw [Nat.mul_comm]
  omega

theorem pcnt_le (hB : 0 < B) (e : Fin N → Fin E) (k : ℕ) : pcnt B e k ≤ cnt e k + (B - 1) :=
  Nat.div_mul_le_self _ _

theorem ptotal_le (hB : 0 < B) (e : Fin N → Fin E) : ptotal B e ≤ N + E * (B - 1) := by
  unfold ptotal pstart
  calc ∑ k' ∈ range E, pcnt B e k' ≤ ∑ k' ∈ range E, (cnt e k' + (B - 1)) :=
        sum_le_sum fun k' _ => pcnt_le hB e k'
    _ = N + E * (B - 1) := by rw [sum_add_distrib, sum_cnt, sum_const, card_range, Nat.nsmul_eq_mul]

theorem pstart_le_ptotal (B : ℕ) (e : Fin N → Fin E) {k : ℕ} (hk : k ≤ E) : pstart B e k ≤ ptotal B e :=
  pstart_mono B e hk

/-- Counting positions through the bijection is counting tokens. -/
theorem card_filter_comp_bij (hσ : Function.Bijective σ) (p : Fin N → Prop) [DecidablePred p] :
    (univ.filter fun j : Fin N => p (σ j)).card = (univ.filter fun n : Fin N => p n).card :=
  Finset.card_bijective σ hσ (fun i => by simp only [mem_filter, mem_univ, true_and])

/-- In sorted order the run of a label begins at or before each of its positions, -/
theorem rstart_le (hσ : Function.Bijective σ) (hmono : ∀ j j' : Fin N, j ≤ j' → e (σ j) ≤ e (σ j')) (j : Fin N) :
    rstart e (e (σ j)).val ≤ j.val := by
  -- the positions of smaller label all lie strictly before j, and there are rstart of them
  rw [rstart_eq_card, ← card_filter_comp_bij hσ (fun n => (e n).val < (e (σ j)).val)]
  calc (univ.filter fun j' : Fin N => (e (σ j')).val < (e (σ j)).val).card
      ≤ (Iio j).card := card_le_card (fun j' hj' => by
        simp only [mem_filter, mem_univ, true_and] at hj'
        rw [mem_Iio]
        by_contra h
        have h2 : (e (σ j)).val ≤ (e (σ j')).val := Fin.le_def.mp (hmono j j' (not_lt.mp h))
        omega)
    _ = j.val := Fin.card_Iio j

/-- and ends after it. -/
theorem lt_rstart_add_cnt (hσ : Function.Bijective σ) (hmono : ∀ j j' : Fin N, j ≤ j' → e (σ j) ≤ e (σ j')) (j : Fin N) :
    j.val < rstart e (e (σ j)).val + cnt e (e (σ j)).val := by
  -- the positions up to j all have label at most that of j, and there are rstart + cnt of those
  rw [← rstart_succ, rstart_eq_card, ← card_filter_comp_bij hσ (fun n => (e n).val < (e (σ j)).val + 1)]
  calc j.val < j.val + 1 := Nat.lt_succ_self _
    _ = (Iic j).card := (Fin.card_Iic j).symm
    _ ≤ (univ.filter fun j' : Fin N => (e (σ j')).val < (e (σ j)).val + 1).card :=
      card_le_card (fun j' hj' => by
        rw [mem_Iic] at hj'
        simp only [mem_filter, mem_univ, true_and]
        exact Nat.lt_succ_of_le (Fin.le_def.mp (hmono j' j hj')))

/-- A row lies inside its label's padded run, -/
theorem slot_lt (hB : 0 < B) (hσ : Function.Bijective σ) (hmono : ∀ j j' : Fin N, j ≤ j' → e (σ j) ≤ e (σ j')) (j : Fin N) :
    slot B e σ j < pstart B e ((e (σ j)).val + 1) := by
  have h1 := rstart_le hσ hmono j
  have h2 := lt_rstart_add_cnt hσ hmono j
  have h3 := cnt_le_pcnt hB e (e (σ j)).val
  rw [pstart_succ]
  unfold slot
  omega
theorem pstart_le_slot (j : Fin N) : pstart B e (e (σ j)).val ≤ slot B e σ j := Nat.le_add_right _ _
/-- hence below the padded total; -/
theorem slot_lt_ptotal (hB : 0 < B) (hσ : Function.Bijective σ) (hmono : ∀ j j' : Fin N, j ≤ j' → e (σ j) ≤ e (σ j')) (j : Fin N) :
    slot B e σ j < ptotal B e :=
  lt_of_lt_of_le (slot_lt hB hσ hmono j) (pstart_le_ptotal B e (Nat.succ_le_of_lt (e (σ j)).isLt))
/-- the rows are pairwise distinct; -/
theorem slot_injective (hB : 0 < B) (hσ : Function.Bijective σ) (hmono : ∀ j j' : Fin N, j ≤ j' → e (σ j) ≤ e (σ j')) :
    Function.Injective (slot B e σ) := by
  -- a smaller label's padded run ends before a larger label's begins
  have key : ∀ a b : Fin N, (e (σ a)).val < (e (σ b)).val → slot B e σ a < slot B e σ b := by
    intro a b hab
    calc slot B e σ a < pstart B e ((e (σ a)).val + 1) := slot_lt hB hσ hmono a
      _ ≤ pstart B e (e (σ b)).val := pstart_mono B e hab
      _ ≤ slot B e σ b := pstart_le_slot b
  intro j j' h
  rcases Nat.lt_trichotomy (e (σ j)).val (e (σ j')).val with hlt | heq | hgt
  · exact absurd h (ne_of_lt (key j j' hlt))
  · -- same label: same run start, so the offsets into the run agree, and both positions are past it
    have h1 := rstart_le hσ hmono j
    have h1' := rstart_le hσ hmono j'
    unfold slot at h
    rw [heq] at h h1
    apply Fin.ext
    omega
  · exact absurd h.symm (ne_of_lt (key j' j hgt))
/-- the row's tile is given the token's label, -/
theorem texp_slot (hB : 0 < B) (hσ : Function.Bijective σ) (hmono : ∀ j j' : Fin N, j ≤ j' → e (σ j) ≤ e (σ j')) (j : Fin N) :
    texp B e (slot B e σ j / B) = (e (σ j)).val := by
  have hkE : (e (σ j)).val < E := (e (σ j)).isLt
  have hr1 : pstart B e (e (σ j)).val ≤ slot B e σ j := pstart_le_slot j
  have hr2 : slot B e σ j < pstart B e ((e (σ j)).val + 1) := slot_lt hB hσ hmono j
  generalize slot B e σ j = r at hr1 hr2 ⊢
  generalize (e (σ j)).val = k at hkE hr1 hr2 ⊢
  -- the tile's first row B * (r / B) is still inside [pstart k, pstart (k + 1)), because B divides pstart k
  have ht1 : B * (r / B) ≤ r := Nat.mul_div_le r B
  have ht2 : pstart B e k ≤ B * (r / B) := by
    obtain ⟨c, hc⟩ := dvd_pstart B e k
    rw [hc] at hr1 ⊢
    refine Nat.mul_le_mul_left B ((Nat.le_div_iff_mul_le hB).mpr ?_)
    rw [Nat.mul_comm]; exact hr1
  -- so the runs 1 ≤ k' < E that begin at or before it are exactly those with k' ≤ k
  have hfilter : ((Ico 1 E).filter fun k' => pstart B e k' ≤ B * (r / B)) = Ico 1 (k + 1) := by
    ext k'
    simp only [mem_filter, mem_Ico]
    constructor
    · rintro ⟨⟨h1, _⟩, h3⟩
      refine ⟨h1, ?_⟩
      by_contra hcon
      have h4 : pstart B e (k + 1) ≤ pstart B e k' := pstart_mono B e (not_lt.mp hcon)
      omega
    · rintro ⟨h1, h2⟩
      exact ⟨⟨h1, by omega⟩, le_trans (pstart_mono B e (Nat.lt_succ_iff.mp h2)) ht2⟩
  unfold texp
  rw [hfilter, Nat.card_Ico]
  omega
/-- and the tile's first row is below the padded total. -/
theorem tile_lt_ptotal (hB : 0 < B) (hσ : Function.Bijective σ) (hmono : ∀ j j' : Fin N, j ≤ j' → e (σ j) ≤ e (σ j')) (j : Fin N) :
    B * (slot B e σ j / B) < ptotal B e :=
  lt_of_le_of_lt (Nat.mul_div_le _ _) (slot_lt_ptotal hB hσ hmono j)

end

/-- With 8192 tokens, 16 labels and tiles of 128 rows the padded total is at most 8192 + 16 * 127 = 10224. -/
theorem ptotal_le_10240 (e : Fin 8192 → Fin 16) : ptotal 128 e ≤ 10240 :=
  (ptotal_le (by norm_num) e).trans (by norm_num)

end Cert.Moe.Routing
-- ==== Proof.LibScatterAdd.lean ====
/-
  The host's accumulating float scatter (`Host.scatterAdd`, at the ideal instance `Ideal.hostScatterAdd`) read at
  an index, at generic extents, for the two layouts a segment sum prints:
  `scatterAdd_rows` — an [N, D] matrix of updates scattered by rows onto a [C, D] operand, row `r` going to the row
  that entry `(r, 0)` of an [N, 1] column of 32-bit indices names (update window axis 1, inserted window axis 0,
  scatter axis 0, index vector axis 1): entry `(c, e)` of the result is the operand's plus the sum over the rows `r`
  whose index, read signed, is `c` of the update entry `(r, e)`;
  `scatterAdd_vec` — an [N] vector of updates scattered onto a [C] operand the same way.
  An index that, read signed, falls outside the operand's rows drops its update.
-/
import Idealize.ShloMosaic.PureOps.Ideal
import Idealize.ShloMosaic.Lib.ValueIdx
import Idealize.ShloMosaic.Lib.ValueIdxRank1

noncomputable section

namespace Cert.ScatterAdd

open Idealize.ShloMosaic Idealize.ShloMosaic.ValueIdx

/-! ## Rows of a matrix -/

section Rows
variable {C D N : ℕ}
  (wf : ScatterDims.WF (⟨2, ![C, D]⟩ : Shape) (⟨2, ![N, 1]⟩ : Shape) (⟨2, ![N, D]⟩ : Shape) [1] [0] [0] 1)

/-- The row scatter's dimension numbers: the updates' axis 1 is the window, the operand's axis 0 is inserted and is
    the one the index names. -/
abbrev rowsDims : ScatterDims (⟨2, ![C, D]⟩ : Shape) (⟨2, ![N, 1]⟩ : Shape) (⟨2, ![N, D]⟩ : Shape) :=
  ⟨[1], [0], [0], 1, wf⟩

/-- On the row axis the window starts at the row the index column names, read signed. -/
theorem rows_start0 (j : (⟨2, ![N, D]⟩ : Shape).Idx) (idx : IVec (⟨2, ![N, 1]⟩ : Shape) 32) :
    (rowsDims wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- On the column axis the window starts at 0. -/
theorem rows_start1 (j : (⟨2, ![N, D]⟩ : Shape).Idx) (idx : IVec (⟨2, ![N, 1]⟩ : Shape) 32) :
    (rowsDims wf).start j idx 1 = 0 := by
  unfold ScatterDims.start
  exact dif_neg (show (1 : Fin 2) ∉ ([0] : List (Fin 2)) by decide)

/-- The row axis is inserted: no window coordinate. -/
theorem rows_window0 (j : (⟨2, ![N, D]⟩ : Shape).Idx) : (rowsDims wf).window j 0 = 0 := by
  unfold ScatterDims.window
  exact dif_neg (show (0 : Fin 2) ∉ (List.finRange 2).filter (· ∉ ([0] : List (Fin 2))) by decide)

/-- The column axis carries the update's column. -/
theorem rows_window1 (j : (⟨2, ![N, D]⟩ : Shape).Idx) : (rowsDims wf).window j 1 = (j 1).val := by
  unfold ScatterDims.window
  exact (dif_pos (show (1 : Fin 2) ∈ (List.finRange 2).filter (· ∉ ([0] : List (Fin 2))) by decide)).trans rfl

/-- An update lands on entry `(c, e)` exactly when its row's index, read signed, is `c` and its column is `e`:
    the range conditions then hold because `c` is a row and `e` a column of the operand. -/
theorem rows_resultIdx_iff (j : (⟨2, ![N, D]⟩ : Shape).Idx) (idx : IVec (⟨2, ![N, 1]⟩ : Shape) 32)
    (c : Fin C) (e : Fin D) :
    (rowsDims wf).resultIdx? j idx = some (ix2 c e)
      ↔ (idx (ix2 (j 0) (0 : Fin 1))).toInt = (c.val : ℤ) ∧ (j 1).val = e.val := by
  have hs0 := rows_start0 wf j idx
  have hs1 := rows_start1 wf j idx
  have hw0 := rows_window0 wf j
  have hw1 := rows_window1 wf j
  have hj1 : (j 1).val < D := idx2_lt1 j
  have hc : c.val < C := c.isLt
  have he : e.val < D := e.isLt
  unfold ScatterDims.resultIdx?
  split
  · rename_i h
    rw [Option.some.injEq]
    constructor
    · intro hf
      have h0 : ((rowsDims wf).start j idx 0 + ((rowsDims wf).window j 0 : ℕ)).toNat = c.val :=
        congrArg Fin.val (congrFun hf 0)
      have h1 : ((rowsDims wf).start j idx 1 + ((rowsDims wf).window j 1 : ℕ)).toNat = e.val :=
        congrArg Fin.val (congrFun hf 1)
      have hh0 : 0 ≤ (rowsDims wf).start j idx 0 + ((rowsDims wf).window j 0 : ℕ) := (h 0).1
      rw [hs0, hw0] at h0 hh0
      rw [hs1, hw1] at h1
      omega
    · intro ⟨h0, h1⟩
      funext a
      refine Fin.ext ?_
      match a with
      | ⟨0, _⟩ =>
        show ((rowsDims wf).start j idx 0 + ((rowsDims wf).window j 0 : ℕ)).toNat = c.val
        rw [hs0, hw0]
        omega
      | ⟨1, _⟩ =>
        show ((rowsDims wf).start j idx 1 + ((rowsDims wf).window j 1 : ℕ)).toNat = e.val
        rw [hs1, hw1]
        omega
  · rename_i h
    constructor
    · intro hf
      exact absurd hf (by simp)
    · intro ⟨h0, h1⟩
      exfalso
      apply h
      intro a
      match a with
      | ⟨0, _⟩ =>
        show 0 ≤ (rowsDims wf).start j idx 0 + ((rowsDims wf).window j 0 : ℕ)
          ∧ (rowsDims wf).start j idx 0 + ((rowsDims wf).window j 0 : ℕ) < (C : ℤ)
        rw [hs0, hw0]
        omega
      | ⟨1, _⟩ =>
        show 0 ≤ (rowsDims wf).start j idx 1 + ((rowsDims wf).window j 1 : ℕ)
          ∧ (rowsDims wf).start j idx 1 + ((rowsDims wf).window j 1 : ℕ) < (D : ℤ)
        rw [hs1, hw1]
        omega

end Rows

/-- Rows: update row `r` (all its columns) lands on operand row `idx r`; so entry `(c, e)` of the result is the
    operand's plus the sum of the entries `(r, e)` of the rows whose index is `c`. -/
theorem scatterAdd_rows {C D N : ℕ}
    (d : ScatterDims (⟨2, ![C, D]⟩ : Shape) (⟨2, ![N, 1]⟩ : Shape) (⟨2, ![N, D]⟩ : Shape))
    (huw : d.updateWindowDims = [1]) (hiw : d.insertedWindowDims = [0]) (hsd : d.scatterDimsToOperandDims = [0])
    (hiv : d.indexVectorDim = 1)
    (x : (⟨2, ![C, D]⟩ : Shape).Idx → EReal) (idx : IVec (⟨2, ![N, 1]⟩ : Shape) 32)
    (upd : (⟨2, ![N, D]⟩ : Shape).Idx → EReal) (c : Fin C) (e : Fin D) :
    Ideal.hostScatterAdd d x idx upd (ix2 c e)
      = x (ix2 c e) + ∑ r : Fin N, if (idx (ix2 r (0 : Fin 1))).toInt = (c.val : ℤ) then upd (ix2 r e) else 0 := by
  obtain ⟨uw, iw, sd, iv, wf⟩ := d
  dsimp only at huw hiw hsd hiv
  subst huw hiw hsd hiv
  unfold Ideal.hostScatterAdd
  congr 1
  rw [Finset.sum_filter, sum_idx2]
  refine Finset.sum_congr rfl fun r _ => ?_
  refine ((Finset.sum_congr rfl fun e' _ => ?_).trans (Finset.sum_ite_eq' Finset.univ e
    (fun e' => if (idx (ix2 r (0 : Fin 1))).toInt = (c.val : ℤ) then upd (ix2 r e') else 0))).trans
    (if_pos (Finset.mem_univ e))
  have hiff : (rowsDims wf).resultIdx? (ix2 r e') idx = some (ix2 c e)
      ↔ (idx (ix2 r (0 : Fin 1))).toInt = (c.val : ℤ) ∧ e'.val = e.val :=
    rows_resultIdx_iff wf (ix2 r e') idx c e
  by_cases he : e' = e
  · subst he
    rw [if_pos rfl]
    exact if_congr (hiff.trans ⟨fun h => h.1, fun h => ⟨h, rfl⟩⟩) rfl rfl
  · rw [if_neg he]
    exact if_neg fun hh => he (Fin.ext (hiff.1 hh).2)

/-! ## Entries of a vector -/

section Vec
variable {C N : ℕ}
  (wf : ScatterDims.WF (⟨1, ![C]⟩ : Shape) (⟨2, ![N, 1]⟩ : Shape) (⟨1, ![N]⟩ : Shape) [] [0] [0] 1)

/-- A sum over a rank-1 index set is the sum over its coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The entry scatter's dimension numbers: the updates have no window axis, the operand's one axis is inserted and
    is the one the index names. -/
abbrev vecDims : ScatterDims (⟨1, ![C]⟩ : Shape) (⟨2, ![N, 1]⟩ : Shape) (⟨1, ![N]⟩ : Shape) :=
  ⟨[], [0], [0], 1, wf⟩

/-- The window starts at the entry the index column names, read signed. -/
theorem vec_start0 (j : (⟨1, ![N]⟩ : Shape).Idx) (idx : IVec (⟨2, ![N, 1]⟩ : Shape) 32) :
    (vecDims wf).start j idx 0 = (idx (ix2 (j 0) (0 : Fin 1))).toInt := by
  unfold ScatterDims.start
  rw [dif_pos (List.mem_singleton.mpr rfl)]
  congr 2
  funext b
  refine Fin.ext ?_
  match b with
  | ⟨0, _⟩ => rfl
  | ⟨1, _⟩ => rfl

/-- The operand's axis is inserted: no window coordinate. -/
theorem vec_window0 (j : (⟨1, ![N]⟩ : Shape).Idx) : (vecDims wf).window j 0 = 0 := by
  unfold ScatterDims.window
  exact dif_neg (show (0 : Fin 1) ∉ (List.finRange 1).filter (· ∉ ([0] : List (Fin 1))) by decide)

/-- An update lands on entry `c` exactly when its index, read signed, is `c`: the range condition then holds
    because `c` is an entry of the operand. -/
theorem vec_resultIdx_iff (j : (⟨1, ![N]⟩ : Shape).Idx) (idx : IVec (⟨2, ![N, 1]⟩ : Shape) 32) (c : Fin C) :
    (vecDims wf).resultIdx? j idx = some (ix1 c) ↔ (idx (ix2 (j 0) (0 : Fin 1))).toInt = (c.val : ℤ) := by
  have hs0 := vec_start0 wf j idx
  have hw0 := vec_window0 wf j
  have hc : c.val < C := c.isLt
  unfold ScatterDims.resultIdx?
  split
  · rename_i h
    rw [Option.some.injEq]
    constructor
    · intro hf
      have h0 : ((vecDims wf).start j idx 0 + ((vecDims wf).window j 0 : ℕ)).toNat = c.val :=
        congrArg Fin.val (congrFun hf 0)
      have hh0 : 0 ≤ (vecDims wf).start j idx 0 + ((vecDims wf).window j 0 : ℕ) := (h 0).1
      rw [hs0, hw0] at h0 hh0
      omega
    · intro h0
      funext a
      refine Fin.ext ?_
      match a with
      | ⟨0, _⟩ =>
        show ((vecDims wf).start j idx 0 + ((vecDims wf).window j 0 : ℕ)).toNat = c.val
        rw [hs0, hw0]
        omega
  · rename_i h
    constructor
    · intro hf
      exact absurd hf (by simp)
    · intro h0
      exfalso
      apply h
      intro a
      match a with
      | ⟨0, _⟩ =>
        show 0 ≤ (vecDims wf).start j idx 0 + ((vecDims wf).window j 0 : ℕ)
          ∧ (vecDims wf).start j idx 0 + ((vecDims wf).window j 0 : ℕ) < (C : ℤ)
        rw [hs0, hw0]
        omega

end Vec

/-- Entries of a vector: update entry `r` lands on operand entry `idx r`. -/
theorem scatterAdd_vec {C N : ℕ}
    (d : ScatterDims (⟨1, ![C]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1)
    (x : (⟨1, ![C]⟩ : Shape).Idx → EReal) (idx : IVec (⟨2, ![N, 1]⟩ : Shape) 32)
    (upd : (⟨1, ![N]⟩ : Shape).Idx → EReal) (c : Fin C) :
    Ideal.hostScatterAdd d x idx upd (ix1 c)
      = x (ix1 c) + ∑ r : Fin N, if (idx (ix2 r (0 : Fin 1))).toInt = (c.val : ℤ) then upd (ix1 r) else 0 := by
  obtain ⟨uw, iw, sd, iv, wf⟩ := d
  dsimp only at huw hiw hsd hiv
  subst huw hiw hsd hiv
  unfold Ideal.hostScatterAdd
  congr 1
  rw [Finset.sum_filter, sum_idx1]
  refine Finset.sum_congr rfl fun r _ => ?_
  exact if_congr (vec_resultIdx_iff wf (ix1 r) idx c) rfl rfl

end Cert.ScatterAdd

end
-- ==== Proof.LibScatterFold.lean ====
/-
  The host scatter read at ONE element of its result, for the layout in which a column of N signed 32-bit words
  names, for each update, the row of the operand it goes to.

  The scatter is a left fold over the updates, in order: an update whose target lies inside the operand replaces the
  element there by the body applied to the old element and the update's element; an update whose target lies outside
  is dropped. Read at one element, the fold only sees the updates that land there:
  * with the body "add" and every update the word 1, the element grows by the NUMBER of updates that land there;
  * with the body "take the update", the element ends as the update that lands there when only one does (or when all
    that do carry the same value), and keeps its first value when none does.
  Which updates land on an element is read off the index column: update n (for a matrix of updates, its whole row n)
  goes to the row the word at (n, 0) names, read as a signed integer, when that is a row of the operand.
-/
import Idealize.ShloMosaic.PureOps.ShapeOps
import Idealize.ShloMosaic.Lib.ValueIdx
import Idealize.ShloMosaic.Lib.ValueIdxRank1
import proofs.«405730_j30700426232147_3_alg».proof.Proof.LibScatterAdd
import Mathlib.Data.Fintype.Card
import Mathlib.Data.Fintype.Pi

namespace Cert.Moe.Lib

open Idealize.ShloMosaic Idealize.ShloMosaic.ValueIdx

/-! ## Folds read at one place -/

/-- A left fold of functions whose step at n changes the place i₀ to f (old value) (v n) when p n holds and
    leaves it alone otherwise is, read at i₀, the fold of that step over the values. -/
theorem foldl_apply_at {ι β α : Type} (i₀ : β) (p : ι → Prop) [DecidablePred p] (f : α → α → α) (v : ι → α)
    (g : (β → α) → ι → (β → α)) (hg : ∀ r n, g r n i₀ = if p n then f (r i₀) (v n) else r i₀)
    (l : List ι) (x : β → α) :
    l.foldl g x i₀ = l.foldl (fun a n => if p n then f a (v n) else a) (x i₀) := by
  induction l generalizing x with
  | nil => rfl
  | cons n l ih =>
    simp only [List.foldl_cons]
    rw [ih, hg]

/-- No step of the list fires: the fold returns its start value. -/
theorem foldl_of_no_hit {ι α : Type} (p : ι → Prop) [DecidablePred p] (f : α → α → α) (v : ι → α)
    (l : List ι) (h : ∀ n ∈ l, ¬ p n) (a : α) :
    l.foldl (fun a n => if p n then f a (v n) else a) a = a := by
  induction l generalizing a with
  | nil => rfl
  | cons n l ih =>
    simp only [List.foldl_cons]
    rw [if_neg (h n List.mem_cons_self)]
    exact ih (fun m hm => h m (List.mem_cons_of_mem _ hm)) a

/-- Every step that fires writes the same value c, and some step fires: the fold returns c. -/
theorem foldl_set_of_hit {ι α : Type} (p : ι → Prop) [DecidablePred p] (v : ι → α) (c : α)
    (l : List ι) (hc : ∀ n ∈ l, p n → v n = c) (hex : ∃ n ∈ l, p n) (a : α) :
    l.foldl (fun a n => if p n then v n else a) a = c := by
  induction l generalizing a with
  | nil =>
    obtain ⟨n, hn, _⟩ := hex
    exact absurd hn List.not_mem_nil
  | cons n l ih =>
    simp only [List.foldl_cons]
    by_cases hl : ∃ m ∈ l, p m
    · exact ih (fun m hm => hc m (List.mem_cons_of_mem _ hm)) hl _
    · have hno : ∀ m ∈ l, ¬ p m := fun m hm hp => hl ⟨m, hm, hp⟩
      have hn : p n := by
        obtain ⟨m, hm, hp⟩ := hex
        rcases List.mem_cons.1 hm with rfl | hm
        · exact hp
        · exact absurd hp (hno m hm)
      rw [if_pos hn]
      exact (foldl_of_no_hit p (fun _ b => b) v l hno _).trans (hc n List.mem_cons_self hn)

/-- Every step that fires adds the word 1: the fold adds the number of steps that fire. -/
theorem foldl_add_one {ι : Type} {w : ℕ} (p : ι → Prop) [DecidablePred p] (l : List ι) (a : BitVec w) :
    l.foldl (fun a n => if p n then a + 1#w else a) a = a + BitVec.ofNat w (l.filter (fun n => decide (p n))).length := by
  induction l generalizing a with
  | nil => simp
  | cons n l ih =>
    simp only [List.foldl_cons]
    rw [ih]
    by_cases hn : p n
    · rw [if_pos hn, List.filter_cons_of_pos (by simpa using hn), List.length_cons, BitVec.ofNat_add,
        BitVec.add_assoc, BitVec.add_comm (1#w)]
    · rw [if_neg hn, List.filter_cons_of_neg (by simpa using hn)]

/-! ## The scatter read at one element, for any dimension numbers -/

section General
variable {α : Type} {s si u : Shape} {w : ℕ}

/-- The scatter read at the element i₀: the fold, over the updates in order, of "apply the body to the element and
    the update's value when the update lands on i₀". -/
theorem scatter_apply (d : ScatterDims s si u) (f : α → α → α) (x : s.Idx → α) (idx : IVec si w) (upd : u.Idx → α)
    (i₀ : s.Idx) :
    Host.scatter d f x idx upd i₀ =
      (List.finRange u.numel).foldl (fun a n => if d.resultIdx? (u.rowMajor.symm n) idx = some i₀
        then f a (upd (u.rowMajor.symm n)) else a) (x i₀) := by
  have hg : ∀ (r : s.Idx → α) (n : Fin u.numel),
      (match d.resultIdx? (u.rowMajor.symm n) idx with
        | some i => fun i' => if i' = i then f (r i) (upd (u.rowMajor.symm n)) else r i'
        | none => r) i₀ =
      if d.resultIdx? (u.rowMajor.symm n) idx = some i₀ then f (r i₀) (upd (u.rowMajor.symm n)) else r i₀ := by
    intro r n
    cases h : d.resultIdx? (u.rowMajor.symm n) idx with
    | none => simp
    | some i =>
      by_cases e : i₀ = i
      · subst e; simp
      · have e' : ¬ i = i₀ := fun q => e q.symm
        simp [e, e']
  unfold Host.scatter
  exact foldl_apply_at i₀ _ f _ _ hg _ x

/-- An element no update lands on keeps the operand's value, whatever the body. -/
theorem scatter_of_no_hit (d : ScatterDims s si u) (f : α → α → α) (x : s.Idx → α) (idx : IVec si w) (upd : u.Idx → α)
    (i₀ : s.Idx) (h : ∀ j : u.Idx, d.resultIdx? j idx ≠ some i₀) :
    Host.scatter d f x idx upd i₀ = x i₀ := by
  rw [scatter_apply]
  exact foldl_of_no_hit _ f _ _ (fun n _ => h _) _

/-- The body returns the update: an element on which the update j₀ lands, and on which every update that lands
    carries j₀'s value, ends with that value. -/
theorem scatter_set_of_unique (d : ScatterDims s si u) (x : s.Idx → α) (idx : IVec si w) (upd : u.Idx → α)
    (i₀ : s.Idx) (j₀ : u.Idx) (h₀ : d.resultIdx? j₀ idx = some i₀)
    (huniq : ∀ j : u.Idx, d.resultIdx? j idx = some i₀ → upd j = upd j₀) :
    Host.scatter d (fun _ b => b) x idx upd i₀ = upd j₀ := by
  rw [scatter_apply]
  exact foldl_set_of_hit (fun n => d.resultIdx? (u.rowMajor.symm n) idx = some i₀)
    (fun n => upd (u.rowMajor.symm n)) (upd j₀) _ (fun n _ hn => huniq _ hn)
    ⟨u.rowMajor j₀, List.mem_finRange _, by simpa using h₀⟩ _

/-- The body adds, every update is the word 1: the element grows by the number of updates that land on it. -/
theorem scatter_addi_ones {w' : ℕ} (d : ScatterDims s si u) (x : s.Idx → BitVec w') (idx : IVec si w)
    (upd : u.Idx → BitVec w') (hupd : ∀ j, upd j = 1#w') (i₀ : s.Idx) :
    Host.scatter d IntOp.addi x idx upd i₀ =
      x i₀ + BitVec.ofNat w' (Finset.univ.filter fun j : u.Idx => d.resultIdx? j idx = some i₀).card := by
  rw [scatter_apply]
  have hfun : (fun (a : BitVec w') (n : Fin u.numel) => if d.resultIdx? (u.rowMajor.symm n) idx = some i₀
        then IntOp.addi a (upd (u.rowMajor.symm n)) else a)
      = fun a n => if d.resultIdx? (u.rowMajor.symm n) idx = some i₀ then a + 1#w' else a := by
    funext a n
    rw [hupd]
    rfl
  rw [hfun]
  refine (foldl_add_one (fun n : Fin u.numel => d.resultIdx? (u.rowMajor.symm n) idx = some i₀) _ _).trans ?_
  congr 2
  rw [← List.toFinset_card_of_nodup ((List.nodup_finRange _).filter _)]
  refine Finset.card_equiv u.rowMajor.symm (fun n => ?_)
  simp [List.mem_filter]

end General

/-! ## A vector of updates, one operand entry each -/

section Vec
variable {α : Type} {C N : ℕ}

/-- Update n lands on entry c exactly when the word at (n, 0) of the index column, read signed, is c. -/
theorem resultIdx_vec_iff (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1) (idx : IVec ⟨2, ![N, 1]⟩ 32) (n : Fin N) (c : Fin C) :
    d.resultIdx? (ix1 n) idx = some (ix1 c) ↔ (idx (ix2 n (0 : Fin 1))).toInt = (c.val : ℤ) := by
  obtain ⟨uw, iw, sd, iv, wf⟩ := d
  dsimp only at hu hi hs hv
  subst hu hi hs hv
  exact Cert.ScatterAdd.vec_resultIdx_iff wf (ix1 n) idx c

/-- Where update n lands: on the entry its index word names, read signed, when that is an entry of the operand;
    nowhere otherwise (a scatter index is not clamped). -/
theorem resultIdx_vec (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1) (idx : IVec ⟨2, ![N, 1]⟩ 32) (n : Fin N) :
    d.resultIdx? (ix1 n) idx =
      if h : 0 ≤ (idx (ix2 n (0 : Fin 1))).toInt ∧ (idx (ix2 n (0 : Fin 1))).toInt < (C : ℤ)
      then some (ix1 ⟨(idx (ix2 n (0 : Fin 1))).toInt.toNat, by omega⟩) else none := by
  have hiff := fun c => resultIdx_vec_iff d hu hi hs hv idx n c
  split
  · rename_i h
    exact (hiff ⟨_, _⟩).2 (Int.toNat_of_nonneg h.1).symm
  · rename_i h
    cases hres : d.resultIdx? (ix1 n) idx with
    | none => rfl
    | some i =>
      exfalso
      apply h
      rw [eq_ix1 i] at hres
      have hz := (hiff (i 0)).1 hres
      have hlt : (i 0).val < C := (i 0).isLt
      omega

/-- The accumulating scatter of ones counts: entry k grows by the number of n whose index word, read signed, is k. -/
theorem scatter_count_add {w' : ℕ} (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1) (x : (⟨1, ![C]⟩ : Shape).Idx → BitVec w') (idx : IVec ⟨2, ![N, 1]⟩ 32)
    (upd : (⟨1, ![N]⟩ : Shape).Idx → BitVec w') (hupd : ∀ j, upd j = 1#w') (k : Fin C) :
    Host.scatter d IntOp.addi x idx upd (ix1 k) =
      x (ix1 k) + BitVec.ofNat w'
        (Finset.univ.filter fun n : Fin N => (idx (ix2 n (0 : Fin 1))).toInt = (k.val : ℤ)).card := by
  rw [scatter_addi_ones d x idx upd hupd]
  congr 2
  refine Finset.card_equiv idxEquiv1 (fun j => ?_)
  simp only [Finset.mem_filter, Finset.mem_univ, true_and]
  obtain ⟨n, rfl⟩ : ∃ n : Fin N, j = ix1 n := ⟨j 0, eq_ix1 j⟩
  exact resultIdx_vec_iff d hu hi hs hv idx n k

/-- Ones scattered with "add" into zeros: entry k is the number of n whose index word, read signed, is k. -/
theorem scatter_count (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1) (idx : IVec ⟨2, ![N, 1]⟩ 32) (k : Fin C) :
    Host.scatter d IntOp.addi (fun _ => 0#32) idx (fun _ => 1#32) (ix1 k) =
      BitVec.ofNat 32 (Finset.univ.filter fun n : Fin N => (idx (ix2 n (0 : Fin 1))).toInt = (k.val : ℤ)).card := by
  exact (scatter_count_add d hu hi hs hv (fun _ => 0#32) idx (fun _ => 1#32) (fun _ => rfl) k).trans
    (BitVec.zero_add _)

/-- An entry no index word names keeps the operand's value, whatever the body. -/
theorem scatter_vec_of_no_hit (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1) (f : α → α → α) (x : (⟨1, ![C]⟩ : Shape).Idx → α) (idx : IVec ⟨2, ![N, 1]⟩ 32)
    (upd : (⟨1, ![N]⟩ : Shape).Idx → α) (r : Fin C)
    (h : ∀ n : Fin N, (idx (ix2 n (0 : Fin 1))).toInt ≠ (r.val : ℤ)) :
    Host.scatter d f x idx upd (ix1 r) = x (ix1 r) := by
  refine scatter_of_no_hit d f x idx upd _ (fun j hj => ?_)
  obtain ⟨n, rfl⟩ : ∃ n : Fin N, j = ix1 n := ⟨j 0, eq_ix1 j⟩
  exact h n ((resultIdx_vec_iff d hu hi hs hv idx n r).1 hj)

/-- The body returns the update: entry r, named by the index word of n and of no other update, ends as update n. -/
theorem scatter_set_vec_of_unique (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1) (x : (⟨1, ![C]⟩ : Shape).Idx → α) (idx : IVec ⟨2, ![N, 1]⟩ 32)
    (upd : (⟨1, ![N]⟩ : Shape).Idx → α) (n : Fin N) (r : Fin C)
    (hr : (idx (ix2 n (0 : Fin 1))).toInt = (r.val : ℤ))
    (huniq : ∀ n' : Fin N, (idx (ix2 n' (0 : Fin 1))).toInt = (r.val : ℤ) → n' = n) :
    Host.scatter d (fun _ b => b) x idx upd (ix1 r) = upd (ix1 n) := by
  refine scatter_set_of_unique d x idx upd (ix1 r) (ix1 n)
    ((resultIdx_vec_iff d hu hi hs hv idx n r).2 hr) (fun j hj => ?_)
  obtain ⟨n', rfl⟩ : ∃ n' : Fin N, j = ix1 n' := ⟨j 0, eq_ix1 j⟩
  rw [huniq n' ((resultIdx_vec_iff d hu hi hs hv idx n' r).1 hj)]

/-- The body returns the update and the index words that name an entry of the operand are pairwise distinct: the
    entry update n names ends as update n. -/
theorem scatter_set_vec_of_injOn (d : ScatterDims ⟨1, ![C]⟩ ⟨2, ![N, 1]⟩ ⟨1, ![N]⟩)
    (hu : d.updateWindowDims = []) (hi : d.insertedWindowDims = [0]) (hs : d.scatterDimsToOperandDims = [0])
    (hv : d.indexVectorDim = 1) (x : (⟨1, ![C]⟩ : Shape).Idx → α) (idx : IVec ⟨2, ![N, 1]⟩ 32)
    (upd : (⟨1, ![N]⟩ : Shape).Idx → α)
    (hinj : ∀ n n' : Fin N, 0 ≤ (idx (ix2 n (0 : Fin 1))).toInt → (idx (ix2 n (0 : Fin 1))).toInt < (C : ℤ) →
      (idx (ix2 n (0 : Fin 1))).toInt = (idx (ix2 n' (0 : Fin 1))).toInt → n = n')
    (n : Fin N) (r : Fin C) (hr : (idx (ix2 n (0 : Fin 1))).toInt = (r.val : ℤ)) :
    Host.scatter d (fun _ b => b) x idx upd (ix1 r) = upd (ix1 n) := by
  refine scatter_set_vec_of_unique d hu hi hs hv x idx upd n r hr (fun n' hn' => ?_)
  have hlt : r.val < C := r.isLt
  exact (hinj n n' (by omega) (by omega) (by omega)).symm

end Vec

/-! ## A matrix of updates, one operand row each -/

section Rows
variable {α : Type} {R D N : ℕ}

/-- Entry (n, k) of the updates lands on entry (c, e) exactly when the word at (n, 0) of the index column, read
    signed, is c and k is e. -/
theorem resultIdx_rows_iff (d : ScatterDims ⟨2, ![R, D]⟩ ⟨2, ![N, 1]⟩ ⟨2, ![N, D]⟩)
    (hu : d.updateWindowDims = [1]) (hi : d.insertedWindowDims = [0]) (hs : d.scatterDimsToOperandDims = [0])
    (hv : d.indexVectorDim = 1) (idx : IVec ⟨2, ![N, 1]⟩ 32) (n : Fin N) (k : Fin D) (c : Fin R) (e : Fin D) :
    d.resultIdx? (ix2 n k) idx = some (ix2 c e) ↔ (idx (ix2 n (0 : Fin 1))).toInt = (c.val : ℤ) ∧ k = e := by
  obtain ⟨uw, iw, sd, iv, wf⟩ := d
  dsimp only at hu hi hs hv
  subst hu hi hs hv
  refine (Cert.ScatterAdd.rows_resultIdx_iff wf (ix2 n k) idx c e).trans ?_
  constructor
  · rintro ⟨h0, h1⟩
    exact ⟨h0, Fin.ext h1⟩
  · rintro ⟨h0, rfl⟩
    exact ⟨h0, rfl⟩

/-- Where entry (n, k) of the updates lands: in column k of the row its index word names, read signed, when that
    is a row of the operand; nowhere otherwise. -/
theorem resultIdx_rows (d : ScatterDims ⟨2, ![R, D]⟩ ⟨2, ![N, 1]⟩ ⟨2, ![N, D]⟩)
    (hu : d.updateWindowDims = [1]) (hi : d.insertedWindowDims = [0]) (hs : d.scatterDimsToOperandDims = [0])
    (hv : d.indexVectorDim = 1) (idx : IVec ⟨2, ![N, 1]⟩ 32) (n : Fin N) (k : Fin D) :
    d.resultIdx? (ix2 n k) idx =
      if h : 0 ≤ (idx (ix2 n (0 : Fin 1))).toInt ∧ (idx (ix2 n (0 : Fin 1))).toInt < (R : ℤ)
      then some (ix2 ⟨(idx (ix2 n (0 : Fin 1))).toInt.toNat, by omega⟩ k) else none := by
  have hiff := fun c e => resultIdx_rows_iff d hu hi hs hv idx n k c e
  split
  · rename_i h
    exact (hiff ⟨_, _⟩ k).2 ⟨(Int.toNat_of_nonneg h.1).symm, rfl⟩
  · rename_i h
    cases hres : d.resultIdx? (ix2 n k) idx with
    | none => rfl
    | some i =>
      exfalso
      apply h
      rw [eq_ix2 i] at hres
      have hz := ((hiff (i 0) (i 1)).1 hres).1
      have hlt : (i 0).val < R := (i 0).isLt
      omega

/-- A row no index word names keeps the operand's values, whatever the body. -/
theorem scatter_rows_of_no_hit (d : ScatterDims ⟨2, ![R, D]⟩ ⟨2, ![N, 1]⟩ ⟨2, ![N, D]⟩)
    (hu : d.updateWindowDims = [1]) (hi : d.insertedWindowDims = [0]) (hs : d.scatterDimsToOperandDims = [0])
    (hv : d.indexVectorDim = 1) (f : α → α → α) (x : (⟨2, ![R, D]⟩ : Shape).Idx → α) (idx : IVec ⟨2, ![N, 1]⟩ 32)
    (upd : (⟨2, ![N, D]⟩ : Shape).Idx → α) (r : Fin R) (k : Fin D)
    (h : ∀ n : Fin N, (idx (ix2 n (0 : Fin 1))).toInt ≠ (r.val : ℤ)) :
    Host.scatter d f x idx upd (ix2 r k) = x (ix2 r k) := by
  refine scatter_of_no_hit d f x idx upd _ (fun j hj => ?_)
  obtain ⟨n, k', rfl⟩ : ∃ (n : Fin N) (k' : Fin D), j = ix2 n k' := ⟨j 0, j 1, eq_ix2 j⟩
  exact h n ((resultIdx_rows_iff d hu hi hs hv idx n k' r k).1 hj).1

/-- The body returns the update: row r, named by the index word of n and of no other update row, ends as row n of
    the updates. -/
theorem scatter_set_rows_of_unique (d : ScatterDims ⟨2, ![R, D]⟩ ⟨2, ![N, 1]⟩ ⟨2, ![N, D]⟩)
    (hu : d.updateWindowDims = [1]) (hi : d.insertedWindowDims = [0]) (hs : d.scatterDimsToOperandDims = [0])
    (hv : d.indexVectorDim = 1) (x : (⟨2, ![R, D]⟩ : Shape).Idx → α) (idx : IVec ⟨2, ![N, 1]⟩ 32)
    (upd : (⟨2, ![N, D]⟩ : Shape).Idx → α) (n : Fin N) (r : Fin R)
    (hr : (idx (ix2 n (0 : Fin 1))).toInt = (r.val : ℤ))
    (huniq : ∀ n' : Fin N, (idx (ix2 n' (0 : Fin 1))).toInt = (r.val : ℤ) → n' = n) (k : Fin D) :
    Host.scatter d (fun _ b => b) x idx upd (ix2 r k) = upd (ix2 n k) := by
  refine scatter_set_of_unique d x idx upd (ix2 r k) (ix2 n k)
    ((resultIdx_rows_iff d hu hi hs hv idx n k r k).2 ⟨hr, rfl⟩) (fun j hj => ?_)
  obtain ⟨n', k', rfl⟩ : ∃ (n' : Fin N) (k' : Fin D), j = ix2 n' k' := ⟨j 0, j 1, eq_ix2 j⟩
  obtain ⟨h0, hk⟩ := (resultIdx_rows_iff d hu hi hs hv idx n' k' r k).1 hj
  rw [huniq n' h0, hk]

/-- The body returns the update and the index words that name a row of the operand are pairwise distinct: the row
    update row n names ends as row n of the updates. -/
theorem scatter_set_rows_of_injOn (d : ScatterDims ⟨2, ![R, D]⟩ ⟨2, ![N, 1]⟩ ⟨2, ![N, D]⟩)
    (hu : d.updateWindowDims = [1]) (hi : d.insertedWindowDims = [0]) (hs : d.scatterDimsToOperandDims = [0])
    (hv : d.indexVectorDim = 1) (x : (⟨2, ![R, D]⟩ : Shape).Idx → α) (idx : IVec ⟨2, ![N, 1]⟩ 32)
    (upd : (⟨2, ![N, D]⟩ : Shape).Idx → α)
    (hinj : ∀ n n' : Fin N, 0 ≤ (idx (ix2 n (0 : Fin 1))).toInt → (idx (ix2 n (0 : Fin 1))).toInt < (R : ℤ) →
      (idx (ix2 n (0 : Fin 1))).toInt = (idx (ix2 n' (0 : Fin 1))).toInt → n = n')
    (n : Fin N) (r : Fin R) (hr : (idx (ix2 n (0 : Fin 1))).toInt = (r.val : ℤ)) (k : Fin D) :
    Host.scatter d (fun _ b => b) x idx upd (ix2 r k) = upd (ix2 n k) := by
  refine scatter_set_rows_of_unique d hu hi hs hv x idx upd n r hr (fun n' hn' => ?_) k
  have hlt : r.val < R := r.isLt
  exact (hinj n n' (by omega) (by omega) (by omega)).symm

end Rows

end Cert.Moe.Lib
-- ==== Proof.LibSortCumsum.lean ====
/-
  General facts about the integer host folds of a routing program: the argsort of a vector of 32-bit keys
  (a stable two-operand sort carrying an iota), the running sum written as a windowed reduction, the sum of a
  vector and of the rows of a rectangle, the floor division of a non-negative word by a positive one as it is
  spelled out with sign, quotient and remainder, and a few facts about small 32-bit words. Everything is stated
  at an index, with the value as BitVec.ofNat 32 of a natural number.
-/
import Idealize.ShloMosaic.PureOps.Reduce
import Idealize.ShloMosaic.Lib.SortFacts
import Idealize.ShloMosaic.Lib.ValueIdx
import Idealize.ShloMosaic.Lib.StableHlo.Predicate
import Mathlib.Algebra.BigOperators.Fin
import Mathlib.Algebra.BigOperators.Intervals

namespace Cert.Lib.SortCumsum

open Idealize.ShloMosaic Idealize.ShloMosaic.ValueIdx

/-! ## Small 32-bit words -/

/-- Adding two words given by naturals gives the word of the sum (no bound needed: both sides are modulo 2³²). -/
theorem addi_ofNat (a b : ℕ) : IntOp.addi (BitVec.ofNat 32 a) (BitVec.ofNat 32 b) = BitVec.ofNat 32 (a + b) :=
  (BitVec.ofNat_add a b).symm
/-- Multiplying likewise. -/
theorem muli_ofNat (a b : ℕ) : IntOp.muli (BitVec.ofNat 32 a) (BitVec.ofNat 32 b) = BitVec.ofNat 32 (a * b) :=
  (BitVec.ofNat_mul a b).symm
/-- Subtracting a smaller natural's word gives the word of the difference. -/
theorem subi_ofNat (a b : ℕ) (h : b ≤ a) : IntOp.subi (BitVec.ofNat 32 a) (BitVec.ofNat 32 b) = BitVec.ofNat 32 (a - b) := by
  have e : BitVec.ofNat 32 a = BitVec.ofNat 32 (a - b) + BitVec.ofNat 32 b := by
    rw [← BitVec.ofNat_add, Nat.sub_add_cancel h]
  show BitVec.ofNat 32 a - BitVec.ofNat 32 b = _
  rw [e, BitVec.add_sub_cancel]
/-- A word of a natural below 2³² has that natural as its value. -/
theorem toNat_ofNat_lt (a : ℕ) (ha : a < 2 ^ 32) : (BitVec.ofNat 32 a).toNat = a := by
  rw [BitVec.toNat_ofNat]; exact Nat.mod_eq_of_lt ha
/-- The signed comparisons of the words of two naturals below 2³¹ are the decided comparisons of the naturals: less-than. -/
theorem cmpi_slt_ofNat (a b : ℕ) (ha : a < 2 ^ 31) (hb : b < 2 ^ 31) :
    IntOp.cmpi .slt (BitVec.ofNat 32 a) (BitVec.ofNat 32 b) = BitVec.ofBool (decide (a < b)) := by
  simp only [IntOp.cmpi, BitVec.slt, StableHlo.Predicate.toInt_ofNat_small a ha, StableHlo.Predicate.toInt_ofNat_small b hb,
    Nat.cast_lt]
/-- Signed at-most. -/
theorem cmpi_sle_ofNat (a b : ℕ) (ha : a < 2 ^ 31) (hb : b < 2 ^ 31) :
    IntOp.cmpi .sle (BitVec.ofNat 32 a) (BitVec.ofNat 32 b) = BitVec.ofBool (decide (a ≤ b)) := by
  simp only [IntOp.cmpi, BitVec.sle, StableHlo.Predicate.toInt_ofNat_small a ha, StableHlo.Predicate.toInt_ofNat_small b hb,
    Nat.cast_le]
/-- Signed greater-than. -/
theorem cmpi_sgt_ofNat (a b : ℕ) (ha : a < 2 ^ 31) (hb : b < 2 ^ 31) :
    IntOp.cmpi .sgt (BitVec.ofNat 32 a) (BitVec.ofNat 32 b) = BitVec.ofBool (decide (b < a)) := by
  simp only [IntOp.cmpi, BitVec.slt, StableHlo.Predicate.toInt_ofNat_small a ha, StableHlo.Predicate.toInt_ofNat_small b hb,
    Nat.cast_lt]
/-- Signed at-least. -/
theorem cmpi_sge_ofNat (a b : ℕ) (ha : a < 2 ^ 31) (hb : b < 2 ^ 31) :
    IntOp.cmpi .sge (BitVec.ofNat 32 a) (BitVec.ofNat 32 b) = BitVec.ofBool (decide (b ≤ a)) := by
  simp only [IntOp.cmpi, BitVec.sle, StableHlo.Predicate.toInt_ofNat_small a ha, StableHlo.Predicate.toInt_ofNat_small b hb,
    Nat.cast_le]
/-- Equality of the words of two naturals below 2³² is equality of the naturals. -/
theorem cmpi_eq_ofNat (a b : ℕ) (ha : a < 2 ^ 32) (hb : b < 2 ^ 32) :
    IntOp.cmpi .eq (BitVec.ofNat 32 a) (BitVec.ofNat 32 b) = BitVec.ofBool (decide (a = b)) := by
  have e : (BitVec.ofNat 32 a = BitVec.ofNat 32 b) ↔ a = b := by
    constructor
    · intro e
      have := congrArg BitVec.toNat e
      rwa [toNat_ofNat_lt a ha, toNat_ofNat_lt b hb] at this
    · intro e; rw [e]
  simp only [IntOp.cmpi, beq_eq_decide, e]
/-- Likewise for inequality. -/
theorem cmpi_ne_ofNat (a b : ℕ) (ha : a < 2 ^ 32) (hb : b < 2 ^ 32) :
    IntOp.cmpi .ne (BitVec.ofNat 32 a) (BitVec.ofNat 32 b) = BitVec.ofBool (decide (a ≠ b)) := by
  have e : (BitVec.ofNat 32 a = BitVec.ofNat 32 b) ↔ a = b := by
    constructor
    · intro e
      have := congrArg BitVec.toNat e
      rwa [toNat_ofNat_lt a ha, toNat_ofNat_lt b hb] at this
    · intro e; rw [e]
  by_cases hab : a = b
  · subst hab; simp [IntOp.cmpi]
  · have hne : BitVec.ofNat 32 a ≠ BitVec.ofNat 32 b := fun h => hab (e.1 h)
    have hbne : (BitVec.ofNat 32 a != BitVec.ofNat 32 b) = true := bne_iff_ne.mpr hne
    simp only [IntOp.cmpi, hbne, ne_eq, hab, not_false_eq_true, decide_true]
/-- The signed minimum of two naturals below 2³¹. -/
theorem minsi_ofNat (a b : ℕ) (ha : a < 2 ^ 31) (hb : b < 2 ^ 31) :
    IntOp.minsi (BitVec.ofNat 32 a) (BitVec.ofNat 32 b) = BitVec.ofNat 32 (min a b) := by
  have e : (BitVec.ofNat 32 a).slt (BitVec.ofNat 32 b) = decide (a < b) := by
    simp only [BitVec.slt, StableHlo.Predicate.toInt_ofNat_small a ha, StableHlo.Predicate.toInt_ofNat_small b hb, Nat.cast_lt]
  unfold IntOp.minsi
  rw [e]
  by_cases hab : a < b
  · rw [decide_eq_true hab, if_pos rfl, Nat.min_eq_left (Nat.le_of_lt hab)]
  · rw [decide_eq_false hab, if_neg (by decide), Nat.min_eq_right (Nat.le_of_not_lt hab)]
/-- A select on a decided bit is the if. -/
theorem select_ofBool {α : Type} (c : Bool) (a b : α) : Scalar.select (BitVec.ofBool c) a b = if c then a else b := by
  cases c
  · exact select_zero a b
  · exact select_one a b
/-- A widened decided bit is the word 1 or 0. -/
theorem setWidth_ofBool (c : Bool) : (BitVec.ofBool c).setWidth 32 = BitVec.ofNat 32 (if c then 1 else 0) := by
  cases c <;> rfl
/-- An index that is not negative is left alone by "add the extent when negative". -/
theorem select_neg_wrap (a : ℕ) (ha : a < 2 ^ 31) (n : BitVec 32) :
    Scalar.select (IntOp.cmpi .slt (BitVec.ofNat 32 a) 0#32) (IntOp.addi (BitVec.ofNat 32 a) n) (BitVec.ofNat 32 a)
      = BitVec.ofNat 32 a := by
  rw [show (0#32 : BitVec 32) = BitVec.ofNat 32 0 from rfl, cmpi_slt_ofNat a 0 ha (by omega),
    decide_eq_false (Nat.not_lt_zero a)]
  exact select_zero _ _

/-! ## Folds of word addition -/

/-- A left fold of word addition over a list, from the word of b, of words given by naturals: the word of the sum. -/
theorem foldl_addi_ofNat {ι : Type} (l : List ι) (g : ι → BitVec 32) (G : ι → ℕ) (hg : ∀ n ∈ l, g n = BitVec.ofNat 32 (G n))
    (b : ℕ) : l.foldl (fun r n => IntOp.addi r (g n)) (BitVec.ofNat 32 b) = BitVec.ofNat 32 (b + (l.map G).sum) := by
  induction l generalizing b with
  | nil => simp
  | cons n l ih =>
    rw [List.foldl_cons, hg n List.mem_cons_self, addi_ofNat, ih (fun m hm => hg m (List.mem_cons_of_mem n hm)),
      List.map_cons, List.sum_cons, Nat.add_assoc]

/-- A set fold of word addition, from the word of b, of words given by naturals: the word of the sum. -/
theorem fold_addi_ofNat {ι : Type} (S : Finset ι) (g : ι → BitVec 32) (G : ι → ℕ) (hg : ∀ i ∈ S, g i = BitVec.ofNat 32 (G i))
    (b : ℕ) : S.fold IntOp.addi (BitVec.ofNat 32 b) g = BitVec.ofNat 32 (b + ∑ i ∈ S, G i) := by
  revert hg
  induction S using Finset.cons_induction with
  | empty => intro _; rw [Finset.fold_empty, Finset.sum_empty, Nat.add_zero]
  | cons a S ha ih =>
    intro hg
    rw [Finset.fold_cons, Finset.sum_cons, hg a (Finset.mem_cons_self a S),
      ih (fun i hi => hg i (Finset.mem_cons.2 (Or.inr hi))), addi_ofNat]
    congr 1
    omega

/-! ## The sum of a vector, and of each row of a rectangle -/

/-- A vector's indices are its positions. -/
def idxEquiv1 {C : ℕ} : (⟨1, ![C]⟩ : Shape).Idx ≃ Fin C where
  toFun i := i 0
  invFun := ix1
  left_inv i := (eq_ix1 i).symm
  right_inv _ := rfl

/-- A sum over a vector's indices is the sum over its positions. -/
theorem sum_idx1 {M : Type} [AddCommMonoid M] {C : ℕ} (f : (⟨1, ![C]⟩ : Shape).Idx → M) : ∑ i, f i = ∑ k : Fin C, f (ix1 k) := by
  rw [← Equiv.sum_comp (idxEquiv1 (C := C)).symm f]
  rfl

/-- The sum-reduction of a vector of C words to a scalar, from a zero initial value, when entry k is the word of F k:
    the word of the sum of F over the C positions. -/
theorem reduce_addi_all {C : ℕ} (x : IVec ⟨1, ![C]⟩ 32) (F : ℕ → ℕ) (hx : ∀ k : Fin C, x (ix1 k) = BitVec.ofNat 32 (F k.val))
    {u : Shape} (init : u.Idx → BitVec 32) (hu : 0 < u.numel) (hinit : init (Shape.Idx.first hu) = 0#32)
    (h : (⟨1, ![C]⟩ : Shape).ReducesTo [0] ⟨0, ![]⟩) (j : (⟨0, ![]⟩ : Shape).Idx) :
    Host.reduce IntOp.addi x init h hu j = BitVec.ofNat 32 (∑ k ∈ Finset.range C, F k) := by
  classical
  have hxi : ∀ i : (⟨1, ![C]⟩ : Shape).Idx, x i = BitVec.ofNat 32 (F (i 0).val) := fun i => by
    conv_lhs => rw [eq_ix1 i]
    exact hx (i 0)
  rw [Host.reduce_eq_fold, hinit, show (0#32 : BitVec 32) = BitVec.ofNat 32 0 from rfl,
    fold_addi_ofNat _ x (fun i => F (i 0).val) (fun i _ => hxi i) 0, Nat.zero_add]
  congr 1
  -- every index drops to the one scalar index
  rw [Finset.filter_true_of_mem (fun i _ => funext fun a => a.elim0), sum_idx1]
  exact Fin.sum_univ_eq_sum_range F C

/-- The same with the entries' own values. -/
theorem reduce_addi_all_toNat {C : ℕ} (x : IVec ⟨1, ![C]⟩ 32)
    {u : Shape} (init : u.Idx → BitVec 32) (hu : 0 < u.numel) (hinit : init (Shape.Idx.first hu) = 0#32)
    (h : (⟨1, ![C]⟩ : Shape).ReducesTo [0] ⟨0, ![]⟩) (j : (⟨0, ![]⟩ : Shape).Idx) :
    Host.reduce IntOp.addi x init h hu j = BitVec.ofNat 32 (∑ k : Fin C, (x (ix1 k)).toNat) := by
  rw [reduce_addi_all x (fun n => if hn : n < C then (x (ix1 ⟨n, hn⟩)).toNat else 0)
    (fun k => by rw [dif_pos k.isLt]; simp) init hu hinit h j, ← Fin.sum_univ_eq_sum_range]
  congr 1
  exact Finset.sum_congr rfl fun k _ => by rw [dif_pos k.isLt]

/-- The sum-reduction of an R × C rectangle of words along its second axis, from a zero initial value, at row r whose
    entry c is the word of F c: the word of the sum of F over the C columns. -/
theorem reduce_addi_rows {R C : ℕ} (x : IVec ⟨2, ![R, C]⟩ 32) (r : Fin R) (F : ℕ → ℕ)
    (hx : ∀ c : Fin C, x (ix2 r c) = BitVec.ofNat 32 (F c.val))
    {u : Shape} (init : u.Idx → BitVec 32) (hu : 0 < u.numel) (hinit : init (Shape.Idx.first hu) = 0#32)
    (h : (⟨2, ![R, C]⟩ : Shape).ReducesTo [1] ⟨1, ![R]⟩) :
    Host.reduce IntOp.addi x init h hu (ix1 r) = BitVec.ofNat 32 (∑ c ∈ Finset.range C, F c) := by
  classical
  -- the indices dropping to row r are those whose first coordinate is r
  have hdrop : ∀ i : (⟨2, ![R, C]⟩ : Shape).Idx, h.drop i = ix1 r ↔ i 0 = r := by
    intro i
    have hv : (h.drop i 0 : ℕ) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (⟨2, ![R, C]⟩ : Shape).Idx, i 0 = r → ix2 r (i 1) = i := fun i h0 => by
    rw [← h0]; exact (eq_ix2 i).symm
  have hxi : ∀ i : (⟨2, ![R, C]⟩ : Shape).Idx, i 0 = r → x i = BitVec.ofNat 32 (F (i 1).val) := fun i h0 => by
    conv_lhs => rw [← hback i h0]
    exact hx (i 1)
  rw [Host.reduce_eq_fold, hinit, show (0#32 : BitVec 32) = BitVec.ofNat 32 0 from rfl,
    fold_addi_ofNat _ x (fun i => F (i 1).val) (fun i hi => hxi i ((hdrop i).1 (Finset.mem_filter.1 hi).2)) 0, Nat.zero_add]
  congr 1
  rw [← Fin.sum_univ_eq_sum_range]
  exact Finset.sum_bij' (fun i _ => i 1) (fun c _ => ix2 r c) (fun _ _ => Finset.mem_univ _)
    (fun c _ => Finset.mem_filter.2 ⟨Finset.mem_univ _, (hdrop _).2 rfl⟩)
    (fun i hi => hback i ((hdrop i).1 (Finset.mem_filter.1 hi).2)) (fun _ _ => rfl) (fun _ _ => rfl)

/-- The same with the entries' own values. -/
theorem reduce_addi_rows_toNat {R C : ℕ} (x : IVec ⟨2, ![R, C]⟩ 32) (r : Fin R)
    {u : Shape} (init : u.Idx → BitVec 32) (hu : 0 < u.numel) (hinit : init (Shape.Idx.first hu) = 0#32)
    (h : (⟨2, ![R, C]⟩ : Shape).ReducesTo [1] ⟨1, ![R]⟩) :
    Host.reduce IntOp.addi x init h hu (ix1 r) = BitVec.ofNat 32 (∑ c : Fin C, (x (ix2 r c)).toNat) := by
  rw [reduce_addi_rows x r (fun n => if hn : n < C then (x (ix2 r ⟨n, hn⟩)).toNat else 0)
    (fun c => by rw [dif_pos c.isLt]; simp) init hu hinit h, ← Fin.sum_univ_eq_sum_range]
  congr 1
  exact Finset.sum_congr rfl fun c _ => by rw [dif_pos c.isLt]

/-! ## The running sum as a windowed reduction -/

/-- A vector index's one coordinate, whatever the axis is called. -/
theorem ix1_apply_val {n : ℕ} (k : Fin n) (a : Fin 1) : (ix1 k a).val = k.val := by
  match a with
  | ⟨0, _⟩ => rfl

/-- The inclusive running sum of C words written as a windowed sum: a window of C positions, stride one, padded P = C − 1
    low and nothing high, from a zero initial value. When entry k' is the word of F k', entry k of the result is the word
    of F 0 + … + F k. -/
theorem cumsum_apply {C P : ℕ} (hP : P + 1 = C) (x : IVec ⟨1, ![C]⟩ 32) (F : ℕ → ℕ)
    (hx : ∀ k : Fin C, x (ix1 k) = BitVec.ofNat 32 (F k.val))
    {u : Shape} (init : u.Idx → BitVec 32) (hu : 0 < u.numel) (hinit : init (Shape.Idx.first hu) = 0#32)
    (h : (⟨1, ![C]⟩ : Shape).ReduceWindows ![C] ![1] ![P] ![0] ⟨1, ![C]⟩) (k : Fin C) :
    Host.reduceWindow IntOp.addi ![C] ![1] ![P] ![0] x init h hu (ix1 k)
      = BitVec.ofNat 32 (∑ k' ∈ Finset.range (k.val + 1), F k') := by
  subst hP
  have hxi : ∀ i : (⟨1, ![P + 1]⟩ : Shape).Idx, x i = BitVec.ofNat 32 (F (i 0).val) := fun i => by
    conv_lhs => rw [eq_ix1 i]
    exact hx (i 0)
  simp only [Host.reduceWindow]
  rw [hinit, show (0#32 : BitVec 32) = BitVec.ofNat 32 0 from rfl]
  refine (foldl_addi_ofNat (List.finRange _) _
    (fun n => if P ≤ k.val + (((⟨1, ![P + 1]⟩ : Shape).rowMajor.symm n) 0).val
      then F (k.val + (((⟨1, ![P + 1]⟩ : Shape).rowMajor.symm n) 0).val - P) else 0) ?_ 0).trans ?_
  · intro n _
    have hc : ((((⟨1, ![P + 1]⟩ : Shape).rowMajor.symm n) 0).val) < P + 1 := (((⟨1, ![P + 1]⟩ : Shape).rowMajor.symm n) 0).isLt
    have hk : k.val < P + 1 := k.isLt
    split
    · -- the window position is inside the operand
      rename_i hin
      have h0 := hin 0
      simp only [Matrix.cons_val_zero, ix1_apply_val, mul_one] at h0
      rw [hxi, if_pos h0.1]
      simp only [Matrix.cons_val_zero, ix1_apply_val, mul_one]
    · -- the window position is in the low padding
      rename_i hin
      rw [if_neg]
      intro hle
      apply hin
      intro a
      have ha : a = 0 := Subsingleton.elim _ _
      subst ha
      simp only [Matrix.cons_val_zero, ix1_apply_val, mul_one]
      omega
  · congr 1
    rw [Nat.zero_add, ← Fin.sum_univ_def,
      Equiv.sum_comp (⟨1, ![P + 1]⟩ : Shape).rowMajor.symm
        (fun i : (⟨1, ![P + 1]⟩ : Shape).Idx => if P ≤ k.val + (i 0).val then F (k.val + (i 0).val - P) else 0),
      sum_idx1]
    show ∑ c : Fin (P + 1), (if P ≤ k.val + c.val then F (k.val + c.val - P) else 0) = _
    rw [Fin.sum_univ_eq_sum_range (fun c => if P ≤ k.val + c then F (k.val + c - P) else 0) (P + 1), ← Finset.sum_filter]
    have hk : k.val < P + 1 := k.isLt
    refine Finset.sum_nbij' (fun c => k.val + c - P) (fun k' => k' + P - k.val) ?_ ?_ ?_ ?_ ?_
    · intro c hc
      have := Finset.mem_filter.1 hc
      rw [Finset.mem_range] at this ⊢
      omega
    · intro k' hk'
      rw [Finset.mem_range] at hk'
      rw [Finset.mem_filter, Finset.mem_range]
      omega
    · intro c hc
      have := Finset.mem_filter.1 hc
      rw [Finset.mem_range] at this
      omega
    · intro k' hk'
      rw [Finset.mem_range] at hk'
      omega
    · intro c _
      rfl

/-! ## The argsort -/

/-- Whether the key at position k sorts strictly before the key at position k': signed less-than. -/
def keyBefore {N : ℕ} (x : IVec ⟨1, ![N]⟩ 32) (k k' : Fin N) : Bool := IntOp.cmpi .slt (x (ix1 k)) (x (ix1 k')) == 1#1

/-- The stable sorting permutation of the keys: the position whose key the sort puts at j. -/
def argsortPerm {N : ℕ} (x : IVec ⟨1, ![N]⟩ 32) : Fin N → Fin N := sortedFrom (keyBefore x)

/-- "Sorts strictly before" is the signed order of the keys. -/
theorem keyBefore_iff {N : ℕ} (x : IVec ⟨1, ![N]⟩ 32) (k k' : Fin N) :
    keyBefore x k k' = true ↔ (x (ix1 k)).toInt < (x (ix1 k')).toInt := by
  unfold keyBefore IntOp.cmpi
  simp only [beq_iff_eq, StableHlo.Predicate.ofBool_eq_one_iff, BitVec.slt, decide_eq_true_eq]

/-- It is a bijection of the positions. -/
theorem argsortPerm_bijective {N : ℕ} (x : IVec ⟨1, ![N]⟩ 32) : Function.Bijective (argsortPerm x) :=
  ⟨sortedFrom_injective _, sortedFrom_surjective _⟩

/-- The keys, read signed, do not decrease along it. -/
theorem argsortPerm_mono {N : ℕ} (x : IVec ⟨1, ![N]⟩ 32) {j j' : Fin N} (hjj : j ≤ j') :
    (x (ix1 (argsortPerm x j))).toInt ≤ (x (ix1 (argsortPerm x j'))).toInt := by
  rcases hjj.lt_or_eq with hlt | rfl
  · -- a later position's key does not sort strictly before an earlier one's
    have h : keyBefore x (argsortPerm x j') (argsortPerm x j) = false := by
      refine sortedFrom_noInversion (keyBefore x) (keyBefore x) ?_ (fun _ _ h => h) ?_ j j' hlt
      · intro a b hab
        rw [Bool.eq_false_iff]
        intro hba
        have h1 := (keyBefore_iff x a b).1 hab
        have h2 := (keyBefore_iff x b a).1 hba
        omega
      · intro a b c hab hbc
        rw [Bool.eq_false_iff] at hab hbc ⊢
        intro hac
        have h1 := mt (keyBefore_iff x a b).2 hab
        have h2 := mt (keyBefore_iff x b c).2 hbc
        have h3 := (keyBefore_iff x a c).1 hac
        omega
    have h' := mt (keyBefore_iff x (argsortPerm x j') (argsortPerm x j)).2 (Bool.eq_false_iff.1 h)
    omega
  · exact le_refl _

/-- The one axis of a vector. -/
abbrev ax0 (N : ℕ) : Fin (⟨1, ![N]⟩ : Shape).rank := ⟨0, Nat.one_pos⟩

/-- The fiber of a vector through any index is the vector: position k along the one axis. -/
theorem along_ix1 {N : ℕ} (j k : Fin N) (h : 0 < (⟨1, ![N]⟩ : Shape).rank) :
    (ix1 j).along (⟨0, h⟩ : Fin (⟨1, ![N]⟩ : Shape).rank) k = ix1 k := by
  funext d
  match d with
  | ⟨0, _⟩ => exact Function.update_self _ _ _

/-- A two-operand sort of vectors along their one axis whose comparator is "the first operand's entry is less, signed"
    reads both operands through the sorting permutation of the first: the first operand, -/
theorem sort2_fst_apply {N : ℕ} {β : Type} (cmp : BitVec 32 × β → BitVec 32 × β → BitVec 1)
    (hcmp : ∀ l r, cmp l r = IntOp.cmpi .slt l.1 r.1) (x : IVec ⟨1, ![N]⟩ 32) (y : (⟨1, ![N]⟩ : Shape).Idx → β) (j : Fin N) :
    (Host.sort2 ⟨1, ![N]⟩ 0 cmp x y).1 (ix1 j) = x (ix1 (argsortPerm x j)) := by
  have hB : (fun k k' : Fin N => cmp (x ((ix1 j).along (ax0 N) k), y ((ix1 j).along (ax0 N) k))
      (x ((ix1 j).along (ax0 N) k'), y ((ix1 j).along (ax0 N) k')) == 1#1) = keyBefore x := by
    funext k k'; rw [hcmp, along_ix1, along_ix1]; rfl
  show x ((ix1 j).along (ax0 N) (sortedFrom (fun k k' : Fin N => cmp (x ((ix1 j).along (ax0 N) k), y ((ix1 j).along (ax0 N) k))
      (x ((ix1 j).along (ax0 N) k'), y ((ix1 j).along (ax0 N) k')) == 1#1) j)) = _
  rw [hB]
  exact congrArg x (along_ix1 j (argsortPerm x j) Nat.one_pos)
/-- and the second. -/
theorem sort2_snd_apply {N : ℕ} {β : Type} (cmp : BitVec 32 × β → BitVec 32 × β → BitVec 1)
    (hcmp : ∀ l r, cmp l r = IntOp.cmpi .slt l.1 r.1) (x : IVec ⟨1, ![N]⟩ 32) (y : (⟨1, ![N]⟩ : Shape).Idx → β) (j : Fin N) :
    (Host.sort2 ⟨1, ![N]⟩ 0 cmp x y).2 (ix1 j) = y (ix1 (argsortPerm x j)) := by
  have hB : (fun k k' : Fin N => cmp (x ((ix1 j).along (ax0 N) k), y ((ix1 j).along (ax0 N) k))
      (x ((ix1 j).along (ax0 N) k'), y ((ix1 j).along (ax0 N) k')) == 1#1) = keyBefore x := by
    funext k k'; rw [hcmp, along_ix1, along_ix1]; rfl
  show y ((ix1 j).along (ax0 N) (sortedFrom (fun k k' : Fin N => cmp (x ((ix1 j).along (ax0 N) k), y ((ix1 j).along (ax0 N) k))
      (x ((ix1 j).along (ax0 N) k'), y ((ix1 j).along (ax0 N) k')) == 1#1) j)) = _
  rw [hB]
  exact congrArg y (along_ix1 j (argsortPerm x j) Nat.one_pos)
/-- With an iota as the second operand the second result is the permutation itself, as words: the argsort. -/
theorem argsort_apply {N : ℕ} (cmp : BitVec 32 × BitVec 32 → BitVec 32 × BitVec 32 → BitVec 1)
    (hcmp : ∀ l r, cmp l r = IntOp.cmpi .slt l.1 r.1) (x : IVec ⟨1, ![N]⟩ 32) (j : Fin N) :
    (Host.sort2 ⟨1, ![N]⟩ 0 cmp x (iotaInDim ⟨1, ![N]⟩ 32 0)).2 (ix1 j) = BitVec.ofNat 32 (argsortPerm x j).val := by
  rw [sort2_snd_apply cmp hcmp]
  rfl

-- From here on the permutation is known by the facts above only: it is never computed.
attribute [irreducible] argsortPerm

/-! ## Floor division of a non-negative word by a positive one -/

/-- The sign of a word as a two's-complement integer: 0, −1 or 1. -/
def signWord (a : BitVec 32) : BitVec 32 := if a = 0 then 0 else if a.msb then -1 else 1

/-- The integer sign of a vector, at an index. -/
theorem signi_apply {s : Shape} (x : IVec s 32) (i : s.Idx) : signi x i = signWord (x i) := rfl

/-- Floor division spelled with the truncating quotient q and remainder r: q − 1 when the signs differ and r ≠ 0, else q. -/
def floorDivWord (a d : BitVec 32) : BitVec 32 :=
  Scalar.select (IntOp.andi (IntOp.cmpi .ne (signWord a) (signWord d)) (IntOp.cmpi .ne (IntOp.remsi .host a d) 0#32))
    (IntOp.subi (IntOp.divsi .host a d) 1#32) (IntOp.divsi .host a d)

/-- For a non-negative dividend and a positive divisor it is the quotient of the values. -/
theorem floorDivWord_eq (a d : BitVec 32) (ha : a.toNat < 2 ^ 31) (hd0 : 0 < d.toNat) (hd : d.toNat < 2 ^ 31) :
    floorDivWord a d = BitVec.ofNat 32 (a.toNat / d.toNat) := by
  have hma : a.msb = false := BitVec.msb_eq_false_iff_two_mul_lt.mpr (by omega)
  have hmd : d.msb = false := BitVec.msb_eq_false_iff_two_mul_lt.mpr (by omega)
  have hd_ne : d ≠ 0 := by
    intro e; rw [e] at hd0; exact absurd hd0 (by decide)
  have hcorner : ¬ IntOp.SDivCorner a d := by
    intro hc
    rcases hc with hc | ⟨_, hc⟩
    · exact hd_ne hc
    · rw [hc] at hd; exact absurd hd (by decide)
  -- the truncating quotient of two non-negative words is the quotient of their values
  have hq : IntOp.divsi .host a d = BitVec.ofNat 32 (a.toNat / d.toNat) := by
    apply BitVec.eq_of_toNat_eq
    have hlt : a.toNat / d.toNat < 2 ^ 32 := lt_of_le_of_lt (Nat.div_le_self _ _) (by omega)
    simp only [IntOp.divsi, if_neg hcorner, BitVec.sdiv_eq, hma, hmd, BitVec.udiv_eq, BitVec.toNat_udiv, BitVec.toNat_ofNat]
    exact (Nat.mod_eq_of_lt hlt).symm
  -- the divisor's sign is 1
  have hsd : signWord d = 1#32 := by
    unfold signWord; rw [if_neg hd_ne, hmd]; rfl
  -- the condition is never set: a zero dividend leaves no remainder, a positive one has the divisor's sign
  have hcond : IntOp.andi (IntOp.cmpi .ne (signWord a) (signWord d)) (IntOp.cmpi .ne (IntOp.remsi .host a d) 0#32) = 0#1 := by
    by_cases ha0 : a = 0
    · have hr : IntOp.remsi .host a d = 0#32 := by
        subst ha0
        simp only [IntOp.remsi, if_neg hcorner, BitVec.srem_eq, hmd, hma]
        simp
      rw [hr]
      show (IntOp.cmpi .ne (signWord a) (signWord d)) &&& (BitVec.ofBool ((0#32 : BitVec 32) != 0#32)) = 0#1
      simp
    · have hsa : signWord a = 1#32 := by
        unfold signWord; rw [if_neg ha0, hma]; rfl
      rw [hsa, hsd]
      show (BitVec.ofBool ((1#32 : BitVec 32) != 1#32)) &&& _ = 0#1
      simp
  unfold floorDivWord
  rw [hcond, hq]
  exact select_zero _ _

/-- The vector form of that chain at an index, the divisor, the zero and the one being vectors with known entries. -/
theorem floorDiv_chain_apply {s : Shape} (a d sd zero one : IVec s 32) (i : s.Idx) (hsd : sd i = signWord (d i))
    (hz : zero i = 0#32) (ho : one i = 1#32) :
    select (andi (cmpi .ne (signi a) sd) (cmpi .ne (Host.remsi a d) zero)) (subi (Host.divsi a d) one) (Host.divsi a d) i
      = floorDivWord (a i) (d i) := by
  show Scalar.select (IntOp.andi (IntOp.cmpi .ne (signWord (a i)) (sd i)) (IntOp.cmpi .ne (IntOp.remsi .host (a i) (d i)) (zero i)))
    (IntOp.subi (IntOp.divsi .host (a i) (d i)) (one i)) (IntOp.divsi .host (a i) (d i)) = _
  rw [hsd, hz, ho]
  rfl

end Cert.Lib.SortCumsum
-- ==== Proof.KHostVectors.lean ====
/-
  The sixteen-entry vectors and the two tile tables that the host code computes before the region, read
  entry by entry as natural numbers: the per-label token counts, the starts of the labels' runs in sorted
  order, the counts rounded up to whole tiles, the starts of the padded runs, their total, and for each
  tile of 128 rows the label that owns it and whether it lies below the padded total.
-/
import proofs.«405730_j30700426232147_3_alg».proof.Proof.KLaunch
import proofs.«405730_j30700426232147_3_alg».proof.Proof.MoeSpec
import proofs.«405730_j30700426232147_3_alg».proof.Proof.MoeRouting
import proofs.«405730_j30700426232147_3_alg».proof.Proof.LibScatterFold
import proofs.«405730_j30700426232147_3_alg».proof.Proof.LibSortCumsum
import Idealize.ShloMosaic.Lib.Pipeline.Value
import Idealize.ShloMosaic.Lib.StableHlo.Predicate
import Idealize.ShloMosaic.Lib.ValueIdx

set_option maxRecDepth 4096

noncomputable section

namespace Cert.KernelIdeal.Hand

open Idealize.ShloMosaic Idealize.ShloMosaic.ValueIdx Idealize.ShloMosaic.TcCoe
open Idealize.SL.Sem
open Cert.Moe
open Idealize.ShloMosaic.StableHlo.Predicate (toInt_eq_toNat_of_lt)

variable {F : FTy → Type} [FloatOps F]

/-- The label words of the tokens, as core c holds them on entry. -/
abbrev labelsOf (m : (ℓ : Loc nD τ sig) → Buf (Elt F) ℓ) (c : Dev nD) : IVec S8192 32 :=
  m ((c.tc : Thread nD τ).loc main_arg1)

/-! ## The contents after each stretch of host operations -/

def W0 (m : (ℓ : Loc nD τ sig) → Buf (Elt F) ℓ) (c : Dev nD) : Valuation τ sig (Elt F) :=
  StableHlo.after Gen.hostOps0 (fun b => m (c, b))
def W1 (m : (ℓ : Loc nD τ sig) → Buf (Elt F) ℓ) (c : Dev nD) : Valuation τ sig (Elt F) :=
  StableHlo.after Gen.hostOps0_1 (W0 m c)
def W2 (m : (ℓ : Loc nD τ sig) → Buf (Elt F) ℓ) (c : Dev nD) : Valuation τ sig (Elt F) :=
  StableHlo.after Gen.hostOps0_2 (W1 m c)
def W3 (m : (ℓ : Loc nD τ sig) → Buf (Elt F) ℓ) (c : Dev nD) : Valuation τ sig (Elt F) :=
  StableHlo.after Gen.hostOps0_3 (W2 m c)
def W4 (m : (ℓ : Loc nD τ sig) → Buf (Elt F) ℓ) (c : Dev nD) : Valuation τ sig (Elt F) :=
  StableHlo.after Gen.hostOps0_4 (W3 m c)
def W5 (m : (ℓ : Loc nD τ sig) → Buf (Elt F) ℓ) (c : Dev nD) : Valuation τ sig (Elt F) :=
  StableHlo.after Gen.hostOps0_5 (W4 m c)
def W6 (m : (ℓ : Loc nD τ sig) → Buf (Elt F) ℓ) (c : Dev nD) : Valuation τ sig (Elt F) :=
  StableHlo.after Gen.hostOps0_6 (W5 m c)
def W7 (m : (ℓ : Loc nD τ sig) → Buf (Elt F) ℓ) (c : Dev nD) : Valuation τ sig (Elt F) :=
  StableHlo.after Gen.hostOps0_7 (W6 m c)

theorem V₀_eq_W7 (m : (ℓ : Loc nD τ sig) → Buf (Elt F) ℓ) (c : Dev nD) : V₀ m c = W7 m c := by
  unfold V₀ W7 W6 W5 W4 W3 W2 W1 W0
  simp only [opssBefore, List.flatten_cons, List.flatten_nil, List.append_nil, StableHlo.after_append]

/-- Reads the goal's buffer through one stretch of host operations: each operation's result at its own buffer is its
    function's value, and any other buffer keeps what it held. -/
macro "read_host " W:ident ops:ident : tactic =>
  `(tactic| (unfold $W; simp only [$ops:ident]; after_results))

/-! ## Words and layouts read at one place -/

/-- The wrap-around of a negative index (add the extent to a negative word) leaves a word below 2^31 alone. -/
theorem wrap_id (w n : BitVec 32) (hw : w.toNat < 2 ^ 31) :
    Scalar.select (IntOp.cmpi .slt w 0#32) (IntOp.addi w n) w = w := by
  have e := Cert.Lib.SortCumsum.select_neg_wrap w.toNat hw n
  simpa only [BitVec.ofNat_toNat, BitVec.setWidth_eq] using e

/-- A vector laid out as a one-column matrix, read at row p. -/
theorem col_apply {α : Type} {n : ℕ} (hb : (⟨1, ![n]⟩ : Shape).BroadcastsInDim ⟨2, ![n, 1]⟩ ![0])
    (v : (⟨1, ![n]⟩ : Shape).Idx → α) (p : Fin n) :
    broadcastInDim ⟨2, ![n, 1]⟩ ![0] hb v (ix2 p (0 : Fin 1)) = v (ix1 p) := by
  refine broadcastInDim_apply ![0] hb v _ (ix1 p) ?_
  intro a
  match a with
  | ⟨0, _⟩ =>
    show p.val = if n = 1 then 0 else p.val
    split
    · have := p.isLt; omega
    · rfl

/-- The column of normalised index words, read at row p, is the word itself when that is below 2^31. -/
theorem norm_col_apply {n : ℕ} (hb : (⟨1, ![n]⟩ : Shape).BroadcastsInDim ⟨2, ![n, 1]⟩ ![0])
    (L Z Wr : IVec ⟨1, ![n]⟩ 32) (p : Fin n) (hZ : Z (ix1 p) = 0#32) (hL : (L (ix1 p)).toNat < 2 ^ 31) :
    broadcastInDim ⟨2, ![n, 1]⟩ ![0] hb (select (cmpi .slt L Z) (addi L Wr) L) (ix2 p (0 : Fin 1)) = L (ix1 p) := by
  rw [col_apply]
  show Scalar.select (IntOp.cmpi .slt (L (ix1 p)) (Z (ix1 p))) (IntOp.addi (L (ix1 p)) (Wr (ix1 p))) (L (ix1 p)) = _
  rw [hZ]
  exact wrap_id _ _ hL

/-- The running sums of a sixteen-entry vector, moved one place up with a zero in front: entry k is the sum of the
    entries before k. -/
theorem shifted_cumsum_apply (x : IVec S16 32) (Fn : ℕ → ℕ) (hx : ∀ k : Fin 16, x (ix1 k) = BitVec.ofNat 32 (Fn k.val))
    (z : IVec S1 32) (hz : z (ix1 (0 : Fin 1)) = 0#32)
    {u : Shape} (init : u.Idx → BitVec 32) (hu : 0 < u.numel) (hinit : init (Shape.Idx.first hu) = 0#32)
    (hw : S16.ReduceWindows (![16] : Fin 1 → Nat) ![1] ![15] ![0] S16) (hs : S16.Slices ![0] S15)
    (hc : Shape.Concatenates [S1, S15] S16 0) (k : Fin 16) :
    concatenate S16 0 [⟨S1, z⟩, ⟨S15, extractStridedSlice S15 ![0]
        (Host.reduceWindow IntOp.addi ![16] ![1] ![15] ![0] x init hw hu) hs⟩] hc (ix1 k)
      = BitVec.ofNat 32 (∑ k' ∈ Finset.range k.val, Fn k') := by
  by_cases hk : k.val = 0
  · -- the entry in front is the zero
    have hk0 : k = 0 := Fin.ext hk
    subst hk0
    rw [concatenate_pair_apply_left (0 : Fin S16.rank) z _ hc (ix1 (0 : Fin 16)) rfl (ix1 (0 : Fin 1))
      (fun b => match b with | ⟨0, _⟩ => rfl), hz]
    rfl
  · -- entry k + 1 is the running sum up to k
    have hk15 : k.val - 1 < 15 := by have := k.isLt; omega
    have hk16 : k.val - 1 < 16 := by omega
    rw [concatenate_pair_apply_right (0 : Fin S16.rank) z _ hc (ix1 k) rfl rfl (ix1 (⟨k.val - 1, hk15⟩ : Fin 15))
      (fun b hb => match b, hb with | ⟨0, _⟩, hb => absurd rfl hb)
      (by show k.val - 1 + 1 = k.val; omega),
      extractStridedSlice_apply ![0] _ hs (ix1 (⟨k.val - 1, hk15⟩ : Fin 15)) (ix1 (⟨k.val - 1, hk16⟩ : Fin 16))
        (fun a => match a with | ⟨0, _⟩ => by show k.val - 1 = 0 + (k.val - 1); omega),
      Cert.Lib.SortCumsum.cumsum_apply (by norm_num) x Fn hx init hu hinit hw ⟨k.val - 1, hk16⟩]
    refine congrArg (BitVec.ofNat 32) ?_
    show ∑ k' ∈ Finset.range (k.val - 1 + 1), Fn k' = _
    rw [Nat.sub_add_cancel (Nat.one_le_iff_ne_zero.mpr hk)]

set_option pp.maxSteps 20000
set_option pp.deepTerms false

/-! ## The contents read stretch by stretch -/

theorem W0_arg1 (m : (ℓ : Loc nD τ sig) → Buf (Elt F) ℓ) (c : Dev nD) :
    (W0 m c (Proc.devRef .tc main_arg1) : IVec S8192 32) = labelsOf m c := by
  unfold W0
  simp only [Gen.hostOps0]
  after_results

theorem counts_W1 (m : (ℓ : Loc nD τ sig) → Buf (Elt F) ℓ) (c : Dev nD) (h : InRange (labelsOf m c)) (k : Fin 16) :
    (W1 m c (Proc.devRef .tc main_v16) : IVec S16 32) (ix1 k)
      = BitVec.ofNat 32 (Routing.cnt (expertOf (labelsOf m c)) k.val) := by
  unfold W1
  simp only [Gen.hostOps0_1]
  after_results
  rw [W0_arg1]
  refine (Cert.Moe.Lib.scatter_count_add _ rfl rfl rfl rfl _ _ _ (fun _ => rfl) k).trans ?_
  rw [show broadcastInDim S16 ![] Gen.bcast_S_S16 (constantI S_ 32 0#32) (ix1 k) = 0#32 from rfl, BitVec.zero_add]
  refine congrArg (BitVec.ofNat 32) ?_
  unfold Routing.cnt
  refine congrArg Finset.card ?_
  refine Finset.filter_congr (fun n _ => ?_)
  have hn : ((labelsOf m c) (ix1 n)).toNat < 16 := h n
  rw [norm_col_apply Gen.bcast_S8192_S8192x1_0 _ _ _ n rfl (by omega), toInt_eq_toNat_of_lt (by omega), expertOf_val h n]
  exact Nat.cast_inj

theorem W2_v16 (m : (ℓ : Loc nD τ sig) → Buf (Elt F) ℓ) (c : Dev nD) :
    W2 m c (Proc.devRef .tc main_v16) = W1 m c (Proc.devRef .tc main_v16) := by
  read_host W2 Gen.hostOps0_2

theorem W2_v17 (m : (ℓ : Loc nD τ sig) → Buf (Elt F) ℓ) (c : Dev nD) :
    W2 m c (Proc.devRef .tc main_v17) = W1 m c (Proc.devRef .tc main_v17) := by
  read_host W2 Gen.hostOps0_2

theorem W1_v17 (m : (ℓ : Loc nD τ sig) → Buf (Elt F) ℓ) (c : Dev nD) :
    (W1 m c (Proc.devRef .tc main_v17) : IVec S1 32) = broadcastInDim S1 ![] Gen.bcast_S_S1 (constantI S_ 32 0#32) := by
  read_host W1 Gen.hostOps0_1

theorem W2_v18 (m : (ℓ : Loc nD τ sig) → Buf (Elt F) ℓ) (c : Dev nD) :
    (W2 m c (Proc.devRef .tc main_v18) : IVec S16 32)
      = Host.reduceWindow IntOp.addi ![16] ![1] ![15] ![0] (W1 m c (Proc.devRef .tc main_v16) : IVec S16 32)
          (broadcastInDim S_ ![] Gen.bcast_S_S_ (constantI S_ 32 0#32)) Gen.reduceWindows_S16_S16_w16s1p15_0 Gen.h_S_ := by
  read_host W2 Gen.hostOps0_2
  simp only [StableHlo.TRef.ofBuf, StableHlo.TRef.toBuf, cast_eq]

theorem realStart_W3 (m : (ℓ : Loc nD τ sig) → Buf (Elt F) ℓ) (c : Dev nD) (h : InRange (labelsOf m c)) (k : Fin 16) :
    (W3 m c (Proc.devRef .tc main_v20) : IVec S16 32) (ix1 k)
      = BitVec.ofNat 32 (Routing.rstart (expertOf (labelsOf m c)) k.val) := by
  read_host W3 Gen.hostOps0_3
  rw [W2_v17, W2_v18, W1_v17]
  exact shifted_cumsum_apply _ _ (counts_W1 m c h) _ rfl _ _ rfl _ _ _ k

/-! ### Towards the padded counts -/

theorem cnt_le (e : Fin 8192 → Fin 16) (k : ℕ) : Routing.cnt e k ≤ 8192 := by
  unfold Routing.cnt
  exact (Finset.card_filter_le _ _).trans_eq (by rw [Finset.card_univ, Fintype.card_fin])

theorem v24_W3 (m : (ℓ : Loc nD τ sig) → Buf (Elt F) ℓ) (c : Dev nD) (h : InRange (labelsOf m c)) (k : Fin 16) :
    (W3 m c (Proc.devRef .tc main_v24) : IVec S16 32) (ix1 k)
      = BitVec.ofNat 32 (Routing.cnt (expertOf (labelsOf m c)) k.val + 127) := by
  read_host W3 Gen.hostOps0_3
  rw [W2_v16]
  show IntOp.subi (IntOp.addi ((W1 m c (Proc.devRef .tc main_v16) : IVec S16 32) (ix1 k)) (BitVec.ofNat 32 128)) (BitVec.ofNat 32 1) = _
  rw [counts_W1 m c h k, Cert.Lib.SortCumsum.addi_ofNat, Cert.Lib.SortCumsum.subi_ofNat _ _ (by omega)]
  exact congrArg (BitVec.ofNat 32) (by omega)

theorem c8_W3 (m : (ℓ : Loc nD τ sig) → Buf (Elt F) ℓ) (c : Dev nD) :
    (W3 m c (Proc.devRef .tc main_c_8) : IVec S_ 32) = constantI S_ 32 128#32 := by
  read_host W3 Gen.hostOps0_3

/-! ### The padded counts -/

theorem v25_W4 (m : (ℓ : Loc nD τ sig) → Buf (Elt F) ℓ) (c : Dev nD) (h : InRange (labelsOf m c)) (k : Fin 16) :
    (W4 m c (Proc.devRef .tc main_v25) : IVec S16 32) (ix1 k)
      = BitVec.ofNat 32 ((Routing.cnt (expertOf (labelsOf m c)) k.val + 127) / 128) := by
  read_host W4 Gen.hostOps0_4
  simp only [StableHlo.TRef.ofBuf, StableHlo.TRef.toBuf, cast_eq]
  rw [Cert.Lib.SortCumsum.floorDiv_chain_apply _ _ _ _ _ (ix1 k) rfl rfl rfl]
  have hd : (broadcastInDim S16 ![] Gen.bcast_S_S16 (id (W3 m c (Proc.devRef .tc main_c_8) : IVec S_ 32))) (ix1 k)
      = BitVec.ofNat 32 128 := by rw [c8_W3]; rfl
  have hc := cnt_le (expertOf (labelsOf m c)) k.val
  have ht : (BitVec.ofNat 32 (Routing.cnt (expertOf (labelsOf m c)) k.val + 127)).toNat
      = Routing.cnt (expertOf (labelsOf m c)) k.val + 127 := Cert.Lib.SortCumsum.toNat_ofNat_lt _ (by omega)
  have hd128 : (BitVec.ofNat 32 128).toNat = 128 := rfl
  rw [v24_W3 m c h k, hd,
    Cert.Lib.SortCumsum.floorDivWord_eq _ _ (by rw [ht]; omega) (by rw [hd128]; omega) (by rw [hd128]; omega), ht, hd128]

theorem paddedCounts_W5 (m : (ℓ : Loc nD τ sig) → Buf (Elt F) ℓ) (c : Dev nD) (h : InRange (labelsOf m c)) (k : Fin 16) :
    (W5 m c (Proc.devRef .tc main_v27) : IVec S16 32) (ix1 k)
      = BitVec.ofNat 32 (Routing.pcnt 128 (expertOf (labelsOf m c)) k.val) := by
  read_host W5 Gen.hostOps0_5
  show IntOp.muli ((W4 m c (Proc.devRef .tc main_v25) : IVec S16 32) (ix1 k)) (BitVec.ofNat 32 128) = _
  rw [v25_W4 m c h k, Cert.Lib.SortCumsum.muli_ofNat]
  rfl

theorem W6_v27 (m : (ℓ : Loc nD τ sig) → Buf (Elt F) ℓ) (c : Dev nD) :
    W6 m c (Proc.devRef .tc main_v27) = W5 m c (Proc.devRef .tc main_v27) := by
  read_host W6 Gen.hostOps0_6
theorem W7_v27 (m : (ℓ : Loc nD τ sig) → Buf (Elt F) ℓ) (c : Dev nD) :
    W7 m c (Proc.devRef .tc main_v27) = W6 m c (Proc.devRef .tc main_v27) := by
  read_host W7 Gen.hostOps0_7

/-! ### Buffers the later stretches leave alone -/

theorem W3_v16 (m : (ℓ : Loc nD τ sig) → Buf (Elt F) ℓ) (c : Dev nD) :
    W3 m c (Proc.devRef .tc main_v16) = W2 m c (Proc.devRef .tc main_v16) := by
  read_host W3 Gen.hostOps0_3
theorem W4_v16 (m : (ℓ : Loc nD τ sig) → Buf (Elt F) ℓ) (c : Dev nD) :
    W4 m c (Proc.devRef .tc main_v16) = W3 m c (Proc.devRef .tc main_v16) := by
  read_host W4 Gen.hostOps0_4
theorem W5_v16 (m : (ℓ : Loc nD τ sig) → Buf (Elt F) ℓ) (c : Dev nD) :
    W5 m c (Proc.devRef .tc main_v16) = W4 m c (Proc.devRef .tc main_v16) := by
  read_host W5 Gen.hostOps0_5
theorem W6_v16 (m : (ℓ : Loc nD τ sig) → Buf (Elt F) ℓ) (c : Dev nD) :
    W6 m c (Proc.devRef .tc main_v16) = W5 m c (Proc.devRef .tc main_v16) := by
  read_host W6 Gen.hostOps0_6
theorem W7_v16 (m : (ℓ : Loc nD τ sig) → Buf (Elt F) ℓ) (c : Dev nD) :
    W7 m c (Proc.devRef .tc main_v16) = W6 m c (Proc.devRef .tc main_v16) := by
  read_host W7 Gen.hostOps0_7

theorem W4_v20 (m : (ℓ : Loc nD τ sig) → Buf (Elt F) ℓ) (c : Dev nD) :
    W4 m c (Proc.devRef .tc main_v20) = W3 m c (Proc.devRef .tc main_v20) := by
  read_host W4 Gen.hostOps0_4
theorem W5_v20 (m : (ℓ : Loc nD τ sig) → Buf (Elt F) ℓ) (c : Dev nD) :
    W5 m c (Proc.devRef .tc main_v20) = W4 m c (Proc.devRef .tc main_v20) := by
  read_host W5 Gen.hostOps0_5
theorem W6_v20 (m : (ℓ : Loc nD τ sig) → Buf (Elt F) ℓ) (c : Dev nD) :
    W6 m c (Proc.devRef .tc main_v20) = W5 m c (Proc.devRef .tc main_v20) := by
  read_host W6 Gen.hostOps0_6
theorem W7_v20 (m : (ℓ : Loc nD τ sig) → Buf (Elt F) ℓ) (c : Dev nD) :
    W7 m c (Proc.devRef .tc main_v20) = W6 m c (Proc.devRef .tc main_v20) := by
  read_host W7 Gen.hostOps0_7

/-! ## The statements -/

/-- Entry k of the counts: how many tokens carry label k. -/
theorem counts_apply (m : (ℓ : Loc nD τ sig) → Buf (Elt F) ℓ) (c : Dev nD) (h : InRange (labelsOf m c)) (k : Fin 16) :
    (V₀ m c (Proc.devRef .tc main_v16) : IVec S16 32) (ix1 k)
      = BitVec.ofNat 32 (Routing.cnt (expertOf (labelsOf m c)) k.val) := by
  rw [V₀_eq_W7, W7_v16, W6_v16, W5_v16, W4_v16, W3_v16, W2_v16]
  exact counts_W1 m c h k

/-- Entry k of the run starts: how many tokens carry a smaller label. -/
theorem realStart_apply (m : (ℓ : Loc nD τ sig) → Buf (Elt F) ℓ) (c : Dev nD) (h : InRange (labelsOf m c)) (k : Fin 16) :
    (V₀ m c (Proc.devRef .tc main_v20) : IVec S16 32) (ix1 k)
      = BitVec.ofNat 32 (Routing.rstart (expertOf (labelsOf m c)) k.val) := by
  rw [V₀_eq_W7, W7_v20, W6_v20, W5_v20, W4_v20]
  exact realStart_W3 m c h k

/-- Entry k of the padded counts: the count rounded up to a multiple of 128. -/
theorem paddedCounts_apply (m : (ℓ : Loc nD τ sig) → Buf (Elt F) ℓ) (c : Dev nD) (h : InRange (labelsOf m c)) (k : Fin 16) :
    (V₀ m c (Proc.devRef .tc main_v27) : IVec S16 32) (ix1 k)
      = BitVec.ofNat 32 (Routing.pcnt 128 (expertOf (labelsOf m c)) k.val) := by
  rw [V₀_eq_W7, W7_v27, W6_v27]
  exact paddedCounts_W5 m c h k

end Cert.KernelIdeal.Hand

end
-- ==== Proof.LibCarry.lean ====
/-
  A buffer that no operation of a stretch of host operations writes holds after the stretch what it held before it.
  `keep_host ops` closes a goal `StableHlo.after ops V b = V b` (also when the left side is an abbreviation for it) for a
  literal list `ops` and a literal buffer `b`: it unfolds the list, reads off what each operation writes, and tells each
  written buffer from `b` by deciding that the two references differ.
-/
import Idealize.ShloMosaic.Lib.StableHlo.Run

open Idealize.ShloMosaic

/-- `keep_host ops`: the stretch `ops` does not write the goal's buffer. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.KHostPadded.lean ====
/-
  The starts of the padded runs and their total, read out of the host operations that run before the region.

  Label k's count rounded up to a multiple of 128 is pcnt k. The host lays the padded runs end to end: run k begins at
  pstart k, the sum of the padded counts of the labels before k, which it computes as the running sums of the padded
  counts moved one place up with a zero in front; all of them end at ptotal, the sum of all sixteen padded counts.
-/
import proofs.«405730_j30700426232147_3_alg».proof.Proof.KLaunch
import proofs.«405730_j30700426232147_3_alg».proof.Proof.KHostVectors
import proofs.«405730_j30700426232147_3_alg».proof.Proof.MoeSpec
import proofs.«405730_j30700426232147_3_alg».proof.Proof.MoeRouting
import proofs.«405730_j30700426232147_3_alg».proof.Proof.LibSortCumsum
import proofs.«405730_j30700426232147_3_alg».proof.Proof.LibCarry

set_option maxRecDepth 4096

noncomputable section

namespace Cert.KernelIdeal.Hand

open Idealize.ShloMosaic Idealize.ShloMosaic.TcCoe Idealize.ShloMosaic.ValueIdx Idealize.ShloMosaic.StableHlo
open Cert.Moe Cert.Lib.SortCumsum

variable {F : FTy → Type} [FloatOps F]

/-! ## One-step readings of the stretches

Each buffer is written once, so after a stretch it holds its operation's function of what the operands held before the
stretch when the stretch does not write them. -/

theorem pad_s5_v28 (X : Valuation τ sig (Elt F)) :
    (after Gen.hostOps0_5 X (Proc.devRef .tc main_v28) : IVec S1 32)
      = broadcastInDim S1 ![] Gen.bcast_S_S1 (constantI S_ 32 0#32) := by
  simp only [Gen.hostOps0_5]
  after_results_simp

theorem pad_s6_v29 (X : Valuation τ sig (Elt F)) :
    (after Gen.hostOps0_6 X (Proc.devRef .tc main_v29) : IVec S16 32)
      = Host.reduceWindow IntOp.addi ![16] ![1] ![15] ![0] (X (Proc.devRef .tc main_v27) : IVec S16 32)
          (broadcastInDim S_ ![] Gen.bcast_S_S_ (constantI S_ 32 0#32)) Gen.reduceWindows_S16_S16_w16s1p15_0 Gen.h_S_ := by
  simp only [Gen.hostOps0_6]
  after_results_simp
  simp only [StableHlo.TRef.ofBuf, StableHlo.TRef.toBuf, cast_eq, id_eq]

set_option maxHeartbeats 4000000 in
theorem pad_s7_v31 (X : Valuation τ sig (Elt F)) :
    (after Gen.hostOps0_7 X (Proc.devRef .tc main_v31) : IVec S16 32)
      = concatenate S16 0 [⟨S1, (X (Proc.devRef .tc main_v28) : IVec S1 32)⟩,
          ⟨S15, extractStridedSlice S15 ![0] (X (Proc.devRef .tc main_v29) : IVec S16 32) Gen.slices_S16_S15_0⟩]
          Gen.concatenates_S1_S15_S16_d0 := by
  simp only [Gen.hostOps0_7]
  after_results_simp
  rfl

set_option maxHeartbeats 4000000 in
theorem pad_s7_v32 (X : Valuation τ sig (Elt F)) :
    (after Gen.hostOps0_7 X (Proc.devRef .tc main_v32) : IVec S_ 32)
      = Host.reduce IntOp.addi (X (Proc.devRef .tc main_v27) : IVec S16 32) (constantI S_ 32 0#32)
          Gen.reducesTo_S16_S_d0 Gen.h_S_ := by
  simp only [Gen.hostOps0_7]
  after_results_simp

/-! ## Buffers the later stretches leave alone, and the two that stretch 5 and 6 write -/

section Keeps
variable (m : (ℓ : Loc nD τ sig) → Buf (Elt F) ℓ) (c : Dev nD)

theorem pad_W6_v27 : W6 m c (Proc.devRef .tc main_v27) = W5 m c (Proc.devRef .tc main_v27) := by
  unfold W6
  keep_host Gen.hostOps0_6

theorem pad_W7_v27 : W7 m c (Proc.devRef .tc main_v27) = W6 m c (Proc.devRef .tc main_v27) := by
  unfold W7
  keep_host Gen.hostOps0_7

theorem pad_W6_v28 : W6 m c (Proc.devRef .tc main_v28) = W5 m c (Proc.devRef .tc main_v28) := by
  unfold W6
  keep_host Gen.hostOps0_6

/-- The one-entry vector put in front of the running sums is the zero. -/
theorem pad_W5_v28 :
    (W5 m c (Proc.devRef .tc main_v28) : IVec S1 32) = broadcastInDim S1 ![] Gen.bcast_S_S1 (constantI S_ 32 0#32) := by
  unfold W5
  exact pad_s5_v28 _

/-- The running sums of the padded counts. -/
theorem pad_W6_v29 :
    (W6 m c (Proc.devRef .tc main_v29) : IVec S16 32)
      = Host.reduceWindow IntOp.addi ![16] ![1] ![15] ![0] (W5 m c (Proc.devRef .tc main_v27) : IVec S16 32)
          (broadcastInDim S_ ![] Gen.bcast_S_S_ (constantI S_ 32 0#32)) Gen.reduceWindows_S16_S16_w16s1p15_0 Gen.h_S_ := by
  unfold W6
  exact pad_s6_v29 _

end Keeps

/-! ## The statements -/

/-- Entry k of the padded run starts: the sum of the padded counts of the labels before k. -/
theorem paddedStart_apply (m : (ℓ : Loc nD τ sig) → Buf (Elt F) ℓ) (c : Dev nD) (h : InRange (labelsOf m c)) (k : Fin 16) :
    (V₀ m c (Proc.devRef .tc main_v31) : IVec S16 32) (ix1 k)
      = BitVec.ofNat 32 (Routing.pstart 128 (expertOf (labelsOf m c)) k.val) := by
  have hx : ∀ k : Fin 16, (W5 m c (Proc.devRef .tc main_v27) : IVec S16 32) (ix1 k)
      = BitVec.ofNat 32 (Routing.pcnt 128 (expertOf (labelsOf m c)) k.val) := fun k => by
    rw [← pad_W6_v27, ← pad_W7_v27, ← V₀_eq_W7]
    exact paddedCounts_apply m c h k
  rw [V₀_eq_W7]
  unfold W7
  rw [pad_s7_v31, pad_W6_v29]
  exact shifted_cumsum_apply _ (fun k => Routing.pcnt 128 (expertOf (labelsOf m c)) k) hx _
    (by rw [pad_W6_v28, pad_W5_v28]; rfl) _ Gen.h_S_ rfl _ _ _ k

/-- The padded total: the sum of the sixteen padded counts. -/
theorem paddedTotal_apply (m : (ℓ : Loc nD τ sig) → Buf (Elt F) ℓ) (c : Dev nD) (h : InRange (labelsOf m c)) :
    (V₀ m c (Proc.devRef .tc main_v32) : IVec S_ 32) ValueIdx.ix0
      = BitVec.ofNat 32 (Routing.ptotal 128 (expertOf (labelsOf m c))) := by
  have hx : ∀ k : Fin 16, (W6 m c (Proc.devRef .tc main_v27) : IVec S16 32) (ix1 k)
      = BitVec.ofNat 32 (Routing.pcnt 128 (expertOf (labelsOf m c)) k.val) := fun k => by
    rw [← pad_W7_v27, ← V₀_eq_W7]
    exact paddedCounts_apply m c h k
  rw [V₀_eq_W7]
  unfold W7
  rw [pad_s7_v32]
  exact reduce_addi_all _ (fun k => Routing.pcnt 128 (expertOf (labelsOf m c)) k) hx _ Gen.h_S_ rfl _ _

end Cert.KernelIdeal.Hand

end
-- ==== Proof.LibGather.lean ====
/-
  Two layouts of the host's gather read at an index, at generic extents.
  `gather_vec_apply` — a [C] vector indexed by an [N, 1] column of 32-bit words (`x[idx]`: no offset axis, the
  operand's one axis collapsed and named by the start index, the index vector on axis 1): entry `r` of the result
  is the operand at the word `idx (r, 0)`, read signed and clamped into `[0, C - 1]`.
  `gather_along_apply` — an [N, C] matrix indexed along its last axis, row by row, by an [N, 1, 1] array of words
  (`take_along_axis (x, idx[:, None], axis = -1)`: axis 0 a batching axis of operand and indices, axis 1 collapsed
  and named by the start index, the index vector on axis 2): entry `(r, 0)` of the result is the operand at row
  `r` and the column `idx (r, 0, 0)`, read signed and clamped into `[0, C - 1]`.
-/
import Idealize.ShloMosaic.PureOps.ShapeOps
import Idealize.ShloMosaic.Lib.ValueIdx

noncomputable section

namespace Cert.LibGather

open Idealize.ShloMosaic Idealize.ShloMosaic.ValueIdx

/-- The dimension numbers of the vector layout (operand `[C]`, start indices `[N, 1]`, result `[N]`). -/
private abbrev vecDims (C N : ℕ)
    (wf : GatherDims.WF (⟨1, ![C]⟩ : Shape) (⟨2, ![N, 1]⟩ : Shape) (⟨1, ![N]⟩ : Shape) [] [0] [] [0] [] 1 ![1]) :
    GatherDims (⟨1, ![C]⟩ : Shape) (⟨2, ![N, 1]⟩ : Shape) (⟨1, ![N]⟩ : Shape) :=
  ⟨[], [0], [], [], [0], 1, ![1], wf⟩

/-- The dimension numbers of the row-by-row layout (operand `[N, C]`, start indices `[N, 1, 1]`, result
    `[N, 1]`). -/
private abbrev alongDims (C N : ℕ)
    (wf : GatherDims.WF (⟨2, ![N, C]⟩ : Shape) (⟨3, ![N, 1, 1]⟩ : Shape) (⟨2, ![N, 1]⟩ : Shape) [] [1] [0] [1] [0] 2
      ![1, 1]) :
    GatherDims (⟨2, ![N, C]⟩ : Shape) (⟨3, ![N, 1, 1]⟩ : Shape) (⟨2, ![N, 1]⟩ : Shape) :=
  ⟨[], [1], [0], [0], [1], 2, ![1, 1], wf⟩

/-- A vector indexed by a column of words. With no offset axis, the operand's one axis collapsed and named by the
    start index map, and the index vector on axis 1 of the `[N, 1]` start indices, entry `r` of the gather is the
    operand at the word `idx (r, 0)`, read as a signed integer and clamped into `[0, C - 1]` (the slice size is 1,
    so the clamp's upper end is `C - 1`). -/
theorem gather_vec_apply {α : Type} {C N : ℕ} (hC : 0 < C)
    (d : GatherDims (⟨1, ![C]⟩ : Shape) (⟨2, ![N, 1]⟩ : Shape) (⟨1, ![N]⟩ : Shape))
    (hod : d.offsetDims = []) (hcs : d.collapsedSliceDims = [0]) (hob : d.operandBatchingDims = [])
    (hsb : d.startIndicesBatchingDims = []) (hsim : d.startIndexMap = [0]) (hiv : d.indexVectorDim = 1)
    (hss : d.sliceSizes = ![1])
    (x : (⟨1, ![C]⟩ : Shape).Idx → α) (idx : IVec (⟨2, ![N, 1]⟩ : Shape) 32) (r : Fin N) :
    Host.gather d x idx (ix1 r)
      = x (ix1 ⟨min (idx (ix2 r (0 : Fin 1))).toInt.toNat (C - 1), by omega⟩) := by
  obtain ⟨od, cs, ob, sb, sim, iv, ss, wf⟩ := d
  dsimp only at hod hcs hob hsb hsim hiv hss
  subst hod hcs hob hsb hsim hiv hss
  unfold Host.gather
  congr 1
  funext a
  obtain rfl : a = 0 := Subsingleton.elim _ _
  refine Fin.ext ?_
  show (vecDims C N wf).start (ix1 r) idx 0 + (vecDims C N wf).batchCoord (ix1 r) 0
    + (vecDims C N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims C N wf).startIndexMap from List.mem_singleton.mpr rfl)]
  have hsi : ∀ c, (vecDims C N wf).siIdx (ix1 r) c = ix2 r (0 : Fin 1) := by
    intro c
    funext b; refine Fin.ext ?_
    match b with
    | ⟨0, _⟩ => rfl
    | ⟨1, _⟩ => exact Nat.lt_one_iff.mp c.isLt
  rw [hsi]
  rfl

/-- A matrix indexed along its last axis row by row. Axis 0 is a batching axis of operand and start indices (its
    start is 0 and its coordinate is the result's row `r`), axis 1 is collapsed and named by the start index map, and
    the index vector is on axis 2 of the `[N, 1, 1]` start indices: entry `(r, 0)` of the gather is the operand at
    row `r` and the column `idx (r, 0, 0)`, read as a signed integer and clamped into `[0, C - 1]`. -/
theorem gather_along_apply {α : Type} {C N : ℕ} (hC : 0 < C)
    (d : GatherDims (⟨2, ![N, C]⟩ : Shape) (⟨3, ![N, 1, 1]⟩ : Shape) (⟨2, ![N, 1]⟩ : Shape))
    (hod : d.offsetDims = []) (hcs : d.collapsedSliceDims = [1]) (hob : d.operandBatchingDims = [0])
    (hsb : d.startIndicesBatchingDims = [0]) (hsim : d.startIndexMap = [1]) (hiv : d.indexVectorDim = 2)
    (hss : d.sliceSizes = ![1, 1])
    (x : (⟨2, ![N, C]⟩ : Shape).Idx → α) (idx : IVec (⟨3, ![N, 1, 1]⟩ : Shape) 32) (r : Fin N) :
    Host.gather d x idx (ix2 r (0 : Fin 1))
      = x (ix2 r ⟨min (idx (ix3 r (0 : Fin 1) (0 : Fin 1))).toInt.toNat (C - 1), by omega⟩) := by
  obtain ⟨od, cs, ob, sb, sim, iv, ss, wf⟩ := d
  dsimp only at hod hcs hob hsb hsim hiv hss
  subst hod hcs hob hsb hsim hiv hss
  unfold Host.gather
  congr 1
  funext a
  refine Fin.ext ?_
  match a with
  | ⟨0, _⟩ =>
    show (alongDims C N wf).start (ix2 r (0 : Fin 1)) idx 0 + (alongDims C N wf).batchCoord (ix2 r (0 : Fin 1)) 0
      + (alongDims C N wf).offCoord (ix2 r (0 : Fin 1)) 0 = r.val
    have hb : (0 : Fin 2) ∈ (alongDims C N wf).operandBatchingDims := List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    show (alongDims C N wf).start (ix2 r (0 : Fin 1)) idx 1 + (alongDims C N wf).batchCoord (ix2 r (0 : Fin 1)) 1
      + (alongDims C N wf).offCoord (ix2 r (0 : Fin 1)) 1 = min (idx (ix3 r (0 : Fin 1) (0 : Fin 1))).toInt.toNat (C - 1)
    have hnb : (1 : Fin 2) ∉ (alongDims C N wf).operandBatchingDims :=
      fun h => Nat.one_ne_zero (congrArg Fin.val (List.mem_singleton.mp h))
    have hc : (1 : Fin 2) ∈ (alongDims C N wf).collapsedSliceDims := List.mem_singleton.mpr rfl
    have hm : (1 : Fin 2) ∈ (alongDims C N wf).startIndexMap := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : ∀ c, (alongDims C N wf).siIdx (ix2 r (0 : Fin 1)) c = ix3 r (0 : Fin 1) (0 : Fin 1) := by
      intro c
      funext b; refine Fin.ext ?_
      match b with
      | ⟨0, _⟩ => rfl
      | ⟨1, _⟩ => rfl
      | ⟨2, _⟩ => exact Nat.lt_one_iff.mp c.isLt
    rw [hsi]
    rfl

end Cert.LibGather

end
-- ==== Proof.KHostRows.lean ====
/-
  The sort, the destination rows and the padded matrix, read out of the host operations that run before the region.

  Tokens n < 8192 carry labels e n < 16. The host sorts the tokens by label (a stable sort, giving a bijection σ of the
  positions along which the labels do not decrease), sends the token at sorted position j to the row
  slot j = pstart (e (σ j)) + (j - rstart (e (σ j))) of a padded matrix of 10240 rows, and records for every token n
  its row P n = slot (σ⁻¹ n). The rows are pairwise distinct and below 10240, so row P n of the padded matrix is row n
  of the input, and the tile of 128 rows that holds row P n is labelled e n and lies below the padded total.
-/
import proofs.«405730_j30700426232147_3_alg».proof.Proof.KLaunch
import proofs.«405730_j30700426232147_3_alg».proof.Proof.KHostVectors
import proofs.«405730_j30700426232147_3_alg».proof.Proof.KHostPadded
import proofs.«405730_j30700426232147_3_alg».proof.Proof.MoeSpec
import proofs.«405730_j30700426232147_3_alg».proof.Proof.MoeRouting
import proofs.«405730_j30700426232147_3_alg».proof.Proof.LibScatterFold
import proofs.«405730_j30700426232147_3_alg».proof.Proof.LibSortCumsum
import proofs.«405730_j30700426232147_3_alg».proof.Proof.LibGather
import proofs.«405730_j30700426232147_3_alg».proof.Proof.LibCarry

set_option maxRecDepth 4096

noncomputable section

namespace Cert.KernelIdeal.Hand

open Idealize.ShloMosaic Idealize.ShloMosaic.TcCoe Idealize.ShloMosaic.ValueIdx Idealize.ShloMosaic.StableHlo
open Cert.Moe Cert.Lib.SortCumsum Cert.Moe.Lib Cert.LibGather

variable {F : FTy → Type} [FloatOps F]

/-- The label words of the tokens, as the program's second argument holds them at launch. -/
abbrev labels (m : (ℓ : Loc nD τ sig) → Buf (Elt F) ℓ) (c : Dev nD) : IVec ⟨1, ![8192]⟩ 32 :=
  m (c, Proc.devRef .tc main_arg1)

/-! ## Reading at an index: a column broadcast, the index normalisation, a gather at in-range words -/

/-- A vector laid as a one-column matrix reads, at row j, the vector at j. -/
theorem bcast_col_apply {α : Type} {n : ℕ} (h : (⟨1, ![n]⟩ : Shape).BroadcastsInDim ⟨2, ![n, 1]⟩ ![0])
    (v : (⟨1, ![n]⟩ : Shape).Idx → α) (j : Fin n) :
    broadcastInDim ⟨2, ![n, 1]⟩ ![0] h v (ix2 j (0 : Fin 1)) = v (ix1 j) := by
  simp only [broadcastInDim]
  congr 1
  funext a
  obtain rfl : a = 0 := Subsingleton.elim _ _
  apply Fin.ext
  have hj := j.isLt
  split
  · next h1 => change n = 1 at h1; show (0 : ℕ) = j.val; omega
  · rfl

/-- "Add the extent when negative" leaves a word that is a natural number below 2³¹ alone. -/
theorem wrap_apply {s : Shape} (hb : S_.BroadcastsInDim s ![]) (ext : BitVec 32) (v : IVec s 32) (i : s.Idx)
    (a : ℕ) (ha : a < 2 ^ 31) (hv : v i = BitVec.ofNat 32 a) :
    select (cmpi .slt v (broadcastInDim s ![] hb (constantI S_ 32 0#32)))
      (addi v (broadcastInDim s ![] hb (constantI S_ 32 ext))) v i = BitVec.ofNat 32 a := by
  show Scalar.select (IntOp.cmpi .slt (v i) 0#32) (IntOp.addi (v i) ext) (v i) = _
  rw [hv]
  exact select_neg_wrap a ha ext

/-- The column of start indices the program forms before every gather and scatter of 8192 positions: "add the extent when
    negative", then the vector as one column. -/
def idxCol (ext : BitVec 32) (v : IVec S8192 32) : IVec S8192x1 32 :=
  broadcastInDim S8192x1 ![0] Gen.bcast_S8192_S8192x1_0
    (select (cmpi .slt v (broadcastInDim S8192 ![] Gen.bcast_S_S8192 (constantI S_ 32 0#32)))
      (addi v (broadcastInDim S8192 ![] Gen.bcast_S_S8192 (constantI S_ 32 ext))) v)

/-- Where the vector holds a natural number below 2³¹, so does the column. -/
theorem idxCol_apply (ext : BitVec 32) (v : IVec S8192 32) (j : Fin 8192) (a : ℕ) (ha : a < 2 ^ 31)
    (hv : v (ix1 j) = BitVec.ofNat 32 a) : idxCol ext v (ix2 j (0 : Fin 1)) = BitVec.ofNat 32 a := by
  unfold idxCol
  rw [bcast_col_apply]
  exact wrap_apply _ ext v (ix1 j) a ha hv

/-- The same, read as a signed integer. -/
theorem idxCol_toInt (ext : BitVec 32) (v : IVec S8192 32) (j : Fin 8192) (a : ℕ) (ha : a < 2 ^ 31)
    (hv : v (ix1 j) = BitVec.ofNat 32 a) : (idxCol ext v (ix2 j (0 : Fin 1))).toInt = (a : ℤ) := by
  rw [idxCol_apply ext v j a ha hv, StableHlo.Predicate.toInt_ofNat_small a ha]

/-- A vector gathered at a column of words: where the word is a position of the vector, the entry there. -/
theorem gather_vec_at {α : Type} {C N : ℕ} (hC : 0 < C) (hC' : C ≤ 2 ^ 31)
    (d : GatherDims (⟨1, ![C]⟩ : Shape) (⟨2, ![N, 1]⟩ : Shape) (⟨1, ![N]⟩ : Shape))
    (hod : d.offsetDims = []) (hcs : d.collapsedSliceDims = [0]) (hob : d.operandBatchingDims = [])
    (hsb : d.startIndicesBatchingDims = []) (hsim : d.startIndexMap = [0]) (hiv : d.indexVectorDim = 1)
    (hss : d.sliceSizes = ![1])
    (x : (⟨1, ![C]⟩ : Shape).Idx → α) (idx : IVec (⟨2, ![N, 1]⟩ : Shape) 32) (r : Fin N) (k : Fin C)
    (hk : idx (ix2 r (0 : Fin 1)) = BitVec.ofNat 32 k.val) :
    Host.gather d x idx (ix1 r) = x (ix1 k) := by
  rw [gather_vec_apply hC d hod hcs hob hsb hsim hiv hss x idx r]
  congr 2
  apply Fin.ext
  show min (idx (ix2 r (0 : Fin 1))).toInt.toNat (C - 1) = k.val
  have hk' := k.isLt
  rw [hk, StableHlo.Predicate.toInt_ofNat_small k.val (by omega), Int.toNat_natCast]
  omega

/-! ## One-step readings of the stretches

Each buffer is written once, so after a stretch it holds its operation's function of what the operands hold after
the same stretch; an operand the stretch does not write holds what it held before. -/

theorem s0_v0 (X : Valuation τ sig (Elt F)) :
    (after Gen.hostOps0 X (Proc.devRef .tc main_v0) : IVec S8192 32)
      = (Host.sort2 S8192 0 comparator_i32_i32_d0 (X (Proc.devRef .tc main_arg1)) (iotaInDim S8192 32 0)).2 := by
  simp only [Gen.hostOps0]
  after_results
  rfl

theorem s1_v7 (X : Valuation τ sig (Elt F)) :
    (after Gen.hostOps0_1 X (Proc.devRef .tc main_v7) : IVec S8192 32)
      = Host.gather gather_S8192_S8192x1_S8192_n_0_n_n_0_1_1 (X (Proc.devRef .tc main_arg1) : IVec S8192 32)
          (idxCol 8192#32 (X (Proc.devRef .tc main_v0) : IVec S8192 32)) := by
  simp only [Gen.hostOps0_1, idxCol]
  after_results_simp

set_option maxHeartbeats 4000000 in
theorem s7_v40 (X : Valuation τ sig (Elt F)) :
    (after Gen.hostOps0_7 X (Proc.devRef .tc main_v40) : IVec S8192 32)
      = Host.gather gather_S16_S8192x1_S8192_n_0_n_n_0_1_1 (after Gen.hostOps0_7 X (Proc.devRef .tc main_v31) : IVec S16 32)
          (idxCol 16#32 (X (Proc.devRef .tc main_v7) : IVec S8192 32)) := by
  simp only [Gen.hostOps0_7, idxCol]
  after_results_simp

set_option maxHeartbeats 4000000 in
theorem s7_v47 (X : Valuation τ sig (Elt F)) :
    (after Gen.hostOps0_7 X (Proc.devRef .tc main_v47) : IVec S8192 32)
      = Host.gather gather_S16_S8192x1_S8192_n_0_n_n_0_1_1 (X (Proc.devRef .tc main_v20) : IVec S16 32)
          (idxCol 16#32 (X (Proc.devRef .tc main_v7) : IVec S8192 32)) := by
  simp only [Gen.hostOps0_7, idxCol]
  after_results_simp

set_option maxHeartbeats 4000000 in
theorem s7_v49 (X : Valuation τ sig (Elt F)) :
    (after Gen.hostOps0_7 X (Proc.devRef .tc main_v49) : IVec S8192 32)
      = addi (after Gen.hostOps0_7 X (Proc.devRef .tc main_v40) : IVec S8192 32)
          (subi (iotaInDim S8192 32 0) (after Gen.hostOps0_7 X (Proc.devRef .tc main_v47) : IVec S8192 32)) := by
  simp only [Gen.hostOps0_7, idxCol]
  after_results_simp

set_option maxHeartbeats 4000000 in
theorem s7_v57 (X : Valuation τ sig (Elt F)) :
    (after Gen.hostOps0_7 X (Proc.devRef .tc main_v57) : IVec S8192 32)
      = Host.scatter scatter_S8192_S8192x1_S8192_n_0_0_1 (fun _ b => b)
          (broadcastInDim S8192 ![] Gen.bcast_S_S8192 (constantI S_ 32 0#32))
          (idxCol 8192#32 (X (Proc.devRef .tc main_v0) : IVec S8192 32))
          (after Gen.hostOps0_7 X (Proc.devRef .tc main_v49) : IVec S8192 32) := by
  simp only [Gen.hostOps0_7, idxCol]
  after_results_simp

set_option maxHeartbeats 4000000 in
theorem s7_v58 (X : Valuation τ sig (Elt F)) :
    (after Gen.hostOps0_7 X (Proc.devRef .tc main_v58) : FVec F S8192x1024 .bf16)
      = truncf .bf16 (X (Proc.devRef .tc main_arg0) : FVec F S8192x1024 .f32) Gen.bitsLt_bf16_f32 := by
  simp only [Gen.hostOps0_7, idxCol]
  after_results_simp

set_option maxHeartbeats 4000000 in
theorem s7_v66 (X : Valuation τ sig (Elt F)) :
    (after Gen.hostOps0_7 X (Proc.devRef .tc main_v66) : FVec F S10240x1024 .bf16)
      = Host.scatter scatter_S10240x1024_S8192x1_S8192x1024_1_0_0_1 (fun _ b => b)
          (broadcastInDim S10240x1024 ![] Gen.bcast_S_S10240x1024 (constant S_ .bf16 0x0000#16))
          (idxCol 10240#32 (after Gen.hostOps0_7 X (Proc.devRef .tc main_v57) : IVec S8192 32))
          (after Gen.hostOps0_7 X (Proc.devRef .tc main_v58) : FVec F S8192x1024 .bf16) := by
  simp only [Gen.hostOps0_7, idxCol]
  after_results_simp

set_option maxHeartbeats 4000000 in
theorem s7_v83 (X : Valuation τ sig (Elt F)) :
    (after Gen.hostOps0_7 X (Proc.devRef .tc main_v83) : FVec F S16x1024x1024 .bf16)
      = truncf .bf16 (X (Proc.devRef .tc main_arg2) : FVec F S16x1024x1024 .f32) Gen.bitsLt_bf16_f32 := by
  simp only [Gen.hostOps0_7, idxCol]
  after_results_simp

set_option maxHeartbeats 4000000 in
theorem s7_v84 (X : Valuation τ sig (Elt F)) :
    (after Gen.hostOps0_7 X (Proc.devRef .tc main_v84) : FVec F S16x1x1024 .f32)
      = shapeCast S16x1x1024 (X (Proc.devRef .tc main_arg3) : FVec F S16x1024 .f32) Gen.shapeCasts_S16x1024_S16x1x1024 := by
  simp only [Gen.hostOps0_7, idxCol]
  after_results_simp
  rfl

/-! ## Buffers the later stretches leave alone -/

section Values
variable (m : (ℓ : Loc nD τ sig) → Buf (Elt F) ℓ) (c : Dev nD)

theorem W7_def : W7 m c = after Gen.hostOps0_7 (W6 m c) := rfl

theorem W0_labels : (W0 m c (Proc.devRef .tc main_arg1) : IVec S8192 32) = labels m c := by
  unfold W0 labels
  keep_host Gen.hostOps0

theorem W1_v0 : W1 m c (Proc.devRef .tc main_v0) = W0 m c (Proc.devRef .tc main_v0) := by
  unfold W1
  keep_host Gen.hostOps0_1

theorem W6_v0 : W6 m c (Proc.devRef .tc main_v0) = W0 m c (Proc.devRef .tc main_v0) := by
  unfold W6 W5 W4 W3 W2 W1
  refine Eq.trans (by keep_host Gen.hostOps0_6) ?_
  refine Eq.trans (by keep_host Gen.hostOps0_5) ?_
  refine Eq.trans (by keep_host Gen.hostOps0_4) ?_
  refine Eq.trans (by keep_host Gen.hostOps0_3) ?_
  refine Eq.trans (by keep_host Gen.hostOps0_2) ?_
  keep_host Gen.hostOps0_1

theorem W6_v7 : W6 m c (Proc.devRef .tc main_v7) = W1 m c (Proc.devRef .tc main_v7) := by
  unfold W6 W5 W4 W3 W2
  refine Eq.trans (by keep_host Gen.hostOps0_6) ?_
  refine Eq.trans (by keep_host Gen.hostOps0_5) ?_
  refine Eq.trans (by keep_host Gen.hostOps0_4) ?_
  refine Eq.trans (by keep_host Gen.hostOps0_3) ?_
  keep_host Gen.hostOps0_2

theorem W7_keep_v20 : W7 m c (Proc.devRef .tc main_v20) = W6 m c (Proc.devRef .tc main_v20) := by
  unfold W7
  keep_host Gen.hostOps0_7

theorem W6_arg0 : W6 m c (Proc.devRef .tc main_arg0) = m (c, Proc.devRef .tc main_arg0) := by
  unfold W6 W5 W4 W3 W2 W1 W0
  refine Eq.trans (by keep_host Gen.hostOps0_6) ?_
  refine Eq.trans (by keep_host Gen.hostOps0_5) ?_
  refine Eq.trans (by keep_host Gen.hostOps0_4) ?_
  refine Eq.trans (by keep_host Gen.hostOps0_3) ?_
  refine Eq.trans (by keep_host Gen.hostOps0_2) ?_
  refine Eq.trans (by keep_host Gen.hostOps0_1) ?_
  keep_host Gen.hostOps0

theorem W6_arg2 : W6 m c (Proc.devRef .tc main_arg2) = m (c, Proc.devRef .tc main_arg2) := by
  unfold W6 W5 W4 W3 W2 W1 W0
  refine Eq.trans (by keep_host Gen.hostOps0_6) ?_
  refine Eq.trans (by keep_host Gen.hostOps0_5) ?_
  refine Eq.trans (by keep_host Gen.hostOps0_4) ?_
  refine Eq.trans (by keep_host Gen.hostOps0_3) ?_
  refine Eq.trans (by keep_host Gen.hostOps0_2) ?_
  refine Eq.trans (by keep_host Gen.hostOps0_1) ?_
  keep_host Gen.hostOps0

theorem W6_arg3 : W6 m c (Proc.devRef .tc main_arg3) = m (c, Proc.devRef .tc main_arg3) := by
  unfold W6 W5 W4 W3 W2 W1 W0
  refine Eq.trans (by keep_host Gen.hostOps0_6) ?_
  refine Eq.trans (by keep_host Gen.hostOps0_5) ?_
  refine Eq.trans (by keep_host Gen.hostOps0_4) ?_
  refine Eq.trans (by keep_host Gen.hostOps0_3) ?_
  refine Eq.trans (by keep_host Gen.hostOps0_2) ?_
  refine Eq.trans (by keep_host Gen.hostOps0_1) ?_
  keep_host Gen.hostOps0

/-! ## The sort -/

/-- The sorting permutation of the labels: the token at sorted position j. -/
abbrev sortPerm : Fin 8192 → Fin 8192 := argsortPerm (labels m c)

/-- The argsort holds the permutation, as words. -/
theorem sortIdx_apply (j : Fin 8192) :
    (W0 m c (Proc.devRef .tc main_v0) : IVec S8192 32) (ix1 j) = BitVec.ofNat 32 (sortPerm m c j).val := by
  unfold W0
  rw [s0_v0]
  exact argsort_apply comparator_i32_i32_d0 (fun _ _ => rfl) (labels m c) j

/-- The labels in sorted order. -/
theorem sortedLabel_apply (j : Fin 8192) :
    (W1 m c (Proc.devRef .tc main_v7) : IVec S8192 32) (ix1 j) = labels m c (ix1 (sortPerm m c j)) := by
  unfold W1
  rw [s1_v7, W0_labels]
  refine gather_vec_at (by norm_num) (by norm_num) _ rfl rfl rfl rfl rfl rfl rfl _ _ j (sortPerm m c j) ?_
  exact idxCol_apply _ _ j _ (lt_trans (sortPerm m c j).isLt (by norm_num)) (sortIdx_apply m c j)

variable (h : InRange (labels m c))
include h

/-- A label word is the word of its label. -/
theorem label_eq (n : Fin 8192) : labels m c (ix1 n) = BitVec.ofNat 32 (expertOf (labels m c) n).val := by
  rw [expertOf_val h n]
  apply BitVec.eq_of_toNat_eq
  rw [BitVec.toNat_ofNat, Nat.mod_eq_of_lt (BitVec.isLt _)]

/-- Along the sort the labels do not decrease. -/
theorem sort_mono (j j' : Fin 8192) (hjj : j ≤ j') :
    expertOf (labels m c) (sortPerm m c j) ≤ expertOf (labels m c) (sortPerm m c j') := by
  have hm := argsortPerm_mono (labels m c) hjj
  have h1 := h (sortPerm m c j)
  have h2 := h (sortPerm m c j')
  rw [StableHlo.Predicate.toInt_eq_toNat_of_lt (lt_trans h1 (by norm_num)),
    StableHlo.Predicate.toInt_eq_toNat_of_lt (lt_trans h2 (by norm_num))] at hm
  rw [Fin.le_def, expertOf_val h, expertOf_val h]
  exact_mod_cast hm

/-- The column of label words that indexes the two sixteen-entry vectors. -/
theorem labelCol_apply (j : Fin 8192) :
    idxCol 16#32 (W6 m c (Proc.devRef .tc main_v7) : IVec S8192 32) (ix2 j (0 : Fin 1))
      = BitVec.ofNat 32 (expertOf (labels m c) (sortPerm m c j)).val := by
  refine idxCol_apply _ _ j _ (lt_trans (expertOf (labels m c) (sortPerm m c j)).isLt (by norm_num)) ?_
  rw [W6_v7, sortedLabel_apply]
  exact label_eq m c h _

/-! ## The rows in sorted order -/

/-- The start of the padded run of the label at sorted position j. -/
theorem paddedStartSorted_apply
    (hps : ∀ k : Fin 16, (W7 m c (Proc.devRef .tc main_v31) : IVec S16 32) (ix1 k)
      = BitVec.ofNat 32 (Routing.pstart 128 (expertOf (labels m c)) k.val)) (j : Fin 8192) :
    (W7 m c (Proc.devRef .tc main_v40) : IVec S8192 32) (ix1 j)
      = BitVec.ofNat 32 (Routing.pstart 128 (expertOf (labels m c)) (expertOf (labels m c) (sortPerm m c j)).val) := by
  rw [W7_def, s7_v40, ← W7_def]
  rw [gather_vec_at (by norm_num) (by norm_num) _ rfl rfl rfl rfl rfl rfl rfl _ _ j
    (expertOf (labels m c) (sortPerm m c j)) (labelCol_apply m c h j)]
  exact hps _

/-- The start of the run, in sorted order, of the label at sorted position j. -/
theorem realStartSorted_apply
    (hrs : ∀ k : Fin 16, (W6 m c (Proc.devRef .tc main_v20) : IVec S16 32) (ix1 k)
      = BitVec.ofNat 32 (Routing.rstart (expertOf (labels m c)) k.val)) (j : Fin 8192) :
    (W7 m c (Proc.devRef .tc main_v47) : IVec S8192 32) (ix1 j)
      = BitVec.ofNat 32 (Routing.rstart (expertOf (labels m c)) (expertOf (labels m c) (sortPerm m c j)).val) := by
  rw [W7_def, s7_v47]
  rw [gather_vec_at (by norm_num) (by norm_num) _ rfl rfl rfl rfl rfl rfl rfl _ _ j
    (expertOf (labels m c) (sortPerm m c j)) (labelCol_apply m c h j)]
  exact hrs _

/-- The row of the token at sorted position j. -/
theorem slotSorted_apply
    (hrs : ∀ k : Fin 16, (W6 m c (Proc.devRef .tc main_v20) : IVec S16 32) (ix1 k)
      = BitVec.ofNat 32 (Routing.rstart (expertOf (labels m c)) k.val))
    (hps : ∀ k : Fin 16, (W7 m c (Proc.devRef .tc main_v31) : IVec S16 32) (ix1 k)
      = BitVec.ofNat 32 (Routing.pstart 128 (expertOf (labels m c)) k.val)) (j : Fin 8192) :
    (W7 m c (Proc.devRef .tc main_v49) : IVec S8192 32) (ix1 j)
      = BitVec.ofNat 32 (Routing.slot 128 (expertOf (labels m c)) (sortPerm m c) j) := by
  rw [W7_def, s7_v49, ← W7_def]
  show IntOp.addi ((W7 m c (Proc.devRef .tc main_v40) : IVec S8192 32) (ix1 j))
    (IntOp.subi (BitVec.ofNat 32 j.val) ((W7 m c (Proc.devRef .tc main_v47) : IVec S8192 32) (ix1 j))) = _
  rw [paddedStartSorted_apply m c h hps j, realStartSorted_apply m c h hrs j]
  rw [subi_ofNat _ _ (Routing.rstart_le (argsortPerm_bijective (labels m c)) (sort_mono m c h) j), addi_ofNat]
  rfl

end Values

/-! ## The row table and the padded matrix -/

section Rows
variable (m : (ℓ : Loc nD τ sig) → Buf (Elt F) ℓ) (c : Dev nD)

/-- The column of sort positions that indexes the row table, read signed. -/
theorem sortCol_toInt (n : Fin 8192) :
    (idxCol 8192#32 (W6 m c (Proc.devRef .tc main_v0) : IVec S8192 32) (ix2 n (0 : Fin 1))).toInt
      = ((sortPerm m c n).val : ℤ) :=
  idxCol_toInt _ _ n _ (lt_trans (sortPerm m c n).isLt (by norm_num)) (by rw [W6_v0]; exact sortIdx_apply m c n)

/-- The sorted position of token n: the inverse of the sort. -/
def sortInv : Fin 8192 → Fin 8192 := (Equiv.ofBijective _ (argsortPerm_bijective (labels m c))).symm

theorem sortPerm_sortInv (n : Fin 8192) : sortPerm m c (sortInv m c n) = n :=
  Equiv.ofBijective_apply_symm_apply _ (argsortPerm_bijective (labels m c)) n

theorem sortInv_injective : Function.Injective (sortInv m c) :=
  (Equiv.ofBijective _ (argsortPerm_bijective (labels m c))).symm.injective

/-- The row of token n: the row of its sorted position. -/
def rowOf (n : Fin 8192) : ℕ := Routing.slot 128 (expertOf (labels m c)) (sortPerm m c) (sortInv m c n)

variable (h : InRange (labels m c))
include h

theorem rowOf_lt (n : Fin 8192) : rowOf m c n < 10240 :=
  lt_of_lt_of_le
    (Routing.slot_lt_ptotal (by norm_num) (argsortPerm_bijective (labels m c)) (sort_mono m c h) (sortInv m c n))
    (Routing.ptotal_le_10240 _)

theorem rowOf_injective : Function.Injective (rowOf m c) := fun n n' hnn =>
  sortInv_injective m c
    (Routing.slot_injective (by norm_num) (argsortPerm_bijective (labels m c)) (sort_mono m c h) hnn)

variable
    (hrs : ∀ k : Fin 16, (W6 m c (Proc.devRef .tc main_v20) : IVec S16 32) (ix1 k)
      = BitVec.ofNat 32 (Routing.rstart (expertOf (labels m c)) k.val))
    (hps : ∀ k : Fin 16, (W7 m c (Proc.devRef .tc main_v31) : IVec S16 32) (ix1 k)
      = BitVec.ofNat 32 (Routing.pstart 128 (expertOf (labels m c)) k.val))
include hrs hps

/-- The row table at the token of sorted position j holds that position's row: the sort is injective, so no other
    position writes there. -/
theorem pos_sorted_apply (j : Fin 8192) :
    (W7 m c (Proc.devRef .tc main_v57) : IVec S8192 32) (ix1 (sortPerm m c j))
      = BitVec.ofNat 32 (Routing.slot 128 (expertOf (labels m c)) (sortPerm m c) j) := by
  rw [W7_def, s7_v57, ← W7_def]
  refine (scatter_set_vec_of_injOn _ rfl rfl rfl rfl _ _ _ ?_ j (sortPerm m c j) (sortCol_toInt m c j)).trans
    (slotSorted_apply m c h hrs hps j)
  intro n n' _ _ hzz
  rw [sortCol_toInt, sortCol_toInt] at hzz
  exact (argsortPerm_bijective (labels m c)).injective (Fin.ext (by exact_mod_cast hzz))

/-- The row table at token n holds the token's row. -/
theorem pos_apply (n : Fin 8192) :
    (W7 m c (Proc.devRef .tc main_v57) : IVec S8192 32) (ix1 n) = BitVec.ofNat 32 (rowOf m c n) := by
  have e := pos_sorted_apply m c h hrs hps (sortInv m c n)
  rw [sortPerm_sortInv] at e
  exact e

/-- The column of rows that indexes the padded matrix, read signed. -/
theorem rowCol_toInt (n : Fin 8192) :
    (idxCol 10240#32 (W7 m c (Proc.devRef .tc main_v57) : IVec S8192 32) (ix2 n (0 : Fin 1))).toInt
      = (rowOf m c n : ℤ) :=
  idxCol_toInt _ _ n _ (lt_trans (rowOf_lt m c h n) (by norm_num)) (pos_apply m c h hrs hps n)

/-- Row P n of the padded matrix is row n of the narrowed input: the rows are pairwise distinct, so no other token
    writes there. -/
theorem xpad_apply (n : Fin 8192) (r : Fin 10240) (k : Fin 1024) (hr : r.val = rowOf m c n) :
    (W7 m c (Proc.devRef .tc main_v66) : FVec F S10240x1024 .bf16) (ix2 r k)
      = (W7 m c (Proc.devRef .tc main_v58) : FVec F S8192x1024 .bf16) (ix2 n k) := by
  rw [W7_def, s7_v66, ← W7_def]
  refine scatter_set_rows_of_injOn _ rfl rfl rfl rfl _ _ _ ?_ n r ?_ k
  · intro n n' _ _ hzz
    rw [rowCol_toInt m c h hrs hps, rowCol_toInt m c h hrs hps] at hzz
    exact rowOf_injective m c h (by exact_mod_cast hzz)
  · rw [rowCol_toInt m c h hrs hps, hr]

end Rows

/-! ## The statements -/

/-- The destination rows, given the two sixteen-entry vectors of run starts. -/
theorem rows_of (m : (ℓ : Loc nD τ sig) → Buf (Elt F) ℓ) (c : Dev nD) (h : InRange (labels m c))
    (hrs : ∀ k : Fin 16, (V₀ m c (Proc.devRef .tc main_v20) : IVec S16 32) (ix1 k)
      = BitVec.ofNat 32 (Routing.rstart (expertOf (labels m c)) k.val))
    (hps : ∀ k : Fin 16, (V₀ m c (Proc.devRef .tc main_v31) : IVec S16 32) (ix1 k)
      = BitVec.ofNat 32 (Routing.pstart 128 (expertOf (labels m c)) k.val)) :
    ∃ P : Fin 8192 → ℕ, (∀ n, P n < 10240) ∧ Function.Injective P
      ∧ (∀ n : Fin 8192, (V₀ m c (Proc.devRef .tc main_v57) : IVec ⟨1, ![8192]⟩ 32) (ix1 n) = BitVec.ofNat 32 (P n))
      ∧ (∀ (n : Fin 8192) (r : Fin 10240) (k : Fin 1024), r.val = P n →
          (V₀ m c (Proc.devRef .tc main_v66) : FVec F ⟨2, ![10240, 1024]⟩ .bf16) (ix2 r k)
            = (V₀ m c (Proc.devRef .tc main_v58) : FVec F ⟨2, ![8192, 1024]⟩ .bf16) (ix2 n k))
      ∧ (∀ n, Routing.texp 128 (expertOf (labels m c)) (P n / 128) = (expertOf (labels m c) n).val)
      ∧ (∀ n, 128 * (P n / 128) < Routing.ptotal 128 (expertOf (labels m c))) := by
  have hrs' : ∀ k : Fin 16, (W6 m c (Proc.devRef .tc main_v20) : IVec S16 32) (ix1 k)
      = BitVec.ofNat 32 (Routing.rstart (expertOf (labels m c)) k.val) := fun k => by
    rw [← W7_keep_v20, ← V₀_eq_W7]; exact hrs k
  have hps' : ∀ k : Fin 16, (W7 m c (Proc.devRef .tc main_v31) : IVec S16 32) (ix1 k)
      = BitVec.ofNat 32 (Routing.pstart 128 (expertOf (labels m c)) k.val) := fun k => by
    rw [← V₀_eq_W7]; exact hps k
  refine ⟨rowOf m c, rowOf_lt m c h, rowOf_injective m c h, ?_, ?_, ?_, ?_⟩
  · intro n
    rw [V₀_eq_W7]
    exact pos_apply m c h hrs' hps' n
  · intro n r k hr
    rw [V₀_eq_W7]
    exact xpad_apply m c h hrs' hps' n r k hr
  · intro n
    have e := Routing.texp_slot (B := 128) (by norm_num) (argsortPerm_bijective (labels m c)) (sort_mono m c h)
      (sortInv m c n)
    rw [show argsortPerm (labels m c) (sortInv m c n) = n from sortPerm_sortInv m c n] at e
    exact e
  · intro n
    exact Routing.tile_lt_ptotal (by norm_num) (argsortPerm_bijective (labels m c)) (sort_mono m c h) (sortInv m c n)

/-- The destination rows. -/
theorem rows (m : (ℓ : Loc nD τ sig) → Buf (Elt F) ℓ) (c : Dev nD) (h : InRange (labels m c)) :
    ∃ P : Fin 8192 → ℕ, (∀ n, P n < 10240) ∧ Function.Injective P
      ∧ (∀ n : Fin 8192, (V₀ m c (Proc.devRef .tc main_v57) : IVec ⟨1, ![8192]⟩ 32) (ix1 n) = BitVec.ofNat 32 (P n))
      ∧ (∀ (n : Fin 8192) (r : Fin 10240) (k : Fin 1024), r.val = P n →
          (V₀ m c (Proc.devRef .tc main_v66) : FVec F ⟨2, ![10240, 1024]⟩ .bf16) (ix2 r k)
            = (V₀ m c (Proc.devRef .tc main_v58) : FVec F ⟨2, ![8192, 1024]⟩ .bf16) (ix2 n k))
      ∧ (∀ n, Routing.texp 128 (expertOf (labels m c)) (P n / 128) = (expertOf (labels m c) n).val)
      ∧ (∀ n, 128 * (P n / 128) < Routing.ptotal 128 (expertOf (labels m c))) :=
  rows_of m c h (realStart_apply m c h) (paddedStart_apply m c h)

/-- The input rows as the region reads them: the first argument narrowed to bf16. -/
theorem x_bf16 (m : (ℓ : Loc nD τ sig) → Buf (Elt F) ℓ) (c : Dev nD) :
    (V₀ m c (Proc.devRef .tc main_v58) : FVec F ⟨2, ![8192, 1024]⟩ .bf16)
      = truncf .bf16 (m (c, Proc.devRef .tc main_arg0) : FVec F ⟨2, ![8192, 1024]⟩ .f32) Gen.bitsLt_bf16_f32 := by
  rw [V₀_eq_W7, W7_def, s7_v58, W6_arg0]

/-- The expert matrices as the region reads them: the third argument narrowed to bf16. -/
theorem w_bf16 (m : (ℓ : Loc nD τ sig) → Buf (Elt F) ℓ) (c : Dev nD) :
    (V₀ m c (Proc.devRef .tc main_v83) : FVec F ⟨3, ![16, 1024, 1024]⟩ .bf16)
      = truncf .bf16 (m (c, Proc.devRef .tc main_arg2) : FVec F ⟨3, ![16, 1024, 1024]⟩ .f32) Gen.bitsLt_bf16_f32 := by
  rw [V₀_eq_W7, W7_def, s7_v83, W6_arg2]

/-- The bias rows as the region reads them: the fourth argument with a unit axis put in the middle. -/
theorem b_rows (m : (ℓ : Loc nD τ sig) → Buf (Elt F) ℓ) (c : Dev nD) (k : Fin 16) (j : Fin 1024) :
    (V₀ m c (Proc.devRef .tc main_v84) : FVec F ⟨3, ![16, 1, 1024]⟩ .f32) (ix3 k (0 : Fin 1) j)
      = (m (c, Proc.devRef .tc main_arg3) : FVec F ⟨2, ![16, 1024]⟩ .f32) (ix2 k j) := by
  rw [V₀_eq_W7, W7_def, s7_v84, W6_arg3]
  unfold shapeCast
  refine congrArg _ (Shape.reshapeEquiv_eq_of_rowMajor _ ?_)
  have e2 : ((⟨2, ![16, 1024]⟩ : Shape).rowMajor (ix2 k j)).val = k.val * 1024 + j.val := Shape.rowMajor_val_two _
  have e3 : ((⟨3, ![16, 1, 1024]⟩ : Shape).rowMajor (ix3 k (0 : Fin 1) j)).val = (k.val * 1 + 0) * 1024 + j.val :=
    Shape.rowMajor_val_three _
  exact (e2.trans (by omega)).trans e3.symm

end Cert.KernelIdeal.Hand

end
-- ==== Proof.KHostTables.lean ====
/-
  The two tables the host code hands to the region, read entry by entry as natural numbers. Tile t of the padded
  rows is given the label whose padded run it lies in: the number of runs 1 ≤ k < 16 that begin at or before the
  tile's first row 128 t, capped at 15. And the tile is marked live when its first row is below the padded total.
  Both are functions of the padded run starts and of the padded total, which the same stretch of host operations
  computes; they are read here through those two.
-/
import proofs.«405730_j30700426232147_3_alg».proof.Proof.KHostVectors
import proofs.«405730_j30700426232147_3_alg».proof.Proof.KHostPadded
import proofs.«405730_j30700426232147_3_alg».proof.Proof.LibSortCumsum
import Idealize.ShloMosaic.Lib.StableHlo.Predicate
import Mathlib.Algebra.BigOperators.Intervals

set_option maxRecDepth 4096

noncomputable section

namespace Cert.KernelIdeal.Hand

open Idealize.ShloMosaic Idealize.ShloMosaic.ValueIdx Idealize.ShloMosaic.TcCoe
open Idealize.SL.Sem
open Cert.Moe

variable {F : FTy → Type} [FloatOps F]

/-! ## The two tables as functions of the padded starts and the padded total -/

/-- The first rows of the 80 tiles, as words: the tile number times 128. -/
def tileRows : IVec S80 32 :=
  muli (iotaInDim S80 32 0) (broadcastInDim S80 ![] Gen.bcast_S_S80 (constantI S_ 32 128#32))

/-- The 80 × 15 rectangle of widened bits: at (t, c), whether tile t's first row is at or past the start of run 1 + c. -/
def tileCmp (ps : IVec S16 32) : IVec S80x15 32 :=
  extui 32
    (cmpi .sge
      (broadcastInDim S80x15 ![0, 1] Gen.bcast_S80x1_S80x15_0_1 (broadcastInDim S80x1 ![0] Gen.bcast_S80_S80x1_0 tileRows))
      (broadcastInDim S80x15 ![0, 1] Gen.bcast_S1x15_S80x15_0_1
        (broadcastInDim S1x15 ![1] Gen.bcast_S15_S1x15_1 (extractStridedSlice S15 ![1] ps Gen.slices_S16_S15_1))))
    Gen.natLt_1_32

/-- The tile labels from the padded run starts: row t counts the runs 1 … 15 that begin at or before row 128 t, and caps
    the count at 15. -/
def tileExpertOf (ps : IVec S16 32) : IVec S80 32 :=
  minsi (Host.reduce IntOp.addi (tileCmp ps) (constantI S_ 32 0#32) Gen.reducesTo_S80x15_S80_d1 Gen.h_S_)
    (broadcastInDim S80 ![] Gen.bcast_S_S80 (constantI S_ 32 15#32))

/-- The live-tile marks from the padded total: row t is the bit "128 t is below the total", widened. -/
def tileValidOf (pt : IVec S_ 32) : IVec S80 32 :=
  extui 32 (cmpi .slt tileRows (broadcastInDim S80 ![] Gen.bcast_S_S80 pt)) Gen.natLt_1_32

/-- The contents at the region's entry are the last stretch of host operations run from the contents before it. -/
theorem V₀_lastStretch (m : (ℓ : Loc nD τ sig) → Buf (Elt F) ℓ) (c : Dev nD) :
    V₀ m c = StableHlo.after (Gen.hostOps0_7 (F := F)) (W6 m c) :=
  V₀_eq_W7 m c

/-- At the region's entry the tile labels are that function of the padded starts held then. -/
theorem v79_eq (m : (ℓ : Loc nD τ sig) → Buf (Elt F) ℓ) (c : Dev nD) :
    (V₀ m c (Proc.devRef .tc main_v79) : IVec S80 32) = tileExpertOf (V₀ m c (Proc.devRef .tc main_v31) : IVec S16 32) := by
  rw [V₀_lastStretch]
  unfold tileExpertOf tileCmp tileRows
  simp only [Gen.hostOps0_7]
  after_results_simp

/-- And the live-tile marks that function of the padded total held then. -/
theorem v82_eq (m : (ℓ : Loc nD τ sig) → Buf (Elt F) ℓ) (c : Dev nD) :
    (V₀ m c (Proc.devRef .tc main_v82) : IVec S80 32) = tileValidOf (V₀ m c (Proc.devRef .tc main_v32) : IVec S_ 32) := by
  rw [V₀_lastStretch]
  unfold tileValidOf tileRows
  simp only [Gen.hostOps0_7]
  after_results_simp

/-! ## The two functions read at a tile -/

/-- A vector index built from a position, in either spelling. -/
theorem ofFin_eq_ix1 {n : ℕ} (p : Fin n) : Shape.Idx.ofFin p = ix1 p := by
  funext a
  match a with
  | ⟨0, _⟩ => exact Fin.ext rfl

/-- A rectangle index built from a row and a column, in either spelling. -/
theorem ij_eq_ix2 {n k : ℕ} (p : Fin n) (q : Fin k) : StableHlo.Predicate.ij p q = ix2 p q := by
  funext a
  match a with
  | ⟨0, _⟩ => rfl
  | ⟨1, _⟩ => rfl

open Cert.Lib.SortCumsum in
/-- Tile t's first row is 128 t. -/
theorem tileRows_apply (t : Fin 80) : tileRows (ix1 t) = BitVec.ofNat 32 (t.val * 128) := by
  show IntOp.muli (BitVec.ofNat 32 t.val) (broadcastInDim S80 ![] Gen.bcast_S_S80 (constantI S_ 32 128#32) (ix1 t)) = _
  rw [StableHlo.Predicate.bcast_scalar Gen.bcast_S_S80 Gen.h_S_]
  exact muli_ofNat t.val 128

open Cert.Lib.SortCumsum in
/-- When the padded starts are the words of P 0, …, P 15, all below 2³¹, entry (t, c) of the rectangle is 1 or 0 as
    P (1 + c) ≤ 128 t or not. -/
theorem tileCmp_apply (ps : IVec S16 32) (P : ℕ → ℕ) (hps : ∀ k : Fin 16, ps (ix1 k) = BitVec.ofNat 32 (P k.val))
    (hP : ∀ k, k < 16 → P k < 2 ^ 31) (t : Fin 80) (c : Fin 15) :
    tileCmp ps (ix2 t c) = BitVec.ofNat 32 (if P (1 + c.val) ≤ 128 * t.val then 1 else 0) := by
  have ht : t.val * 128 < 2 ^ 31 := by have := t.isLt; omega
  have hc : 1 + c.val < 16 := by have := c.isLt; omega
  have hs : extractStridedSlice S15 ![1] ps Gen.slices_S16_S15_1 (ix1 c) = ps (ix1 ⟨1 + c.val, hc⟩) := by
    show ps _ = ps _
    congr 1
    funext a
    match a with
    | ⟨0, _⟩ => exact Fin.ext rfl
  show ((IntOp.cmpi .sge
      (broadcastInDim S80x15 ![0, 1] Gen.bcast_S80x1_S80x15_0_1 (broadcastInDim S80x1 ![0] Gen.bcast_S80_S80x1_0 tileRows) (ix2 t c))
      (broadcastInDim S80x15 ![0, 1] Gen.bcast_S1x15_S80x15_0_1
        (broadcastInDim S1x15 ![1] Gen.bcast_S15_S1x15_1 (extractStridedSlice S15 ![1] ps Gen.slices_S16_S15_1)) (ix2 t c))).setWidth 32) = _
  rw [← ij_eq_ix2, StableHlo.Predicate.bcast_rows, StableHlo.Predicate.bcast_cols, ofFin_eq_ix1, ofFin_eq_ix1,
    tileRows_apply, hs, hps, cmpi_sge_ofNat _ _ ht (hP _ hc), setWidth_ofBool]
  congr 1
  by_cases hle : P (1 + c.val) ≤ t.val * 128
  · rw [decide_eq_true hle, if_pos rfl, if_pos (by omega)]
  · rw [decide_eq_false hle, if_neg (by decide), if_neg (by omega)]

open Cert.Lib.SortCumsum in
/-- The tile labels at tile t: the number of runs 1 ≤ k < 16 with P k ≤ 128 t, capped at 15. -/
theorem tileExpertOf_apply (ps : IVec S16 32) (P : ℕ → ℕ) (hps : ∀ k : Fin 16, ps (ix1 k) = BitVec.ofNat 32 (P k.val))
    (hP : ∀ k, k < 16 → P k < 2 ^ 31) (t : Fin 80) :
    tileExpertOf ps (ix1 t) = BitVec.ofNat 32 (min ((Finset.Ico 1 16).filter fun k => P k ≤ 128 * t.val).card 15) := by
  have hsum := reduce_addi_rows (tileCmp ps) t (fun c => if P (1 + c) ≤ 128 * t.val then 1 else 0)
    (fun c => tileCmp_apply ps P hps hP t c) (constantI S_ 32 0#32) Gen.h_S_ rfl Gen.reducesTo_S80x15_S80_d1
  -- the sum of the 15 bits counts the runs
  have hcard : ∑ c ∈ Finset.range 15, (if P (1 + c) ≤ 128 * t.val then 1 else 0)
      = ((Finset.Ico 1 16).filter fun k => P k ≤ 128 * t.val).card := by
    rw [Finset.card_filter, Finset.sum_Ico_eq_sum_range]
  have hle : ((Finset.Ico 1 16).filter fun k => P k ≤ 128 * t.val).card ≤ 15 :=
    (Finset.card_filter_le _ _).trans (by simp)
  show IntOp.minsi (Host.reduce IntOp.addi (tileCmp ps) (constantI S_ 32 0#32) Gen.reducesTo_S80x15_S80_d1 Gen.h_S_ (ix1 t))
    (broadcastInDim S80 ![] Gen.bcast_S_S80 (constantI S_ 32 15#32) (ix1 t)) = _
  rw [hsum, hcard, StableHlo.Predicate.bcast_scalar Gen.bcast_S_S80 Gen.h_S_]
  exact minsi_ofNat _ 15 (by omega) (by omega)

open Cert.Lib.SortCumsum in
/-- The live-tile mark at tile t, when the padded total is the word of T below 2³¹: 1 when 128 t < T, else 0. -/
theorem tileValidOf_apply (pt : IVec S_ 32) (T : ℕ) (hpt : pt ValueIdx.ix0 = BitVec.ofNat 32 T) (hT : T < 2 ^ 31) (t : Fin 80) :
    tileValidOf pt (ix1 t) = if 128 * t.val < T then 1#32 else 0#32 := by
  have ht : t.val * 128 < 2 ^ 31 := by have := t.isLt; omega
  show ((IntOp.cmpi .slt (tileRows (ix1 t)) (broadcastInDim S80 ![] Gen.bcast_S_S80 pt (ix1 t))).setWidth 32) = _
  rw [tileRows_apply, StableHlo.Predicate.bcast_scalar Gen.bcast_S_S80 Gen.h_S_,
    show pt (Shape.Idx.first Gen.h_S_) = pt ValueIdx.ix0 from congrArg pt (funext fun a => a.elim0), hpt,
    cmpi_slt_ofNat _ _ ht hT, setWidth_ofBool]
  by_cases hlt : t.val * 128 < T
  · rw [decide_eq_true hlt, if_pos rfl, if_pos (by omega)]
  · rw [decide_eq_false hlt, if_neg (by decide), if_neg (by omega)]

/-! ## The statements -/

/-- Every padded start is a small number: at most the padded total, which is at most 10240. -/
theorem pstart_small (e : Fin 8192 → Fin 16) (k : ℕ) (hk : k < 16) : Routing.pstart 128 e k < 2 ^ 31 :=
  lt_of_le_of_lt ((Routing.pstart_le_ptotal 128 e (Nat.le_of_lt hk)).trans (Routing.ptotal_le_10240 e)) (by norm_num)

/-- Entry t of the tile labels: the number of padded runs 1 ≤ k < 16 that begin at or before row 128 t, capped at 15. -/
theorem tileExpert_apply (m : (ℓ : Loc nD τ sig) → Buf (Elt F) ℓ) (c : Dev nD) (h : InRange (labelsOf m c)) (t : Fin 80) :
    (V₀ m c (Proc.devRef .tc main_v79) : IVec S80 32) (ix1 t)
      = BitVec.ofNat 32 (Routing.texp 128 (expertOf (labelsOf m c)) t.val) := by
  rw [v79_eq, tileExpertOf_apply _ (fun k => Routing.pstart 128 (expertOf (labelsOf m c)) k)
    (fun k => paddedStart_apply m c h k) (fun k hk => pstart_small _ k hk) t]
  rfl

/-- Entry t of the live-tile marks: 1 when the tile's first row 128 t is below the padded total, else 0. -/
theorem tileValid_apply (m : (ℓ : Loc nD τ sig) → Buf (Elt F) ℓ) (c : Dev nD) (h : InRange (labelsOf m c)) (t : Fin 80) :
    (V₀ m c (Proc.devRef .tc main_v82) : IVec S80 32) (ix1 t)
      = if 128 * t.val < Routing.ptotal 128 (expertOf (labelsOf m c)) then 1#32 else 0#32 := by
  rw [v82_eq]
  exact tileValidOf_apply _ _ (paddedTotal_apply m c h)
    (lt_of_le_of_lt (Routing.ptotal_le_10240 _) (by norm_num)) t

end Cert.KernelIdeal.Hand

end
-- ==== Proof.KValue.lean ====
/-
  The kernel program's result. Token n's destination row P n of the padded matrix lies in tile P n / 128; that tile
  begins below the padded total, so the body takes its first branch there, and it is owned by token n's label e n, so
  the body multiplies the tile's rows by expert e n's matrix and adds expert e n's bias row. Row P n of the padded input
  is row n of the input, so row P n of the output array is max (x[n, ·] · w[e n] + b[e n]) 0, and the closing gather
  brings it back to row n of the result.
-/
import proofs.«405730_j30700426232147_3_alg».proof.Proof.KRun
import proofs.«405730_j30700426232147_3_alg».proof.Proof.KTail
import proofs.«405730_j30700426232147_3_alg».proof.Proof.KBlocks
import proofs.«405730_j30700426232147_3_alg».proof.Proof.KPayload
import proofs.«405730_j30700426232147_3_alg».proof.Proof.KHostRows
import proofs.«405730_j30700426232147_3_alg».proof.Proof.KHostTables
import proofs.«405730_j30700426232147_3_alg».proof.Proof.MoeSpec
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open Cert.Moe

variable (m : (ℓ : Loc nD τ sig) → Buf (Elt Ideal) ℓ) (ρ : Dev nD → PrngReg)

/-- ROW P OF THE OUTPUT ARRAY, for a destination row P of token n: the specification's row n. -/
theorem arr_row (c : Dev nD) (h : InRange (m ((c.tc : Thread nD τ).loc main_arg1))) (n : Fin 8192) (j : Fin 1024) (r : Fin 10240)
    (hx : ∀ k : Fin 1024, (V₀ m c (Proc.devRef .tc main_v66) : FVec Ideal S10240x1024 .bf16) (ix2 r k)
      = (V₀ m c (Proc.devRef .tc main_v58) : FVec Ideal S8192x1024 .bf16) (ix2 n k))
    (he : Routing.texp 128 (expertOf (m ((c.tc : Thread nD τ).loc main_arg1))) (r.val / 128)
      = (expertOf (m ((c.tc : Thread nD τ).loc main_arg1)) n).val)
    (hv : 128 * (r.val / 128) < Routing.ptotal 128 (expertOf (m ((c.tc : Thread nD τ).loc main_arg1)))) :
    ((dats m 0 c).arrAt 3 (cfgM m).N : FVec Ideal S10240x1024 .f32) (ix2 r j)
      = G (m ((c.tc : Thread nD τ).loc main_arg0)) (m ((c.tc : Thread nD τ).loc main_arg1))
          (m ((c.tc : Thread nD τ).loc main_arg2)) (m ((c.tc : Thread nD τ).loc main_arg3)) n j := by
  have hr := r.isLt
  -- the tile of row r and the row inside it
  obtain ⟨t, ht⟩ : ∃ t : Fin 80, t.val = r.val / 128 := ⟨⟨r.val / 128, by omega⟩, rfl⟩
  obtain ⟨p, hp⟩ : ∃ p : Fin 128, p.val = r.val % 128 := ⟨⟨r.val % 128, Nat.mod_lt _ (by omega)⟩, rfl⟩
  have hrt : r.val = 128 * t.val + p.val := by rw [ht, hp]; omega
  rw [← ht] at he hv
  -- the tile is valid, so the body's first branch fires
  have hword : tvWord m (pt m t) = 1#32 := by
    rw [tvWord_eq m c t, tileValid_apply m c h t, if_pos hv]
  have hcond : k0_cond1 (tvWord m (pt m t)) = 1#1 := by rw [hword]; decide
  -- the tile is owned by token n's label
  have hte : ((V₀ m c (Proc.devRef .tc main_v79) : IVec S80 32) (ix1 t)).toNat
      = (expertOf (m ((c.tc : Thread nD τ).loc main_arg1)) n).val := by
    rw [tileExpert_apply m c h t, he, BitVec.toNat_ofNat]
    exact Nat.mod_eq_of_lt (by have := (expertOf (m ((c.tc : Thread nD τ).loc main_arg1)) n).isLt; omega)
  rw [arr3_apply m c t p j r hrt]
  unfold outAt
  rw [if_pos hcond]
  refine (k0_pay1_apply (iblk m c 0 (pt m t)) (iblk m c 1 (pt m t)) (iblk m c 2 (pt m t)) p j).trans ?_
  unfold G
  have hxk : ∀ k : Fin 1024, (iblk m c 0 (pt m t) : FVec Ideal S128x1024 .bf16) (ix2 p k)
      = (m ((c.tc : Thread nD τ).loc main_arg0) : FVec Ideal S8192x1024 .f32) (ix2 n k) := fun k => by
    rw [iblk0_apply m c t p k r hrt, hx k, x_bf16 m c]; rfl
  have hwk : ∀ k : Fin 1024, (iblk m c 1 (pt m t) : FVec Ideal S1x1024x1024 .bf16) (ix3 (0 : Fin 1) k j)
      = (m ((c.tc : Thread nD τ).loc main_arg2) : FVec Ideal S16x1024x1024 .f32)
          (ix3 (expertOf (m ((c.tc : Thread nD τ).loc main_arg1)) n) k j) := fun k => by
    rw [iblk1_apply m c t k j _ hte, w_bf16 m c]; rfl
  have hb : (iblk m c 2 (pt m t) : FVec Ideal S1x1x1024 .f32) (ix3 (0 : Fin 1) (0 : Fin 1) j)
      = (m ((c.tc : Thread nD τ).loc main_arg3) : FVec Ideal S16x1024 .f32)
          (ix2 (expertOf (m ((c.tc : Thread nD τ).loc main_arg1)) n) j) := by
    rw [iblk2_apply m c t j _ hte, b_rows m c]
  simp only [hxk, hwk, hb]

/-- THE RESULT ARRAY the host operations after the region leave is the specification's. -/
theorem tail_eq_Garr (c : Dev nD) (h : InRange (m ((c.tc : Thread nD τ).loc main_arg1))) :
    (Pipeline.afterTail pcfgs (adm m) (dats m) 0 (V₀ m) opssAfter c main_v92 : FVec Ideal S8192x1024 .f32)
      = Garr (m ((c.tc : Thread nD τ).loc main_arg0)) (m ((c.tc : Thread nD τ).loc main_arg1))
          (m ((c.tc : Thread nD τ).loc main_arg2)) (m ((c.tc : Thread nD τ).loc main_arg3)) := by
  obtain ⟨P, hP, -, h57, h66, hexp, hval⟩ := rows m c h
  funext i
  obtain ⟨n, j, rfl⟩ : ∃ (n : Fin 8192) (j : Fin 1024), i = ix2 n j := ⟨i 0, i 1, eq_ix2 i⟩
  rw [Garr_ix2, tail_v92_apply m c n j ⟨P n, hP n⟩ (h57 n)]
  exact arr_row m c h n j ⟨P n, hP n⟩ (fun k => h66 n ⟨P n, hP n⟩ k rfl) (hexp n) (hval n)

/-- THE KERNEL PROGRAM'S RUN with its result named: the specification's array, the four arguments unchanged. -/
theorem kernel_run (h : ∀ c : Dev nD, InRange (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v92)
          = Garr (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r hq c => ?_) (run_main m ρ)
  have hrest := (hq c).2
  exact ⟨(hrest main_v92 (Pipeline.mem_restRefs_of (win := spec0) main_v92 rfl (by decide))).trans (tail_eq_Garr m c (h c)),
    (hrest main_arg0 (Pipeline.mem_restRefs_of (win := spec0) main_arg0 rfl (by decide))).trans (tail_arg0 m c),
    (hrest main_arg1 (Pipeline.mem_restRefs_of (win := spec0) main_arg1 rfl (by decide))).trans (tail_arg1 m c),
    (hrest main_arg2 (Pipeline.mem_restRefs_of (win := spec0) main_arg2 rfl (by decide))).trans (tail_arg2 m c),
    (hrest main_arg3 (Pipeline.mem_restRefs_of (win := spec0) main_arg3 rfl (by decide))).trans (tail_arg3 m c)⟩

end Cert.KernelIdeal.Hand

end
-- ==== Proof.RefTerm.lean ====
/-
  The reference's result as a term.  The reference makes sixteen passes over an accumulator that starts at zero: pass `s`
  forms, for every token, the token's row times expert `s`'s matrix plus expert `s`'s bias row, and writes it over exactly
  the rows whose label word equals the literal `s`; the result is the accumulator after the sixteenth pass, clipped below
  at zero.  This module only names the pieces: one pass with the literal `s` a variable (`mask`, `cand`, `step`), the zero
  array, the sixteen passes nested (`acc16`) and the result over the four arguments' launch contents (`res`).
-/
import proofs.«405730_j30700426232147_3_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The mask of pass `s`: bit `1` in every column of the rows whose label word is the literal `s`. -/
def mask (s : ℕ) (idxs : (⟨S8192, .i32⟩ : BufTy).Contents (Elt F)) : (⟨S8192x1024, .i1⟩ : BufTy).Contents (Elt F) :=
  broadcastInDim S8192x1024 ![0, 1] bcast_S8192x1_S8192x1024_0_1
    (broadcastInDim S8192x1 ![0] bcast_S8192_S8192x1_0
      (cmpi .eq idxs (broadcastInDim S8192 ![] bcast_S_S8192 (constantI S_ 32 (BitVec.ofNat 32 s)))))

/-- The candidate of pass `s`: every token's row times expert `s`'s matrix, plus expert `s`'s bias row. -/
def cand (s : ℕ) (hw : S16x1024x1024.Slices ![s, 0, 0] S1x1024x1024) (hb : S16x1024.Slices ![s, 0] S1x1024)
    (x : (⟨S8192x1024, .f32⟩ : BufTy).Contents (Elt F)) (w : (⟨S16x1024x1024, .f32⟩ : BufTy).Contents (Elt F))
    (b : (⟨S16x1024, .f32⟩ : BufTy).Contents (Elt F)) : (⟨S8192x1024, .f32⟩ : BufTy).Contents (Elt F) :=
  addf (Host.dotGeneral dot_S8192x1024_S1024x1024_S8192x1024_1_0_0_1_n_n none x
        (shapeCast _ (extractStridedSlice S1x1024x1024 ![s, 0, 0] w hw) shapeCasts_S1x1024x1024_S1024x1024))
    (broadcastInDim S8192x1024 ![0, 1] bcast_S1x1024_S8192x1024_0_1
      (broadcastInDim S1x1024 ![1] bcast_S1024_S1x1024_1
        (shapeCast _ (extractStridedSlice S1x1024 ![s, 0] b hb) shapeCasts_S1x1024_S1024)))

/-- Pass `s`: the rows labelled `s` take the candidate, the others keep the accumulator `y`. -/
def step (s : ℕ) (hw : S16x1024x1024.Slices ![s, 0, 0] S1x1024x1024) (hb : S16x1024.Slices ![s, 0] S1x1024)
    (x : (⟨S8192x1024, .f32⟩ : BufTy).Contents (Elt F)) (idxs : (⟨S8192, .i32⟩ : BufTy).Contents (Elt F))
    (w : (⟨S16x1024x1024, .f32⟩ : BufTy).Contents (Elt F)) (b : (⟨S16x1024, .f32⟩ : BufTy).Contents (Elt F))
    (y : (⟨S8192x1024, .f32⟩ : BufTy).Contents (Elt F)) : (⟨S8192x1024, .f32⟩ : BufTy).Contents (Elt F) :=
  select (mask s idxs) (cand s hw hb x w b) y

/-- The all-zero array: the loop's start, and what the final clip compares against. -/
def zeros : (⟨S8192x1024, .f32⟩ : BufTy).Contents (Elt F) :=
  broadcastInDim S8192x1024 ![] bcast_S_S8192x1024 (constant S_ .f32 0x00000000#32)

/-- The accumulator after the sixteen passes `0, 1, …, 15`, in that order, from zero. -/
def acc16 (x : (⟨S8192x1024, .f32⟩ : BufTy).Contents (Elt F)) (idxs : (⟨S8192, .i32⟩ : BufTy).Contents (Elt F))
    (w : (⟨S16x1024x1024, .f32⟩ : BufTy).Contents (Elt F)) (b : (⟨S16x1024, .f32⟩ : BufTy).Contents (Elt F)) :
    (⟨S8192x1024, .f32⟩ : BufTy).Contents (Elt F) :=
  step 15 slices_S16x1024x1024_S1x1024x1024_15_0_0 slices_S16x1024_S1x1024_15_0 x idxs w b
  (step 14 slices_S16x1024x1024_S1x1024x1024_14_0_0 slices_S16x1024_S1x1024_14_0 x idxs w b
  (step 13 slices_S16x1024x1024_S1x1024x1024_13_0_0 slices_S16x1024_S1x1024_13_0 x idxs w b
  (step 12 slices_S16x1024x1024_S1x1024x1024_12_0_0 slices_S16x1024_S1x1024_12_0 x idxs w b
  (step 11 slices_S16x1024x1024_S1x1024x1024_11_0_0 slices_S16x1024_S1x1024_11_0 x idxs w b
  (step 10 slices_S16x1024x1024_S1x1024x1024_10_0_0 slices_S16x1024_S1x1024_10_0 x idxs w b
  (step 9 slices_S16x1024x1024_S1x1024x1024_9_0_0 slices_S16x1024_S1x1024_9_0 x idxs w b
  (step 8 slices_S16x1024x1024_S1x1024x1024_8_0_0 slices_S16x1024_S1x1024_8_0 x idxs w b
  (step 7 slices_S16x1024x1024_S1x1024x1024_7_0_0 slices_S16x1024_S1x1024_7_0 x idxs w b
  (step 6 slices_S16x1024x1024_S1x1024x1024_6_0_0 slices_S16x1024_S1x1024_6_0 x idxs w b
  (step 5 slices_S16x1024x1024_S1x1024x1024_5_0_0 slices_S16x1024_S1x1024_5_0 x idxs w b
  (step 4 slices_S16x1024x1024_S1x1024x1024_4_0_0 slices_S16x1024_S1x1024_4_0 x idxs w b
  (step 3 slices_S16x1024x1024_S1x1024x1024_3_0_0 slices_S16x1024_S1x1024_3_0 x idxs w b
  (step 2 slices_S16x1024x1024_S1x1024x1024_2_0_0 slices_S16x1024_S1x1024_2_0 x idxs w b
  (step 1 slices_S16x1024x1024_S1x1024x1024_1_0_0 slices_S16x1024_S1x1024_1_0 x idxs w b
  (step 0 slices_S16x1024x1024_S1x1024x1024_0_0_0 slices_S16x1024_S1x1024_0_0 x idxs w b zeros)))))))))))))))

/-- The reference's result buffer as a term of the four arguments' launch contents: the sixteen passes, then the clip at zero. -/
def res (m : (ℓ : Loc nD τ sig) → Buf (Elt F) ℓ) (c : Dev nD) : Buf (Elt F) ((c.tc : Thread nD τ).loc main_v193) :=
  maximumf (acc16 (m ((c.tc : Thread nD τ).loc main_arg0)) (m ((c.tc : Thread nD τ).loc main_arg1))
      (m ((c.tc : Thread nD τ).loc main_arg2)) (m ((c.tc : Thread nD τ).loc main_arg3))) zeros

end Cert.ReferenceIdeal.Hand

end
-- ==== Proof.RefRun.lean ====
/-
  The reference's run.  Every weakly fair execution of the reference program terminates; its result buffer then holds the
  term `res m c` of the four arguments' launch contents (sixteen masked passes from zero, then the clip at zero), and the
  four arguments hold what they held at launch.  The run itself is the program's operations executed in order, each
  writing its own buffer; the composed term that comes out of it is, once the names of this module's pieces are unfolded,
  letter for letter the nested term `res`.
-/
import proofs.«405730_j30700426232147_3_alg».proof.Proof.RefTerm
import proofs.«405730_j30700426232147_3_alg».proof.Proof.RefRunP

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The composed term of the operations, in order, is the sixteen nested passes and the clip. -/
theorem res_main_v193_eq (m : (ℓ : Loc nD τ sig) → Buf (Elt F) ℓ) (c : Dev nD) :
    Cert.ReferenceIdeal.ValueP.res_main_v193 m c = res m c := by
  unfold Cert.ReferenceIdeal.ValueP.res_main_v193 res acc16 step mask cand zeros
  rfl

/-- On every device, for any float values, from any memory with zero counters: every weakly fair execution of the
    reference terminates with its result buffer at `res m c` and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v193) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_main_v193_eq m c), (h c).2⟩)
    (Cert.ReferenceIdeal.ValueP.run m ρ)

end Cert.ReferenceIdeal.Hand

end
-- ==== Proof.RefValue.lean ====
/-
  The reference's result read entry by entry, over the extended reals.  One pass `s` of the loop, at row `n` and column
  `j`, is expert `s`'s row `∑ₖ x[n,k]·w[s,k,j] + b[s,j]` if token `n`'s label word is `s`, and the accumulator's entry
  otherwise: the column mask is the comparison of the label word with the literal, broadcast along the row; the
  `dot_general` is the sum over its one contracted axis; the bias row is cut out of the stack, reshaped and broadcast over
  the tokens.  Folding the sixteen passes from zero: after the passes `0 … t − 1` a row whose label is below `t` holds its
  expert's row — written at the pass of its own label, and kept by every later pass, which compares against another
  literal — and every other row is still zero.  With every label in `[0, 16)` the sixteenth state is the expert's row
  everywhere, and the final clip at zero makes it the specification's array.
-/
import proofs.«405730_j30700426232147_3_alg».proof.Proof.RefTerm
import proofs.«405730_j30700426232147_3_alg».proof.Proof.MoeSpec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem
open Idealize.ShloMosaic.ValueIdx
open scoped BigOperators

variable {F : FTy → Type} [FloatOps F]
/-! ## One pass read at an entry -/

/-- The mask of pass `s` at row `n` (any column): the comparison of the row's label word with the literal. -/
theorem mask_apply (s : ℕ) (idxs : (⟨S8192, .i32⟩ : BufTy).Contents (Elt F)) (n : Fin 8192) (j : Fin 1024) :
    mask (F := F) s idxs (ix2 n j) = IntOp.cmpi .eq (idxs (ix1 n)) (BitVec.ofNat 32 s) := by
  unfold mask
  rw [broadcastInDim_apply _ bcast_S8192x1_S8192x1024_0_1 _ (ix2 n j) (ix2 n ⟨0, Nat.one_pos⟩) (fun a => match a with
      | ⟨0, _⟩ => by show n.val = if (8192 : Nat) = 1 then 0 else n.val; rw [if_neg (by decide)]
      | ⟨1, _⟩ => by show 0 = if (1 : Nat) = 1 then 0 else j.val; rw [if_pos rfl]),
    broadcastInDim_apply _ bcast_S8192_S8192x1_0 _ (ix2 n ⟨0, Nat.one_pos⟩) (ix1 n) (fun a => match a with
      | ⟨0, _⟩ => by show n.val = if (8192 : Nat) = 1 then 0 else n.val; rw [if_neg (by decide)])]
  rfl

/-- The comparison bit is `1` exactly when the label word, read as a natural number, is `s` (for `s` a 32-bit literal). -/
theorem cmpi_eq_one_iff (v : BitVec 32) (s : ℕ) (hs : s < 2 ^ 32) :
    IntOp.cmpi .eq v (BitVec.ofNat 32 s) = 1#1 ↔ v.toNat = s := by
  show BitVec.ofBool (v == BitVec.ofNat 32 s) = 1#1 ↔ v.toNat = s
  constructor
  · intro h
    have hv : v = BitVec.ofNat 32 s := by
      by_contra hne
      rw [beq_eq_false_iff_ne.mpr hne] at h
      exact absurd h (by decide)
    rw [hv, BitVec.toNat_ofNat, Nat.mod_eq_of_lt hs]
  · intro h
    have hv : v = BitVec.ofNat 32 s := BitVec.eq_of_toNat_eq (by rw [BitVec.toNat_ofNat, Nat.mod_eq_of_lt hs, h])
    rw [hv, beq_self_eq_true]; rfl

/-- The zero array is zero everywhere. -/
theorem zeros_at (n : Fin 8192) (j : Fin 1024) : zeros (F := Ideal) (ix2 n j) = 0 :=
  (show zeros (F := Ideal) (ix2 n j) = Ideal.ofBits .f32 0x00000000#32 from rfl).trans Ideal.ofBits_zero_f32

/-- Row `n`, column `j` of "token rows times expert `e`'s matrix, plus expert `e`'s bias row", over the extended reals. -/
def rowOf (x : (⟨S8192x1024, .f32⟩ : BufTy).Contents (Elt Ideal)) (w : (⟨S16x1024x1024, .f32⟩ : BufTy).Contents (Elt Ideal))
    (b : (⟨S16x1024, .f32⟩ : BufTy).Contents (Elt Ideal)) (e : Fin 16) (n : Fin 8192) (j : Fin 1024) : EReal :=
  (∑ k : Fin 1024, x (ix2 n k) * w (ix3 e k j)) + b (ix2 e j)

private abbrev D := dot_S8192x1024_S1024x1024_S8192x1024_1_0_0_1_n_n

/-- The `dot_general`'s left operand index: the result's row, the contraction coordinate. -/
theorem lhsIdx_eq (n : Fin 8192) (j k : Fin 1024) :
    D.lhsIdx (ix2 n j) ((contrEquiv1 D 1024 rfl rfl).symm k) = ix2 n k := by
  have hk := contrEquiv1_symm_val D 1024 rfl rfl k
  refine funext fun a => Fin.ext ?_
  match a with
  | ⟨0, _⟩ =>
    show (D.lhsIdx (ix2 n j) _ 0).val = n.val
    unfold DotDims.lhsIdx
    rw [dif_neg (show ¬(0 : Fin S8192x1024.rank) ∈ D.lhsBatch by decide), dif_pos (show (0 : Fin S8192x1024.rank) ∈ D.lhsNonContracting by decide)]
    rfl
  | ⟨1, _⟩ => exact (D.lhsIdx_val_of_single rfl (ix2 n j) _).trans hk

/-- The `dot_general`'s right operand index: the contraction coordinate, the result's column. -/
theorem rhsIdx_eq (n : Fin 8192) (j k : Fin 1024) :
    D.rhsIdx (ix2 n j) ((contrEquiv1 D 1024 rfl rfl).symm k) = ix2 k j := by
  have hk := contrEquiv1_symm_val D 1024 rfl rfl k
  refine funext fun a => Fin.ext ?_
  match a with
  | ⟨0, _⟩ => exact (D.rhsIdx_val_of_single rfl (ix2 n j) _).trans hk
  | ⟨1, _⟩ =>
    show (D.rhsIdx (ix2 n j) _ 1).val = j.val
    unfold DotDims.rhsIdx
    rw [dif_neg (show ¬(1 : Fin S1024x1024.rank) ∈ D.rhsBatch by decide), dif_pos (show (1 : Fin S1024x1024.rank) ∈ D.rhsNonContracting by decide)]
    rfl

/-- Expert `s`'s matrix, cut out of the stack and reshaped, at `(k, j)`. -/
theorem wslice_apply (s : ℕ) (hs : s < 16) (hw : S16x1024x1024.Slices ![s, 0, 0] S1x1024x1024)
    (w : (⟨S16x1024x1024, .f32⟩ : BufTy).Contents (Elt F)) (k j : Fin 1024) :
    shapeCast S1024x1024 (extractStridedSlice S1x1024x1024 ![s, 0, 0] w hw) shapeCasts_S1x1024x1024_S1024x1024 (ix2 k j)
      = w (ix3 ⟨s, hs⟩ k j) := by
  rw [shapeCast_apply _ shapeCasts_S1x1024x1024_S1024x1024 (ix2 k j) (ix3 ⟨0, Nat.one_pos⟩ k j)
    (by rewrite [Shape.rowMajor_val_three, Shape.rowMajor_val_two]
        show (0 * 1024 + k.val) * 1024 + j.val = k.val * 1024 + j.val; omega)]
  exact extractStridedSlice_apply ![s, 0, 0] w hw _ (ix3 ⟨s, hs⟩ k j) (fun a => match a with
    | ⟨0, _⟩ => by show s = s + 0; omega
    | ⟨1, _⟩ => by show k.val = 0 + k.val; omega
    | ⟨2, _⟩ => by show j.val = 0 + j.val; omega)

/-- Expert `s`'s bias row, cut out, reshaped and broadcast over the tokens, at `(n, j)`. -/
theorem bslice_apply (s : ℕ) (hs : s < 16) (hb : S16x1024.Slices ![s, 0] S1x1024)
    (b : (⟨S16x1024, .f32⟩ : BufTy).Contents (Elt F)) (n : Fin 8192) (j : Fin 1024) :
    broadcastInDim S8192x1024 ![0, 1] bcast_S1x1024_S8192x1024_0_1
      (broadcastInDim S1x1024 ![1] bcast_S1024_S1x1024_1
        (shapeCast S1024 (extractStridedSlice S1x1024 ![s, 0] b hb) shapeCasts_S1x1024_S1024)) (ix2 n j)
      = b (ix2 ⟨s, hs⟩ j) := by
  rw [broadcastInDim_apply _ bcast_S1x1024_S8192x1024_0_1 _ (ix2 n j) (ix2 ⟨0, Nat.one_pos⟩ j) (fun a => match a with
      | ⟨0, _⟩ => by show 0 = if (1 : Nat) = 1 then 0 else n.val; rw [if_pos rfl]
      | ⟨1, _⟩ => by show j.val = if (1024 : Nat) = 1 then 0 else j.val; rw [if_neg (by decide)]),
    broadcastInDim_apply _ bcast_S1024_S1x1024_1 _ (ix2 ⟨0, Nat.one_pos⟩ j) (ix1 j) (fun a => match a with
      | ⟨0, _⟩ => by show j.val = if (1024 : Nat) = 1 then 0 else j.val; rw [if_neg (by decide)]),
    shapeCast_apply _ shapeCasts_S1x1024_S1024 (ix1 j) (ix2 ⟨0, Nat.one_pos⟩ j)
      (by rewrite [Shape.rowMajor_val_two, Shape.rowMajor_val_one]; show 0 * 1024 + j.val = j.val; omega)]
  exact extractStridedSlice_apply ![s, 0] b hb _ (ix2 ⟨s, hs⟩ j) (fun a => match a with
    | ⟨0, _⟩ => by show s = s + 0; omega
    | ⟨1, _⟩ => by show j.val = 0 + j.val; omega)

/-- The candidate of pass `s` at `(n, j)`, over the extended reals: the sum over `k` and the bias. -/
theorem cand_apply (s : ℕ) (hs : s < 16) (hw : S16x1024x1024.Slices ![s, 0, 0] S1x1024x1024) (hb : S16x1024.Slices ![s, 0] S1x1024)
    (x : (⟨S8192x1024, .f32⟩ : BufTy).Contents (Elt Ideal)) (w : (⟨S16x1024x1024, .f32⟩ : BufTy).Contents (Elt Ideal))
    (b : (⟨S16x1024, .f32⟩ : BufTy).Contents (Elt Ideal)) (n : Fin 8192) (j : Fin 1024) :
    cand (F := Ideal) s hw hb x w b (ix2 n j) = rowOf x w b ⟨s, hs⟩ n j := by
  unfold cand rowOf
  rw [addf_apply, bslice_apply s hs hb b n j]
  refine congrArg (· + b (ix2 ⟨s, hs⟩ j)) ?_
  simp only [Host.dotGeneral]
  rw [Ideal.dotGeneral_apply, ← Equiv.sum_comp (contrEquiv1 D 1024 rfl rfl).symm]
  refine Finset.sum_congr rfl fun k _ => ?_
  rw [lhsIdx_eq n j k, rhsIdx_eq n j k, wslice_apply s hs hw w k j]

/-- Pass `s` at `(n, j)`: expert `s`'s row if the token's label is `s`, the accumulator's entry otherwise. -/
theorem step_apply (s : ℕ) (hs : s < 16) (hw : S16x1024x1024.Slices ![s, 0, 0] S1x1024x1024) (hb : S16x1024.Slices ![s, 0] S1x1024)
    (x : (⟨S8192x1024, .f32⟩ : BufTy).Contents (Elt Ideal)) (idxs : (⟨S8192, .i32⟩ : BufTy).Contents (Elt Ideal))
    (w : (⟨S16x1024x1024, .f32⟩ : BufTy).Contents (Elt Ideal)) (b : (⟨S16x1024, .f32⟩ : BufTy).Contents (Elt Ideal))
    (y : (⟨S8192x1024, .f32⟩ : BufTy).Contents (Elt Ideal)) (n : Fin 8192) (j : Fin 1024) :
    step (F := Ideal) s hw hb x idxs w b y (ix2 n j)
      = if (idxs (ix1 n)).toNat = s then rowOf x w b ⟨s, hs⟩ n j else y (ix2 n j) := by
  unfold step
  rw [select_apply, mask_apply, cand_apply s hs]
  by_cases h : (idxs (ix1 n)).toNat = s
  · rw [if_pos h, (cmpi_eq_one_iff _ s (by omega)).mpr h, select_one]
  · rw [if_neg h, eq_zero_of_ne_one (fun h1 => h ((cmpi_eq_one_iff _ s (by omega)).mp h1)), select_zero]

/-! ## The sixteen passes folded

After the passes `0 … t − 1` a row whose label is below `t` holds its expert's row (it was written at the pass of its own
label and kept by every later pass, which compares against another literal), and every other row is still zero. -/

/-- The state of the accumulator after `t` passes. -/
def After (x : (⟨S8192x1024, .f32⟩ : BufTy).Contents (Elt Ideal)) (idxs : (⟨S8192, .i32⟩ : BufTy).Contents (Elt Ideal))
    (w : (⟨S16x1024x1024, .f32⟩ : BufTy).Contents (Elt Ideal)) (b : (⟨S16x1024, .f32⟩ : BufTy).Contents (Elt Ideal))
    (t : ℕ) (y : (⟨S8192x1024, .f32⟩ : BufTy).Contents (Elt Ideal)) : Prop :=
  ∀ (n : Fin 8192) (j : Fin 1024),
    y (ix2 n j) = if (idxs (ix1 n)).toNat < t then rowOf x w b (Cert.Moe.expertOf idxs n) n j else 0

theorem after_zero (x idxs w b) : After x idxs w b 0 (zeros (F := Ideal)) := fun n j => by
  rw [zeros_at, if_neg (Nat.not_lt_zero _)]

theorem after_step (x idxs w b) (s : ℕ) (hs : s < 16) (hw : S16x1024x1024.Slices ![s, 0, 0] S1x1024x1024)
    (hb : S16x1024.Slices ![s, 0] S1x1024) (y : (⟨S8192x1024, .f32⟩ : BufTy).Contents (Elt Ideal))
    (hy : After x idxs w b s y) : After x idxs w b (s + 1) (step (F := Ideal) s hw hb x idxs w b y) := fun n j => by
  rw [step_apply s hs]
  by_cases h : (idxs (ix1 n)).toNat = s
  · rw [if_pos h, if_pos (by omega)]
    exact congrArg (fun e => rowOf x w b e n j) (Fin.ext (by show s = (idxs (ix1 n)).toNat % 16; rw [h, Nat.mod_eq_of_lt hs]))
  · rw [if_neg h, hy n j]
    by_cases h2 : (idxs (ix1 n)).toNat < s
    · rw [if_pos h2, if_pos (by omega)]
    · rw [if_neg h2, if_neg (by omega)]

/-- After all sixteen passes: every row holds its expert's row (labels in range), the folded invariant at `t = 16`. -/
theorem after_acc16 (x : (⟨S8192x1024, .f32⟩ : BufTy).Contents (Elt Ideal)) (idxs : (⟨S8192, .i32⟩ : BufTy).Contents (Elt Ideal))
    (w : (⟨S16x1024x1024, .f32⟩ : BufTy).Contents (Elt Ideal)) (b : (⟨S16x1024, .f32⟩ : BufTy).Contents (Elt Ideal)) :
    After x idxs w b 16 (acc16 (F := Ideal) x idxs w b) := by
  unfold acc16
  exact after_step x idxs w b 15 (by decide) _ _ _ (after_step x idxs w b 14 (by decide) _ _ _ (after_step x idxs w b 13 (by decide) _ _ _
    (after_step x idxs w b 12 (by decide) _ _ _ (after_step x idxs w b 11 (by decide) _ _ _ (after_step x idxs w b 10 (by decide) _ _ _
    (after_step x idxs w b 9 (by decide) _ _ _ (after_step x idxs w b 8 (by decide) _ _ _ (after_step x idxs w b 7 (by decide) _ _ _
    (after_step x idxs w b 6 (by decide) _ _ _ (after_step x idxs w b 5 (by decide) _ _ _ (after_step x idxs w b 4 (by decide) _ _ _
    (after_step x idxs w b 3 (by decide) _ _ _ (after_step x idxs w b 2 (by decide) _ _ _ (after_step x idxs w b 1 (by decide) _ _ _
    (after_step x idxs w b 0 (by decide) _ _ _ (after_zero x idxs w b))))))))))))))))

/-- The reference's result is the specification's array, for labels in `[0, 16)`. -/
theorem res_eq (m : (ℓ : Loc nD τ sig) → Buf (Elt Ideal) ℓ) (c : Dev nD)
    (h : Cert.Moe.InRange (m ((c.tc : Thread nD τ).loc main_arg1))) :
    res (F := Ideal) m c = Cert.Moe.Garr (m ((c.tc : Thread nD τ).loc main_arg0)) (m ((c.tc : Thread nD τ).loc main_arg1))
      (m ((c.tc : Thread nD τ).loc main_arg2)) (m ((c.tc : Thread nD τ).loc main_arg3)) := by
  refine funext fun i => ?_
  obtain ⟨n, j, rfl⟩ : ∃ (n : Fin 8192) (j : Fin 1024), i = ix2 n j := ⟨i 0, i 1, eq_ix2 i⟩
  rw [Cert.Moe.Garr_ix2]
  unfold res Cert.Moe.G
  rw [maximumf_apply, zeros_at, after_acc16 _ _ _ _ n j, if_pos (h n)]
  rfl

end Cert.ReferenceIdeal.Hand

end
-- ==== Proof.PreRange.lean ====
/-
  The label range, read out of the precondition. The precondition's last conjunct says that every label word,
  read as a signed integer, is at least 0 and below 16; a signed word in that range is its own unsigned
  reading, so every label, read as a natural number, is below 16.
-/
import proofs.«405730_j30700426232147_3_alg».proof.Pre_finite_inputs
import proofs.«405730_j30700426232147_3_alg».proof.Proof.Gen.Pre_finite_inputs
import proofs.«405730_j30700426232147_3_alg».proof.Proof.MoeSpec
import Idealize.ShloMosaic.Lib.ReduceAll
import Idealize.ShloMosaic.Lib.StableHlo.Predicate

noncomputable section

namespace Cert.Moe

open Idealize.ShloMosaic Idealize.ShloMosaic.ValueIdx
open Cert.Pre_finite_inputs (S8192x1024 S8192 S16x1024x1024 S16x1024 S_)

/-- The rank-0 shape has exactly one index: the empty tuple. -/
instance subsingleton_scalar_idx : Subsingleton S_.Idx := ⟨fun a b => funext fun d => d.elim0⟩

/-- A 32-bit word that reads, signed, as at least 0 and less than 16 reads, unsigned, as less than 16:
    below `2^31` the two readings agree, and a word at or above `2^31` reads negative. -/
theorem toNat_lt_sixteen (w : BitVec 32) (h0 : (0#32 : BitVec 32).toInt ≤ w.toInt)
    (h16 : w.toInt < (16#32 : BitVec 32).toInt) : w.toNat < 16 := by
  have e0 : (0#32 : BitVec 32).toInt = 0 := by decide
  have e16 : (16#32 : BitVec 32).toInt = 16 := by decide
  rw [e0] at h0
  rw [e16] at h16
  have hlt := w.isLt
  rw [BitVec.toInt_eq_toNat_cond] at h0 h16
  split at h0 <;> omega

/-- If the printed precondition evaluates to true, every label word lies in `[0, 16)`. -/
theorem inRange_of_pre {F : FTy → Type} [FloatOps F] [Cert.Pre_finite_inputs.Facts]
    (a0 : FVec F S8192x1024 .f32) (a1 : IVec S8192 32) (a2 : FVec F S16x1024x1024 .f32)
    (a3 : FVec F S16x1024 .f32)
    (h : Cert.Pre_finite_inputs.fn (F := F) a0 a1 a2 a3 = fun _ => 1#1) : Cert.Moe.InRange a1 := by
  intro n
  have e := congrFun h ValueIdx.ix0
  dsimp only [Cert.Pre_finite_inputs.fn, Cert.Pre_finite_inputs.fn_part1] at e
  -- the outer `and`: the finiteness conjuncts on the left, the `all` of the range test on the right
  obtain ⟨-, hall⟩ := IntOp.andi_eq_one.1 e
  -- the `all` holds, so the range test holds at token `n`
  have hn := Host.reduce_andi_all _ _ _ _ _ hall (ix1 n)
  -- the range test at `n` is the `and` of the two signed compares
  obtain ⟨hge, hlt⟩ := IntOp.andi_eq_one.1 hn
  have hge' := IntOp.cmpi_sge.1 hge
  have hlt' := IntOp.cmpi_slt.1 hlt
  exact toNat_lt_sixteen _ hge' hlt'

end Cert.Moe

end
-- ==== Proof.lean ====
/-
  The certificate's five claims. Both kernel programs (the word-level one and its idealization, one text read at two
  float instances) run to the end and leave their arguments unchanged whatever the labels are: the tile table that selects
  the expert's weight and bias blocks is a count capped at fifteen, so every selected block lies inside its array. The
  reference runs as sixteen masked updates and a clip at zero. For labels in [0, 16) — the added range conjunct of the
  precondition — both results are, entry by entry over the extended reals, max (x[n, ·] · w[e n] + b[e n]) 0: the kernel
  reaches it by sorting the tokens by label into runs padded to whole tiles of 128 rows, one matrix product per tile with
  the tile's expert, and reading each token's row back from its padded position; the reference by selecting, for each
  token, the one of sixteen full products whose number is the token's label. No law beyond reading both sums in the same
  order is used, so finiteness of the float inputs is not needed; the idealization rewrote nothing, so the third claim
  is trivial.
-/
import proofs.«405730_j30700426232147_3_alg».proof.Defs
import proofs.«405730_j30700426232147_3_alg».proof.Proof.Gen.Kernel
import proofs.«405730_j30700426232147_3_alg».proof.Proof.Gen.KernelIdeal
import proofs.«405730_j30700426232147_3_alg».proof.Proof.Gen.ReferenceIdeal
import proofs.«405730_j30700426232147_3_alg».proof.Proof.Gen.Pre_finite_inputs
import proofs.«405730_j30700426232147_3_alg».proof.Proof.BRun
import proofs.«405730_j30700426232147_3_alg».proof.Proof.KRun
import proofs.«405730_j30700426232147_3_alg».proof.Proof.KValue
import proofs.«405730_j30700426232147_3_alg».proof.Proof.RefRun
import proofs.«405730_j30700426232147_3_alg».proof.Proof.RefValue
import proofs.«405730_j30700426232147_3_alg».proof.Proof.PreRange

noncomputable section

namespace Cert.Proof

open Idealize.ShloMosaic Idealize.SL.Sem

/-- The word-level kernel program runs and keeps its arguments, for every memory. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories that agree on the arguments, with labels in range, both programs end at the same array. -/
theorem algebraic : Cert.algebraic_KernelIdeal_ReferenceIdeal := by
  intro m ρ m' ρ' hpre hagree
  have hr : ∀ c : Dev Cert.KernelIdeal.nD, Cert.Moe.InRange (m ((c.tc : Thread Cert.KernelIdeal.nD Cert.KernelIdeal.τ).loc Cert.KernelIdeal.main_arg1)) :=
    fun c => Cert.Moe.inRange_of_pre _ _ _ _ (hpre c)
  refine ⟨_, Cert.KernelIdeal.Hand.kernel_run m ρ hr, ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.Hand.res_eq m' c (by rw [(hagree c).2.1]; exact hr c),
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
